-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x32 : Shape := ⟨2, ![300000, 32]⟩
abbrev S27x32x64 : Shape := ⟨3, ![27, 32, 64]⟩
abbrev S64 : Shape := ⟨1, ![64]⟩
abbrev S27x100000 : Shape := ⟨2, ![27, 100000]⟩
abbrev S_ : Shape := ⟨0, ![]⟩

class Facts : Prop where
  bcast_S_S300000x32 : S_.BroadcastsInDim S300000x32 (![] : Fin 0 → Fin S300000x32.rank)
  reducesTo_S300000x32_S_d0_1 : S300000x32.ReducesTo [0, 1] S_
  h_S_ : 0 < S_.numel
  bcast_S_S27x32x64 : S_.BroadcastsInDim S27x32x64 (![] : Fin 0 → Fin S27x32x64.rank)
  reducesTo_S27x32x64_S_d0_1_2 : S27x32x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S300000x32 .f32) (main_arg1 : FVec F S27x32x64 .f32) (main_arg2 : FVec F S64 .f32) (main_arg3 : FVec F S64 .f32) (main_arg4 : IVec S27x100000 32) (main_arg5 : IVec S27x100000 32) : IVec S_ 1 :=
  let main_v0 : FVec F S300000x32 .f32 := Host.absf main_arg0
  let main_cst : FVec F S_ .f32 := constant S_ .f32 0x7F800000#32
  let main_v1 : FVec F S300000x32 .f32 := broadcastInDim S300000x32 ![] bcast_S_S300000x32 main_cst
  let main_v2 : IVec S300000x32 1 := cmpf .olt main_v0 main_v1
  let main_c : IVec S_ 1 := constantI S_ 1 1#1
  let main_v3 : IVec S_ 1 := (fun x v => Host.reduce IntOp.andi x v reducesTo_S300000x32_S_d0_1 h_S_) main_v2 main_c
  let main_v4 : FVec F S27x32x64 .f32 := Host.absf main_arg1
  let main_cst_0 : FVec F S_ .f32 := constant S_ .f32 0x7F800000#32
  let main_v5 : FVec F S27x32x64 .f32 := broadcastInDim S27x32x64 ![] bcast_S_S27x32x64 main_cst_0
  let main_v6 : IVec S27x32x64 1 := cmpf .olt main_v4 main_v5
  let main_c_1 : IVec S_ 1 := constantI S_ 1 1#1
  let main_v7 : IVec S_ 1 := (fun x v => Host.reduce IntOp.andi x v reducesTo_S27x32x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S300000x32 : Shape := ⟨2, ![300000, 32]⟩
abbrev S27x32x64 : Shape := ⟨3, ![27, 32, 64]⟩
abbrev S64 : Shape := ⟨1, ![64]⟩
abbrev S27x100000 : Shape := ⟨2, ![27, 100000]⟩
abbrev S_ : Shape := ⟨0, ![]⟩
abbrev S27x100000x1 : Shape := ⟨3, ![27, 100000, 1]⟩
abbrev S27x100000x32 : Shape := ⟨3, ![27, 100000, 32]⟩
abbrev S27x100000x64 : Shape := ⟨3, ![27, 100000, 64]⟩
abbrev S1x20000x32 : Shape := ⟨3, ![1, 20000, 32]⟩
abbrev S1x32x64 : Shape := ⟨3, ![1, 32, 64]⟩
abbrev S1x20000x64 : Shape := ⟨3, ![1, 20000, 64]⟩
abbrev S20000x32 : Shape := ⟨2, ![20000, 32]⟩
abbrev S32x64 : Shape := ⟨2, ![32, 64]⟩
abbrev S20000x64 : Shape := ⟨2, ![20000, 64]⟩
abbrev S300000x64 : Shape := ⟨2, ![300000, 64]⟩
abbrev S2700000 : Shape := ⟨1, ![2700000]⟩
abbrev S2700000x64 : Shape := ⟨2, ![2700000, 64]⟩
abbrev S2700000x1 : Shape := ⟨2, ![2700000, 1]⟩
abbrev S64x1 : Shape := ⟨2, ![64, 1]⟩
abbrev S1x8 : Shape := ⟨2, ![1, 8]⟩
abbrev S64x8 : Shape := ⟨2, ![64, 8]⟩
abbrev S30000x64 : Shape := ⟨2, ![30000, 64]⟩
abbrev S30000x8 : Shape := ⟨2, ![30000, 8]⟩
abbrev S8 : Shape := ⟨1, ![8]⟩
abbrev S8x8 : Shape := ⟨2, ![8, 8]⟩
abbrev S1x64 : Shape := ⟨2, ![1, 64]⟩

abbrev nBuf : Space → Nat
  | .hbm => 83
  | .vmem => 19
  | .smem => 0
  | _ => 0

abbrev bufTy : (tb : Table) → Fin (tcTables nBuf tb) → BufTy
  | .hbm, ⟨0, _⟩ => ⟨S300000x32, .f32⟩
  | .hbm, ⟨1, _⟩ => ⟨S27x32x64, .f32⟩
  | .hbm, ⟨2, _⟩ => ⟨S64, .f32⟩
  | .hbm, ⟨3, _⟩ => ⟨S64, .f32⟩
  | .hbm, ⟨4, _⟩ => ⟨S27x100000, .i32⟩
  | .hbm, ⟨5, _⟩ => ⟨S27x100000, .i32⟩
  | .hbm, ⟨6, _⟩ => ⟨S300000x32, .bf16⟩
  | .hbm, ⟨7, _⟩ => ⟨S27x32x64, .bf16⟩
  | .hbm, ⟨8, _⟩ => ⟨S_, .i32⟩
  | .hbm, ⟨9, _⟩ => ⟨S27x100000, .i32⟩
  | .hbm, ⟨10, _⟩ => ⟨S27x100000, .i1⟩
  | .hbm, ⟨11, _⟩ => ⟨S_, .i32⟩
  | .hbm, ⟨12, _⟩ => ⟨S27x100000, .i32⟩
  | .hbm, ⟨13, _⟩ => ⟨S27x100000, .i32⟩
  | .hbm, ⟨14, _⟩ => ⟨S27x100000, .i32⟩
  | .hbm, ⟨15, _⟩ => ⟨S27x100000x1, .i32⟩
  | .hbm, ⟨16, _⟩ => ⟨S27x100000x32, .bf16⟩
  | .hbm, ⟨17, _⟩ => ⟨S27x100000x64, .f32⟩
  | .hbm, ⟨18, _⟩ => ⟨S_, .f32⟩
  | .hbm, ⟨19, _⟩ => ⟨S300000x64, .f32⟩
  | .hbm, ⟨20, _⟩ => ⟨S2700000, .i32⟩
  | .hbm, ⟨21, _⟩ => ⟨S2700000x64, .f32⟩
  | .hbm, ⟨22, _⟩ => ⟨S_, .i32⟩
  | .hbm, ⟨23, _⟩ => ⟨S2700000, .i32⟩
  | .hbm, ⟨24, _⟩ => ⟨S2700000, .i1⟩
  | .hbm, ⟨25, _⟩ => ⟨S_, .i32⟩
  | .hbm, ⟨26, _⟩ => ⟨S2700000, .i32⟩
  | .hbm, ⟨27, _⟩ => ⟨S2700000, .i32⟩
  | .hbm, ⟨28, _⟩ => ⟨S2700000, .i32⟩
  | .hbm, ⟨29, _⟩ => ⟨S2700000x1, .i32⟩
  | .hbm, ⟨30, _⟩ => ⟨S300000x64, .f32⟩
  | .hbm, ⟨31, _⟩ => ⟨S64, .i32⟩
  | .hbm, ⟨32, _⟩ => ⟨S_, .i32⟩
  | .hbm, ⟨33, _⟩ => ⟨S_, .i32⟩
  | .hbm, ⟨34, _⟩ => ⟨S64, .i32⟩
  | .hbm, ⟨35, _⟩ => ⟨S64, .i32⟩
  | .hbm, ⟨36, _⟩ => ⟨S64, .i32⟩
  | .hbm, ⟨37, _⟩ => ⟨S_, .i32⟩
  | .hbm, ⟨38, _⟩ => ⟨S64, .i32⟩
  | .hbm, ⟨39, _⟩ => ⟨S64, .i1⟩
  | .hbm, ⟨40, _⟩ => ⟨S64, .i32⟩
  | .hbm, ⟨41, _⟩ => ⟨S64, .i32⟩
  | .hbm, ⟨42, _⟩ => ⟨S_, .i32⟩
  | .hbm, ⟨43, _⟩ => ⟨S64, .i32⟩
  | .hbm, ⟨44, _⟩ => ⟨S64, .i1⟩
  | .hbm, ⟨45, _⟩ => ⟨S64, .i1⟩
  | .hbm, ⟨46, _⟩ => ⟨S_, .i32⟩
  | .hbm, ⟨47, _⟩ => ⟨S64, .i32⟩
  | .hbm, ⟨48, _⟩ => ⟨S64, .i32⟩
  | .hbm, ⟨49, _⟩ => ⟨S64, .i32⟩
  | .hbm, ⟨50, _⟩ => ⟨S64x1, .i32⟩
  | .hbm, ⟨51, _⟩ => ⟨S1x8, .i32⟩
  | .hbm, ⟨52, _⟩ => ⟨S64x8, .i32⟩
  | .hbm, ⟨53, _⟩ => ⟨S64x8, .i32⟩
  | .hbm, ⟨54, _⟩ => ⟨S64x8, .i1⟩
  | .hbm, ⟨55, _⟩ => ⟨S64x8, .f32⟩
  | .hbm, ⟨56, _⟩ => ⟨S1x8, .f32⟩
  | .hbm, ⟨57, _⟩ => ⟨S1x8, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S8, .f32⟩
  | .hbm, ⟨72, _⟩ => ⟨S8x8, .f32⟩
  | .hbm, ⟨73, _⟩ => ⟨S64, .f32⟩
  | .hbm, ⟨74, _⟩ => ⟨S8x8, .f32⟩
  | .hbm, ⟨75, _⟩ => ⟨S64, .f32⟩
  | .hbm, ⟨76, _⟩ => ⟨S64, .f32⟩
  | .hbm, ⟨77, _⟩ => ⟨S1x64, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S1x64, .f32⟩
  | .hbm, ⟨82, _⟩ => ⟨S300000x64, .f32⟩
  | .local _ .vmem, ⟨0, _⟩ => ⟨S1x20000x32, .bf16⟩
  | .local _ .vmem, ⟨1, _⟩ => ⟨S1x20000x32, .bf16⟩
  | .local _ .vmem, ⟨2, _⟩ => ⟨S1x32x64, .bf16⟩
  | .local _ .vmem, ⟨3, _⟩ => ⟨S1x32x64, .bf16⟩
  | .local _ .vmem, ⟨4, _⟩ => ⟨S1x20000x64, .f32⟩
  | .local _ .vmem, ⟨5, _⟩ => ⟨S1x20000x64, .f32⟩
  | .local _ .vmem, ⟨6, _⟩ => ⟨S30000x64, .f32⟩
  | .local _ .vmem, ⟨7, _⟩ => ⟨S30000x64, .f32⟩
  | .local _ .vmem, ⟨8, _⟩ => ⟨S64x8, .f32⟩
  | .local _ .vmem, ⟨9, _⟩ => ⟨S1x8, .f32⟩
  | .local _ .vmem, ⟨10, _⟩ => ⟨S1x8, .f32⟩
  | .local _ .vmem, ⟨11, _⟩ => ⟨S1x8, .f32⟩
  | .local _ .vmem, ⟨12, _⟩ => ⟨S1x8, .f32⟩
  | .local _ .vmem, ⟨13, _⟩ => ⟨S30000x64, .f32⟩
  | .local _ .vmem, ⟨14, _⟩ => ⟨S30000x64, .f32⟩
  | .local _ .vmem, ⟨15, _⟩ => ⟨S1x64, .f32⟩
  | .local _ .vmem, ⟨16, _⟩ => ⟨S1x64, .f32⟩
  | .local _ .vmem, ⟨17, _⟩ => ⟨S30000x64, .f32⟩
  | .local _ .vmem, ⟨18, _⟩ => ⟨S30000x64, .f32⟩
  | _, _ => ⟨S300000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v21 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v22 : Ref sig .tc := ⟨.hbm, 55, rfl⟩
abbrev main_v23_0 : Ref sig .tc := ⟨.hbm, 56, rfl⟩
abbrev main_v23_1 : Ref sig .tc := ⟨.hbm, 57, rfl⟩
abbrev main_v24 : Ref sig .tc := ⟨.hbm, 58, rfl⟩
abbrev main_cst_4 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_5 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_6 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_scratch0 : Ref sig .tc := ⟨.vmem, 11, rfl⟩
abbrev cc1_scratch1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨2, ![27, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x20000x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_15 : BitVec 32 := 0#32
  let v26 : BitVec 1 := Scalar.cmpi .ne v25 c0_i32_15
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S30000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S30000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S30000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  inb_S1x20000x32_S1x20000x32_0_0_0 : ∀ a, (![0, 0, 0] : Fin 3 → Nat) a + S1x20000x32.size a ≤ S1x20000x32.size a
  h_S1x20000x32 : 0 < S1x20000x32.numel
  shapeCasts_S1x20000x32_S20000x32 : S1x20000x32.ShapeCasts S20000x32
  inb_S1x32x64_S1x32x64_0_0_0 : ∀ a, (![0, 0, 0] : Fin 3 → Nat) a + S1x32x64.size a ≤ S1x32x64.size a
  h_S1x32x64 : 0 < S1x32x64.numel
  shapeCasts_S1x32x64_S32x64 : S1x32x64.ShapeCasts S32x64
  inb_S1x20000x64_S1x20000x64_0_0_0 : ∀ a, (![0, 0, 0] : Fin 3 → Nat) a + S1x20000x64.size a ≤ S1x20000x64.size a
  h_S1x20000x64 : 0 < S1x20000x64.numel
  shapeCasts_S1x20000x64_S20000x64 : S1x20000x64.ShapeCasts S20000x64
  shapeCasts_S20000x64_S1x20000x64 : S20000x64.ShapeCasts S1x20000x64
  bcast_S_S300000x64 : S_.BroadcastsInDim S300000x64 (![] : Fin 0 → Fin S300000x64.rank)
  shapeCasts_S27x100000_S2700000 : S27x100000.ShapeCasts S2700000
  shapeCasts_S27x100000x64_S2700000x64 : S27x100000x64.ShapeCasts S2700000x64
  bcast_S_S2700000 : S_.BroadcastsInDim S2700000 (![] : Fin 0 → Fin S2700000.rank)
  bcast_S2700000_S2700000x1_0 : S2700000.BroadcastsInDim S2700000x1 (![0] : Fin 1 → Fin S2700000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  bcast_S1x8_S64x8_0_1 : S1x8.BroadcastsInDim S64x8 (![0, 1] : Fin 2 → Fin S64x8.rank)
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S30000x64_S30000x64_0_0 : ∀ a, (![0, 0] : Fin 2 → Nat) a + S30000x64.size a ≤ S30000x64.size a
  h_S30000x64 : 0 < S30000x64.numel
  shapeCasts_S30000x64_S30000x64 : S30000x64.ShapeCasts S30000x64
  inb_S64x8_S64x8_0_0 : ∀ a, (![0, 0] : Fin 2 → Nat) a + S64x8.size a ≤ S64x8.size a
  h_S64x8 : 0 < S64x8.numel
  shapeCasts_S64x8_S64x8 : S64x8.ShapeCasts S64x8
  reduces_S30000x8_S8 : S30000x8.Reduces [0] S8
  shapeCasts_S8_S1x8 : S8.ShapeCasts S1x8
  shapeCasts_S1x8_S8 : S1x8.ShapeCasts S8
  bcast_S_S8 : S_.BroadcastsInDim S8 (![] : Fin 0 → Fin S8.rank)
  bcast_S8_S8x8_0 : S8.BroadcastsInDim S8x8 (![0] : Fin 1 → Fin S8x8.rank)
  shapeCasts_S8x8_S64 : S8x8.ShapeCasts S64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S30000x64 : S1x64.Broadcasts S30000x64
  gather_S300000x32_S27x100000x1_S27x100000x32_2_0_n_n_0_2_132_wf : GatherDims.WF S300000x32 S27x100000x1 S27x100000x32 [2] [0] [] [0] [] 2 ![1, 32]
  dot_S20000x32_S32x64_S20000x64_1_0_0_1_n_n_wf : DotDims.WF S20000x32 S32x64 S20000x64 [1] [0] [0] [1] [] []
  scatter_S300000x64_S2700000x1_S2700000x64_1_0_0_1_wf : ScatterDims.WF S300000x64 S2700000x1 S2700000x64 [1] [0] [0] 1
  dot_S30000x64_S64x8_S30000x8_1_0_0_1_n_n_wf : DotDims.WF S30000x64 S64x8 S30000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x20000x32.size a ≤ S27x100000x32.size a
  hwx0_0 : ∀ i : grid0.Coords, EltTy.bits .bf16 = 32 ∨ (Rect.block (s := S27x100000x32) S1x20000x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x64.size a ≤ S27x32x64.size a
  hwx0_1 : ∀ i : grid0.Coords, EltTy.bits .bf16 = 32 ∨ (Rect.block (s := S27x32x64) S1x32x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x20000x64.size a ≤ S27x100000x64.size a
  hwx0_2 : ∀ i : grid0.Coords, EltTy.bits .f32 = 32 ∨ (Rect.block (s := S27x100000x64) S1x20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S30000x64.size a ≤ S300000x64.size a
  hwx1_0 : ∀ i : grid1.Coords, EltTy.bits .f32 = 32 ∨ (Rect.block (s := S300000x64) S30000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x8.size a ≤ S64x8.size a
  hwx1_1 : ∀ i : grid1.Coords, EltTy.bits .f32 = 32 ∨ (Rect.block (s := S64x8) S64x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8.size a ≤ S1x8.size a
  hwx1_2 : ∀ i : grid1.Coords, EltTy.bits .f32 = 32 ∨ (Rect.block (s := S1x8) S1x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S30000x64.size a ≤ S300000x64.size a
  hwx2_0 : ∀ i : grid2.Coords, EltTy.bits .f32 = 32 ∨ (Rect.block (s := S300000x64) S30000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S30000x64.size a ≤ S300000x64.size a
  hwx2_3 : ∀ i : grid2.Coords, EltTy.bits .f32 = 32 ∨ (Rect.block (s := S300000x64) S30000x64.size (cc2_transform_3 i) (hinb2_3 i)).WholeWords (EltTy.packing .f32)

variable [Facts₀]

def gather_S300000x32_S27x100000x1_S27x100000x32_2_0_n_n_0_2_132 : GatherDims S300000x32 S27x100000x1 S27x100000x32 where
  offsetDims := [2]
  collapsedSliceDims := [0]
  operandBatchingDims := []
  startIndicesBatchingDims := []
  startIndexMap := [0]
  indexVectorDim := 2
  sliceSizes := ![1, 32]
  wf := gather_S300000x32_S27x100000x1_S27x100000x32_2_0_n_n_0_2_132_wf
def dot_S20000x32_S32x64_S20000x64_1_0_0_1_n_n : DotDims S20000x32 S32x64 S20000x64 where
  lhsContracting := [1]
  rhsContracting := [0]
  lhsNonContracting := [0]
  rhsNonContracting := [1]
  lhsBatch := []
  rhsBatch := []
  wf := dot_S20000x32_S32x64_S20000x64_1_0_0_1_n_n_wf
def scatter_S300000x64_S2700000x1_S2700000x64_1_0_0_1 : ScatterDims S300000x64 S2700000x1 S2700000x64 where
  updateWindowDims := [1]
  insertedWindowDims := [0]
  scatterDimsToOperandDims := [0]
  indexVectorDim := 1
  wf := scatter_S300000x64_S2700000x1_S2700000x64_1_0_0_1_wf
def dot_S30000x64_S64x8_S30000x8_1_0_0_1_n_n : DotDims S30000x64 S64x8 S30000x8 where
  lhsContracting := [1]
  rhsContracting := [0]
  lhsNonContracting := [0]
  rhsNonContracting := [1]
  lhsBatch := []
  rhsBatch := []
  wf := dot_S30000x64_S64x8_S30000x8_1_0_0_1_n_n_wf

abbrev win0_0 : Pipeline.Window sig grid0 :=
  Pipeline.Window.ofSpec (Memref.whole main_v8) S1x20000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S30000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S64x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23_0) S1x8.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23_1) S1x8.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v19) S30000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S30000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S300000x32 : Shape := ⟨2, ![300000, 32]⟩
abbrev S27x32x64 : Shape := ⟨3, ![27, 32, 64]⟩
abbrev S64 : Shape := ⟨1, ![64]⟩
abbrev S27x100000 : Shape := ⟨2, ![27, 100000]⟩
abbrev S_ : Shape := ⟨0, ![]⟩
abbrev S27x100000x1 : Shape := ⟨3, ![27, 100000, 1]⟩
abbrev S27x100000x32 : Shape := ⟨3, ![27, 100000, 32]⟩
abbrev S27x100000x64 : Shape := ⟨3, ![27, 100000, 64]⟩
abbrev S300000x64 : Shape := ⟨2, ![300000, 64]⟩
abbrev S2700000 : Shape := ⟨1, ![2700000]⟩
abbrev S2700000x64 : Shape := ⟨2, ![2700000, 64]⟩
abbrev S2700000x1 : Shape := ⟨2, ![2700000, 1]⟩
abbrev S300000x8x8 : Shape := ⟨3, ![300000, 8, 8]⟩
abbrev S8 : Shape := ⟨1, ![8]⟩
abbrev S1x8x1 : Shape := ⟨3, ![1, 8, 1]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S300000x32, .f32⟩
  | .hbm, ⟨1, _⟩ => ⟨S27x32x64, .f32⟩
  | .hbm, ⟨2, _⟩ => ⟨S64, .f32⟩
  | .hbm, ⟨3, _⟩ => ⟨S64, .f32⟩
  | .hbm, ⟨4, _⟩ => ⟨S27x100000, .i32⟩
  | .hbm, ⟨5, _⟩ => ⟨S27x100000, .i32⟩
  | .hbm, ⟨6, _⟩ => ⟨S_, .i32⟩
  | .hbm, ⟨7, _⟩ => ⟨S27x100000, .i32⟩
  | .hbm, ⟨8, _⟩ => ⟨S27x100000, .i1⟩
  | .hbm, ⟨9, _⟩ => ⟨S_, .i32⟩
  | .hbm, ⟨10, _⟩ => ⟨S27x100000, .i32⟩
  | .hbm, ⟨11, _⟩ => ⟨S27x100000, .i32⟩
  | .hbm, ⟨12, _⟩ => ⟨S27x100000, .i32⟩
  | .hbm, ⟨13, _⟩ => ⟨S27x100000x1, .i32⟩
  | .hbm, ⟨14, _⟩ => ⟨S27x100000x32, .f32⟩
  | .hbm, ⟨15, _⟩ => ⟨S27x100000x64, .f32⟩
  | .hbm, ⟨16, _⟩ => ⟨S_, .f32⟩
  | .hbm, ⟨17, _⟩ => ⟨S300000x64, .f32⟩
  | .hbm, ⟨18, _⟩ => ⟨S2700000, .i32⟩
  | .hbm, ⟨19, _⟩ => ⟨S2700000x64, .f32⟩
  | .hbm, ⟨20, _⟩ => ⟨S_, .i32⟩
  | .hbm, ⟨21, _⟩ => ⟨S2700000, .i32⟩
  | .hbm, ⟨22, _⟩ => ⟨S2700000, .i1⟩
  | .hbm, ⟨23, _⟩ => ⟨S_, .i32⟩
  | .hbm, ⟨24, _⟩ => ⟨S2700000, .i32⟩
  | .hbm, ⟨25, _⟩ => ⟨S2700000, .i32⟩
  | .hbm, ⟨26, _⟩ => ⟨S2700000, .i32⟩
  | .hbm, ⟨27, _⟩ => ⟨S2700000x1, .i32⟩
  | .hbm, ⟨28, _⟩ => ⟨S300000x64, .f32⟩
  | .hbm, ⟨29, _⟩ => ⟨S300000x8x8, .f32⟩
  | .hbm, ⟨30, _⟩ => ⟨S_, .f32⟩
  | .hbm, ⟨31, _⟩ => ⟨S8, .f32⟩
  | .hbm, ⟨32, _⟩ => ⟨S1x8x1, .f32⟩
  | .hbm, ⟨33, _⟩ => ⟨S_, .f32⟩
  | .hbm, ⟨34, _⟩ => ⟨S1x8x1, .f32⟩
  | .hbm, ⟨35, _⟩ => ⟨S1x8x1, .f32⟩
  | .hbm, ⟨36, _⟩ => ⟨S_, .i32⟩
  | .hbm, ⟨37, _⟩ => ⟨S_, .f32⟩
  | .hbm, ⟨38, _⟩ => ⟨S8, .f32⟩
  | .hbm, ⟨39, _⟩ => ⟨S1x8x1, .f32⟩
  | .hbm, ⟨40, _⟩ => ⟨S_, .f32⟩
  | .hbm, ⟨41, _⟩ => ⟨S1x8x1, .f32⟩
  | .hbm, ⟨42, _⟩ => ⟨S1x8x1, .f32⟩
  | .hbm, ⟨43, _⟩ => ⟨S300000x8x8, .f32⟩
  | .hbm, ⟨44, _⟩ => ⟨S300000x8x8, .f32⟩
  | .hbm, ⟨45, _⟩ => ⟨S300000x8x8, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8, .f32⟩
  | .hbm, ⟨51, _⟩ => ⟨S1x8x1, .f32⟩
  | .hbm, ⟨52, _⟩ => ⟨S1x8x1, .f32⟩
  | .hbm, ⟨53, _⟩ => ⟨S1x8x1, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S1x8x1, .f32⟩
  | .hbm, ⟨59, _⟩ => ⟨S1x8x1, .f32⟩
  | .hbm, ⟨60, _⟩ => ⟨S300000x8x8, .f32⟩
  | .hbm, ⟨61, _⟩ => ⟨S300000x8x8, .f32⟩
  | .hbm, ⟨62, _⟩ => ⟨S_, .f32⟩
  | .hbm, ⟨63, _⟩ => ⟨S1x8x1, .f32⟩
  | .hbm, ⟨64, _⟩ => ⟨S1x8x1, .f32⟩
  | .hbm, ⟨65, _⟩ => ⟨S1x8x1, .f32⟩
  | .hbm, ⟨66, _⟩ => ⟨S300000x8x8, .f32⟩
  | .hbm, ⟨67, _⟩ => ⟨S300000x8x8, .f32⟩
  | .hbm, ⟨68, _⟩ => ⟨S300000x64, .f32⟩
  | .hbm, ⟨69, _⟩ => ⟨S1x64, .f32⟩
  | .hbm, ⟨70, _⟩ => ⟨S300000x64, .f32⟩
  | .hbm, ⟨71, _⟩ => ⟨S300000x64, .f32⟩
  | .hbm, ⟨72, _⟩ => ⟨S1x64, .f32⟩
  | .hbm, ⟨73, _⟩ => ⟨S300000x64, .f32⟩
  | .hbm, ⟨74, _⟩ => ⟨S300000x64, .f32⟩
  | .hbm, ⟨75, _⟩ => ⟨S_, .f32⟩
  | .hbm, ⟨76, _⟩ => ⟨S300000x64, .f32⟩
  | .hbm, ⟨77, _⟩ => ⟨S300000x64, .i1⟩
  | .hbm, ⟨78, _⟩ => ⟨S_, .f32⟩
  | .hbm, ⟨79, _⟩ => ⟨S300000x64, .f32⟩
  | .hbm, ⟨80, _⟩ => ⟨S300000x64, .f32⟩
  | .hbm, ⟨81, _⟩ => ⟨S300000x64, .f32⟩
  | _, _ => ⟨S300000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_cst_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_cst_1 : Ref sig .tc := ⟨.hbm, 47, rfl⟩
abbrev main_call0_v8 : Ref sig .tc := ⟨.hbm, 48, rfl⟩
abbrev main_call0_cst_2 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_v12 : Ref sig .tc := ⟨.hbm, 53, rfl⟩
abbrev main_call0_cst_3 : Ref sig .tc := ⟨.hbm, 54, rfl⟩
abbrev main_call0_v13 : Ref sig .tc := ⟨.hbm, 55, rfl⟩
abbrev main_call0_cst_4 : Ref sig .tc := ⟨.hbm, 56, rfl⟩
abbrev main_call0_call0_v0 : Ref sig .tc := ⟨.hbm, 57, rfl⟩
abbrev main_call0_call0_v1 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_6 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_7 : Ref sig .tc := ⟨.hbm, 75, rfl⟩
abbrev main_v38 : Ref sig .tc := ⟨.hbm, 76, rfl⟩
abbrev main_v39 : Ref sig .tc := ⟨.hbm, 77, rfl⟩
abbrev main_cst_8 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩

abbrev nD : Nat := 1
abbrev τ : Topo := Topo.v7x

variable {F : FTy → Type} [FloatOps F]

class Facts₀ : Prop where
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  bcast_S_S300000x64 : S_.BroadcastsInDim S300000x64 (![] : Fin 0 → Fin S300000x64.rank)
  shapeCasts_S27x100000_S2700000 : S27x100000.ShapeCasts S2700000
  shapeCasts_S27x100000x64_S2700000x64 : S27x100000x64.ShapeCasts S2700000x64
  bcast_S_S2700000 : S_.BroadcastsInDim S2700000 (![] : Fin 0 → Fin S2700000.rank)
  bcast_S2700000_S2700000x1_0 : S2700000.BroadcastsInDim S2700000x1 (![0] : Fin 1 → Fin S2700000x1.rank)
  shapeCasts_S300000x64_S300000x8x8 : S300000x64.ShapeCasts S300000x8x8
  reducesTo_S300000x8x8_S8_d0_2 : S300000x8x8.ReducesTo [0, 2] S8
  h_S_ : 0 < S_.numel
  bcast_S8_S1x8x1_1 : S8.BroadcastsInDim S1x8x1 (![1] : Fin 1 → Fin S1x8x1.rank)
  bcast_S_S1x8x1 : S_.BroadcastsInDim S1x8x1 (![] : Fin 0 → Fin S1x8x1.rank)
  bcast_S1x8x1_S300000x8x8_0_1_2 : S1x8x1.BroadcastsInDim S300000x8x8 (![0, 1, 2] : Fin 3 → Fin S300000x8x8.rank)
  shapeCasts_S300000x8x8_S300000x64 : S300000x8x8.ShapeCasts S300000x64
  bcast_S64_S1x64_1 : S64.BroadcastsInDim S1x64 (![1] : Fin 1 → Fin S1x64.rank)
  bcast_S1x64_S300000x64_0_1 : S1x64.BroadcastsInDim S300000x64 (![0, 1] : Fin 2 → Fin S300000x64.rank)
  gather_S300000x32_S27x100000x1_S27x100000x32_2_0_n_n_0_2_132_wf : GatherDims.WF S300000x32 S27x100000x1 S27x100000x32 [2] [0] [] [0] [] 2 ![1, 32]
  dot_S27x100000x32_S27x32x64_S27x100000x64_2_1_1_2_0_0_wf : DotDims.WF S27x100000x32 S27x32x64 S27x100000x64 [2] [1] [1] [2] [0] [0]
  scatter_S300000x64_S2700000x1_S2700000x64_1_0_0_1_wf : ScatterDims.WF S300000x64 S2700000x1 S2700000x64 [1] [0] [0] 1

variable [Facts₀]

def gather_S300000x32_S27x100000x1_S27x100000x32_2_0_n_n_0_2_132 : GatherDims S300000x32 S27x100000x1 S27x100000x32 where
  offsetDims := [2]
  collapsedSliceDims := [0]
  operandBatchingDims := []
  startIndicesBatchingDims := []
  startIndexMap := [0]
  indexVectorDim := 2
  sliceSizes := ![1, 32]
  wf := gather_S300000x32_S27x100000x1_S27x100000x32_2_0_n_n_0_2_132_wf
def dot_S27x100000x32_S27x32x64_S27x100000x64_2_1_1_2_0_0 : DotDims S27x100000x32 S27x32x64 S27x100000x64 where
  lhsContracting := [2]
  rhsContracting := [1]
  lhsNonContracting := [1]
  rhsNonContracting := [2]
  lhsBatch := [0]
  rhsBatch := [0]
  wf := dot_S27x100000x32_S27x32x64_S27x100000x64_2_1_1_2_0_0_wf
def scatter_S300000x64_S2700000x1_S2700000x64_1_0_0_1 : ScatterDims S300000x64 S2700000x1 S2700000x64 where
  updateWindowDims := [1]
  insertedWindowDims := [0]
  scatterDimsToOperandDims := [0]
  indexVectorDim := 1
  wf := scatter_S300000x64_S2700000x1_S2700000x64_1_0_0_1_wf

class Facts : Prop extends Facts₀ where

variable [Facts]
-- ==== Proof.K.R0.lean ====
import proofs.«127601_j2001454760193_1_alg».proof.Proof.Gen.Kernel.Launch
import proofs.«127601_j2001454760193_1_alg».proof.Proof.Gen.Kernel.Skeleton
import proofs.«127601_j2001454760193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The convolution call (the first of the three kernel calls) at a generic grid point

The kernel of the first call multiplies the gathered block of the point (bf16, 1×20000×32) by the weight block of the
point's offset (bf16, 1×32×64) into the output block (f32, 1×20000×64). Stated here at a parameter `V` — the buffer
contents when the call is entered —: each window's block at a point, what the body leaves in the output window from
the two input blocks, the body's triple, the proof data of the pipeline and its body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, so the block of the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved, so the block of the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each block whole -/

abbrev r0_0 : Rect S1x20000x32 := Rect.unit (s := S1x20000x32) ![0, 0, 0] S1x20000x32.size inb_S1x20000x32_S1x20000x32_0_0_0
abbrev r0_1 : Rect S1x32x64 := Rect.unit (s := S1x32x64) ![0, 0, 0] S1x32x64.size inb_S1x32x64_S1x32x64_0_0_0
abbrev r0_2 : Rect S1x20000x64 := Rect.unit (s := S1x20000x64) ![0, 0, 0] S1x20000x64.size inb_S1x20000x64_S1x20000x64_0_0_0

/-! ## What the body leaves in the output window's buffer -/

/-- The output window's staging buffer after the body, from the two input blocks: its one store, of the product of
    the gathered block and the weight block, over the whole buffer. -/
def out0_2 (x0 : Vec F S1x20000x32 .bf16) (x1 : Vec F S1x32x64 .bf16) : Vec F S1x20000x64 .f32 :=
  View.canon [⟨r0_2, k0_pay1 (View.ld x0 r0_0) (View.ld x1 r0_1)⟩]

/-- The one store is of the whole buffer, so it covers it. -/
theorem cover0_2 (p0 : Vec F S1x20000x64 .f32) (y : S1x20000x64.Idx) :
    ∃ pc ∈ ([⟨r0_2, p0⟩] : List (View.Piece (Elt F) S1x20000x64 .f32)), y ∈ pc.1.set :=
  View.cover_of_tiled [⟨r0_2, p0⟩] S1x20000x64.size (by rfl) y

/-! ## The body's triple -/

set_option maxHeartbeats 1000000 in
/-- The kernel body on whole staging memrefs, the two inputs' at contents `x0`, `x1` and the output's at anything,
    runs to the continuation holding the inputs' as they were and the output's at `out0_2 x0 x1`: two whole-block
    loads, a load of the output buffer whose value is dropped, and one whole-block store. -/
theorem sound_kernel0 (c : Dev nD) (E : Set ℕ) (i : grid0.Coords) (arg0 : Memref sig .tc .vmem S1x20000x32 .bf16) (harg0 : arg0.IsWhole) (arg1 : Memref sig .tc .vmem S1x32x64 .bf16) (harg1 : arg1.IsWhole) (arg2 : Memref sig .tc .vmem S1x20000x64 .f32) (harg2 : arg2.IsWhole)
    (x0 : Vec F S1x20000x32 .bf16) (x1 : Vec F S1x32x64 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__conv_kernel i arg0 harg0 arg1 harg1 arg2 harg2) K := by
  simp only [cc0__conv_kernel_eq_skeleton]; unfold cc0__conv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the call's pipeline on core `c`: the arrays as the call finds them (`V`); after the body at
    point `t` each input's buffer at its block and the output's at `out0_2` of the two input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Defs.lean ====
/-
  The statistics stage (per-group sums and sums of squares, accumulated over ten points): its proof data.

  The two [1,8] accumulators are carried from point to point: zeroed at the first point, then at every point
  the column sums of x·G and of (x∗x)·G are added, x the point's [30000,64] block and G the [64,8]
  group-indicator matrix.  `acc1` names what they hold after each point; the invariant `PhiS1` keeps them at
  that; the two outputs receive them at the last point.
-/
import proofs.«127601_j2001454760193_1_alg».proof.Proof.Gen.Kernel.Launch
import proofs.«127601_j2001454760193_1_alg».proof.Proof.Gen.Kernel.Skeleton
import proofs.«127601_j2001454760193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- what the two scratch accumulators hold after point n -/
def acc1 (c : Dev nD) : (n : ℕ) → n < cfg1.N → Vec F S1x8 .f32 × Vec F S1x8 .f32
  | 0, h => (k1_pay5 (iblk1 V c 0 ⟨0, h⟩) (iblk1 V c 1 ⟨0, h⟩) (k1_pay1 (F := F)), k1_pay6 (iblk1 V c 0 ⟨0, h⟩) (iblk1 V c 1 ⟨0, h⟩) (k1_pay2 (F := F)))
  | n + 1, h => (k1_pay5 (iblk1 V c 0 ⟨n+1, h⟩) (iblk1 V c 1 ⟨n+1, h⟩) (acc1 c n (Nat.lt_of_succ_lt h)).1, k1_pay6 (iblk1 V c 0 ⟨n+1, h⟩) (iblk1 V c 1 ⟨n+1, h⟩) (acc1 c n (Nat.lt_of_succ_lt h)).2)

/-- The two accumulators the kernel carries between points, as memrefs. -/
abbrev scA1 : Memref sig .tc .vmem S1x8 .f32 := Memref.whole cc1_scratch0
abbrev scB1 : Memref sig .tc .vmem S1x8 .f32 := Memref.whole cc1_scratch1

/-- The core's other scoped buffers that are no staging buffer of this call, each at some contents, and the
    generator register at some state. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ r, prngReg c r))

/-- The region invariant before position `n`: before the first point every scoped buffer that is no staging
    buffer at anything; afterwards the two accumulators at what the point before left in them. -/
def PhiS1 (c : Dev nD) : (n : ℕ) → n ≤ cfg1.N → sProp 𝕄
  | 0, _ => Pipeline.ΦA spec1 c
  | n + 1, hn => iprop(owns (c : Thread nD τ) scA1 fullShare (acc1 V c n hn).1 ∗ owns (c : Thread nD τ) scB1 fullShare (acc1 V c n hn).2 ∗ other1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scA1 fullShare (acc1 V c n hn).1 ∗ owns (c : Thread nD τ) scB1 fullShare (acc1 V c n hn).2 ∗ other1 c) := rfl

theorem PhiS1_pos (c : Dev nD) (n : ℕ) (h : n ≤ cfg1.N) (hz : n ≠ 0) :
    PhiS1 V c n h = iprop(owns (c : Thread nD τ) scA1 fullShare (acc1 V c (n - 1) (by omega)).1 ∗ owns (c : Thread nD τ) scB1 fullShare (acc1 V c (n - 1) (by omega)).2 ∗ other1 c) := by
  cases n with
  | zero => exact absurd rfl hz
  | succ n => rfl

/-- The proof data of this call on core `c`: the arrays as the region finds them; after the body at point `t`
    each input's buffer at its block and the two outputs' at the accumulators; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (acc1 V c t.val t.isLt).1
    | ⟨3, _⟩ => (acc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (acc1 V c t.val t.isLt).1 := by dsimp only [dat1]
theorem after1_3 (c : Dev nD) (t : Fin cfg1.N) : (dat1 V c).after 3 t = (acc1 V c t.val t.isLt).2 := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.Kernel.Hand

end
-- ==== Proof.K.R1Run.lean ====
/-
  The statistics stage's body, run at one point, in its three cases: the first point (both accumulators
  zeroed, then updated), a middle point (updated), the last point (updated, then each stored to its output).
  Each case is a triple over explicit values: the accumulators end at the skeleton's update of what they held.
-/
import proofs.«127601_j2001454760193_1_alg».proof.Proof.Gen.Kernel.Launch
import proofs.«127601_j2001454760193_1_alg».proof.Proof.Gen.Kernel.Skeleton
import proofs.«127601_j2001454760193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch (the reset), from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 10 = 0 :=
  (by decide +kernel : ∀ t : Fin grid1.N, cond1_0 (grid1.coords t) ↔ t.val % 10 = 0)
/-- The condition of the body's second branch (the outputs stored). -/
abbrev cond1_1 (i : grid1.Coords) : Prop := k1_cond2 i = 1#1
/-- It holds at the last point only. -/
theorem hcond1_1 : ∀ t : Fin cfg1.N, cond1_1 (grid1.coords t) ↔ t.val % 10 = 9 :=
  (by decide +kernel : ∀ t : Fin grid1.N, cond1_1 (grid1.coords t) ↔ t.val % 10 = 9)

/-- The zero offsets of a rank-2 rectangle, however spelt. -/
theorem hz2 : (![0, 0] : Fin 2 → ℕ) = fun _ => 0 := by
  funext a; fin_cases a <;> rfl

/-- A store through the whole-shape rectangle at zero offsets covers the shape, whatever was stored before. -/
theorem cover_cons_unit {S : Shape} {e : EltTy} {Val : EltTy → Type} {off : Fin S.rank → ℕ} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.mem_cons_self, View.mem_set_unit_zero h inb y⟩

set_option maxHeartbeats 1000000 in
/-- The body at the first point: both accumulators zeroed, then updated from the point's block and the
    matrix; the outputs untouched. -/
theorem run1_first (c : Dev nD) (i : grid1.Coords) (arg1 : Memref sig .tc .vmem S30000x64 .f32) (harg1 : arg1.IsWhole) (arg2 : Memref sig .tc .vmem S64x8 .f32) (harg2 : arg2.IsWhole) (arg3 : Memref sig .tc .vmem S1x8 .f32) (harg3 : arg3.IsWhole) (arg4 : Memref sig .tc .vmem S1x8 .f32) (harg4 : arg4.IsWhole) (arg5 : Memref sig .tc .vmem S1x8 .f32) (harg5 : arg5.IsWhole) (arg6 : Memref sig .tc .vmem S1x8 .f32) (harg6 : arg6.IsWhole) (hc0 : cond1_0 i) (hc1 : ¬cond1_1 i)
    (x0 : Vec F S30000x64 .f32) (x1 : Vec F S64x8 .f32) (E : Set ℕ) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg5 fullShare (k1_pay5 x0 x1 (k1_pay1 (F := F))) ∗ owns (c : Thread nD τ) arg6 fullShare (k1_pay6 x0 x1 (k1_pay2 (F := F)))) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%da, %fa, -, HA⟩, ⟨%db, %fb, -, HB⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HA]
  · iexists _; isplitr
    swap; · iexact HA
    ipureintro
    (try sl_unfold_words)
    refine (View.read_writes_eq_canon _ _ _ (cover_cons_unit (S := S1x8) hz2 _ _ _)).trans ?_
    rw [View.canon_cons_unit_zero (S := S1x8) hz2]
    simp only [View.readAt_eq_ld, harg1.read_unread, harg2.read_unread, harg5.read_unread, harg6.read_unread, View.ld_unit_zero (S := S30000x64) hz2, View.ld_unit_zero (S := S64x8) hz2, View.ld_unit_zero (S := S1x8) hz2, View.readCov_unit_zero (S := S1x8) _ hz2]
  · iexists _; isplitr
    swap; · iexact HB
    ipureintro
    (try sl_unfold_words)
    refine (View.read_writes_eq_canon _ _ _ (cover_cons_unit (S := S1x8) hz2 _ _ _)).trans ?_
    rw [View.canon_cons_unit_zero (S := S1x8) hz2]
    simp only [View.readAt_eq_ld, harg1.read_unread, harg2.read_unread, harg5.read_unread, harg6.read_unread, View.ld_unit_zero (S := S30000x64) hz2, View.ld_unit_zero (S := S64x8) hz2, View.ld_unit_zero (S := S1x8) hz2, View.readCov_unit_zero (S := S1x8) _ hz2]

set_option maxHeartbeats 1000000 in
/-- The body at a point that is neither the first nor the last: both accumulators updated from the point's
    block and the matrix; the outputs untouched. -/
theorem run1_mid (c : Dev nD) (i : grid1.Coords) (arg1 : Memref sig .tc .vmem S30000x64 .f32) (harg1 : arg1.IsWhole) (arg2 : Memref sig .tc .vmem S64x8 .f32) (harg2 : arg2.IsWhole) (arg3 : Memref sig .tc .vmem S1x8 .f32) (harg3 : arg3.IsWhole) (arg4 : Memref sig .tc .vmem S1x8 .f32) (harg4 : arg4.IsWhole) (arg5 : Memref sig .tc .vmem S1x8 .f32) (harg5 : arg5.IsWhole) (arg6 : Memref sig .tc .vmem S1x8 .f32) (harg6 : arg6.IsWhole) (hc0 : ¬cond1_0 i) (hc1 : ¬cond1_1 i)
    (x0 : Vec F S30000x64 .f32) (x1 : Vec F S64x8 .f32) (a0 a1 : Vec F S1x8 .f32) (E : Set ℕ) (K : PUnit → sProp 𝕄) :
    iprop(owns (c : Thread nD τ) arg1 fullShare x0 ∗ owns (c : Thread nD τ) arg2 fullShare x1 ∗ owns (c : Thread nD τ) arg5 fullShare a0 ∗ owns (c : Thread nD τ) arg6 fullShare a1
        ∗ (iprop(owns (c : Thread nD τ) arg1 fullShare x0 ∗ owns (c : Thread nD τ) arg2 fullShare x1 ∗ owns (c : Thread nD τ) arg5 fullShare (k1_pay5 x0 x1 a0) ∗ owns (c : Thread nD τ) arg6 fullShare (k1_pay6 x0 x1 a1)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%fa, %hfa, HA⟩, ⟨%fb, %hfb, HB⟩, Hk⟩
  obtain rfl := harg1.eq_unread hf0; obtain rfl := harg2.eq_unread hf1
  obtain rfl := harg5.eq_unread hfa; obtain rfl := harg6.eq_unread hfb
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HA]
  · iexists _; isplitr
    swap; · iexact HA
    ipureintro
    (try sl_unfold_words)
    refine (View.read_writes_eq_canon _ _ _ (cover_cons_unit (S := S1x8) hz2 _ _ _)).trans ?_
    rw [View.canon_cons_unit_zero (S := S1x8) hz2]
    simp only [View.readAt_eq_ld, harg1.read_unread, harg2.read_unread, harg5.read_unread, harg6.read_unread, View.ld_unit_zero (S := S30000x64) hz2, View.ld_unit_zero (S := S64x8) hz2, View.ld_unit_zero (S := S1x8) hz2, View.readCov_unit_zero (S := S1x8) _ hz2]
  · iexists _; isplitr
    swap; · iexact HB
    ipureintro
    (try sl_unfold_words)
    refine (View.read_writes_eq_canon _ _ _ (cover_cons_unit (S := S1x8) hz2 _ _ _)).trans ?_
    rw [View.canon_cons_unit_zero (S := S1x8) hz2]
    simp only [View.readAt_eq_ld, harg1.read_unread, harg2.read_unread, harg5.read_unread, harg6.read_unread, View.ld_unit_zero (S := S30000x64) hz2, View.ld_unit_zero (S := S64x8) hz2, View.ld_unit_zero (S := S1x8) hz2, View.readCov_unit_zero (S := S1x8) _ hz2]

set_option maxHeartbeats 1000000 in
/-- The body at the last point: both accumulators updated, then each stored to its output. -/
theorem run1_last (c : Dev nD) (i : grid1.Coords) (arg1 : Memref sig .tc .vmem S30000x64 .f32) (harg1 : arg1.IsWhole) (arg2 : Memref sig .tc .vmem S64x8 .f32) (harg2 : arg2.IsWhole) (arg3 : Memref sig .tc .vmem S1x8 .f32) (harg3 : arg3.IsWhole) (arg4 : Memref sig .tc .vmem S1x8 .f32) (harg4 : arg4.IsWhole) (arg5 : Memref sig .tc .vmem S1x8 .f32) (harg5 : arg5.IsWhole) (arg6 : Memref sig .tc .vmem S1x8 .f32) (harg6 : arg6.IsWhole) (hc0 : ¬cond1_0 i) (hc1 : cond1_1 i)
    (x0 : Vec F S30000x64 .f32) (x1 : Vec F S64x8 .f32) (a0 a1 : Vec F S1x8 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare a0 ∗ owns (c : Thread nD τ) arg6 fullShare a1
        ∗ (iprop(owns (c : Thread nD τ) arg1 fullShare x0 ∗ owns (c : Thread nD τ) arg2 fullShare x1 ∗ owns (c : Thread nD τ) arg3 fullShare (k1_pay5 x0 x1 a0) ∗ owns (c : Thread nD τ) arg4 fullShare (k1_pay6 x0 x1 a1) ∗ owns (c : Thread nD τ) arg5 fullShare (k1_pay5 x0 x1 a0) ∗ owns (c : Thread nD τ) arg6 fullShare (k1_pay6 x0 x1 a1)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%d2, %f2, -, H2⟩, ⟨%d3, %f3, -, H3⟩, ⟨%fa, %hfa, HA⟩, ⟨%fb, %hfb, HB⟩, Hk⟩
  obtain rfl := harg1.eq_unread hf0; obtain rfl := harg2.eq_unread hf1
  obtain rfl := harg5.eq_unread hfa; obtain rfl := harg6.eq_unread hfb
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    (try sl_unfold_words)
    refine (View.read_writes_eq_canon _ _ _ (cover_cons_unit (S := S1x8) hz2 _ _ _)).trans ?_
    rw [View.canon_cons_unit_zero (S := S1x8) hz2]
    simp only [View.readAt_eq_ld, harg1.read_unread, harg2.read_unread, harg5.read_unread, harg6.read_unread, View.ld_unit_zero (S := S30000x64) hz2, View.ld_unit_zero (S := S64x8) hz2, View.ld_unit_zero (S := S1x8) hz2, View.readCov_unit_zero (S := S1x8) _ hz2]
  isplitl [H3]
  · iexists _; isplitr
    swap; · iexact H3
    ipureintro
    (try sl_unfold_words)
    refine (View.read_writes_eq_canon _ _ _ (cover_cons_unit (S := S1x8) hz2 _ _ _)).trans ?_
    rw [View.canon_cons_unit_zero (S := S1x8) hz2]
    simp only [View.readAt_eq_ld, harg1.read_unread, harg2.read_unread, harg5.read_unread, harg6.read_unread, View.ld_unit_zero (S := S30000x64) hz2, View.ld_unit_zero (S := S64x8) hz2, View.ld_unit_zero (S := S1x8) hz2, View.readCov_unit_zero (S := S1x8) _ hz2]
  isplitl [HA]
  · iexists _; isplitr
    swap; · iexact HA
    ipureintro
    (try sl_unfold_words)
    refine (View.read_writes_eq_canon _ _ _ (cover_cons_unit (S := S1x8) hz2 _ _ _)).trans ?_
    rw [View.canon_cons_unit_zero (S := S1x8) hz2]
    simp only [View.readAt_eq_ld, harg1.read_unread, harg2.read_unread, harg5.read_unread, harg6.read_unread, View.ld_unit_zero (S := S30000x64) hz2, View.ld_unit_zero (S := S64x8) hz2, View.ld_unit_zero (S := S1x8) hz2, View.readCov_unit_zero (S := S1x8) _ hz2]
  · iexists _; isplitr
    swap; · iexact HB
    ipureintro
    (try sl_unfold_words)
    refine (View.read_writes_eq_canon _ _ _ (cover_cons_unit (S := S1x8) hz2 _ _ _)).trans ?_
    rw [View.canon_cons_unit_zero (S := S1x8) hz2]
    simp only [View.readAt_eq_ld, harg1.read_unread, harg2.read_unread, harg5.read_unread, harg6.read_unread, View.ld_unit_zero (S := S30000x64) hz2, View.ld_unit_zero (S := S64x8) hz2, View.ld_unit_zero (S := S1x8) hz2, View.readCov_unit_zero (S := S1x8) _ hz2]

end Cert.Kernel.Hand

end
-- ==== Proof.K.R1.lean ====
/-
  The statistics stage, point by point: the body obligation of its proof data, and the invariant's two ends.

  At every point the body finds the two inputs' staging buffers at their blocks and the accumulators at what the
  point before left (at anything before the first point), and leaves the accumulators at the skeleton's update;
  the two outputs are stored at the last point only and handed back untouched elsewhere.
-/
import proofs.«127601_j2001454760193_1_alg».proof.Proof.K.R1Defs
import proofs.«127601_j2001454760193_1_alg».proof.Proof.K.R1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the windows are idle, and which points write the outputs back -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- Off the last point the body stores nothing into either output, and neither is written back. -/
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
/-- At the last point both outputs are stored. -/
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-- Each window's current staging memref at point `t`, and its wholeness. -/
abbrev ms1_0 (t : Fin cfg1.N) : Memref sig .tc .vmem S30000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x8 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8 .f32 := win1_3.stage (cfg1.slots t 3)
abbrev hs1_3 (t : Fin cfg1.N) : (ms1_3 t).IsWhole := hstage1_3 ((cfg1.slots t 3).cast nbuf1_3)

/-! ## The accumulators, point by point -/

/-- After the first point: the zero vectors updated once. -/
theorem acc1_zero (c : Dev nD) (t : Fin cfg1.N) (h0 : t.val = 0) :
    acc1 V c t.val t.isLt = (k1_pay5 (iblk1 V c 0 t) (iblk1 V c 1 t) (k1_pay1 (F := F)), k1_pay6 (iblk1 V c 0 t) (iblk1 V c 1 t) (k1_pay2 (F := F))) := by
  obtain ⟨n, hn⟩ := t
  cases n with
  | zero => rfl
  | succ n => exact absurd h0 (Nat.succ_ne_zero _)

/-- After any later point: what the point before left, updated. -/
theorem acc1_pos (c : Dev nD) (t : Fin cfg1.N) (h0 : t.val ≠ 0) :
    acc1 V c t.val t.isLt = (k1_pay5 (iblk1 V c 0 t) (iblk1 V c 1 t) (acc1 V c (t.val - 1) (Nat.lt_of_le_of_lt (Nat.sub_le _ _) t.isLt)).1, k1_pay6 (iblk1 V c 0 t) (iblk1 V c 1 t) (acc1 V c (t.val - 1) (Nat.lt_of_le_of_lt (Nat.sub_le _ _) t.isLt)).2) := by
  obtain ⟨n, hn⟩ := t
  cases n with
  | zero => exact absurd rfl h0
  | succ n => rfl

/-! ## The invariant before the first point, opened and closed -/

/-- What the launch hands the region holds the two accumulators at some contents, beside the rest. -/
theorem PhiA1_open (c : Dev nD) :
    (Pipeline.ΦA spec1 c : sProp 𝕄) ⊢ iprop((∃ d, owns (c : Thread nD τ) scA1 fullShare d) ∗ (∃ d, owns (c : Thread nD τ) scB1 fullShare d) ∗ other1 c) := by
  unfold Pipeline.ΦA other1; rw [scopedRest1_eq]; simp only [scA1, scB1, owns_whole]
  iintro ⟨⟨H1, H2, H3, H4, H5, H6, HA, HB, H7, H8, H9, H10, H11, H12⟩, Hg⟩
  isplitl [HA]; · iexact HA
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact Hg

/-- And with the accumulators at any contents it is given back. -/
theorem PhiA1_close (c : Dev nD) :
    iprop((∃ d, owns (c : Thread nD τ) scA1 fullShare d) ∗ (∃ d, owns (c : Thread nD τ) scB1 fullShare d) ∗ other1 c) ⊢ (Pipeline.ΦA spec1 c : sProp 𝕄) := by
  unfold Pipeline.ΦA other1; rw [scopedRest1_eq]; simp only [scA1, scB1, owns_whole]
  iintro ⟨HA, HB, H1, H2, H3, H4, H5, H6, H7, H8, H9, H10, H11, H12, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [HA]; · iexact HA
  isplitl [HB]; · iexact HB
  isplitl [H7]; · iexact H7
  isplitl [H8]; · iexact H8
  isplitl [H9]; · iexact H9
  isplitl [H10]; · iexact H10
  isplitl [H11]; · iexact H11
  iexact H12

/-! ## The inputs' staging buffers hold their blocks -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point is the first, the last or neither;
    the invariant hands the body the accumulators at what the point before left (at anything at the first point)
    and takes them back at this point's contents; off the last point the outputs' buffers are handed back
    untouched, at the last they hold the accumulators; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  have hN : t.val < 10 := lt_of_lt_of_eq t.isLt (show cfg1.N = 10 from N_1)
  by_cases h1 : t.val % 10 = 9
  · have h0 : ¬t.val % 10 = 0 := by omega
    have hz : t.val ≠ 0 := by omega
    rw [show (dat1 V c).leavesExact 2 t = owns (c : Thread nD τ) (ms1_2 t) fullShare ((dat1 V c).after 2 t) from by
        unfold Dat.leavesExact; rw [liveAt1_2 t ((hcond1_1 t).mpr h1)], after1_2]
    rw [show (dat1 V c).leavesExact 3 t = owns (c : Thread nD τ) (ms1_3 t) fullShare ((dat1 V c).after 3 t) from by
        unfold Dat.leavesExact; rw [liveAt1_3 t ((hcond1_1 t).mpr h1)], after1_3]
    rw [acc1_pos V c t hz]; dsimp only
    rw [PhiS1_castSucc V c t, PhiS1_pos V c _ _ hz]
    iintro ⟨⟨HA, HB, Hr⟩, Ho, ⟨%d0, H0⟩, ⟨%d1, H1⟩, ⟨%d2, H2⟩, ⟨%d3, H3⟩⟩
    iapply (run1_last c (grid1.coords t) _ _ _ _ _ _ _ _ _ _ _ _ (fun h => h0 ((hcond1_0 t).mp h)) ((hcond1_1 t).mpr h1) (iblk1 V c 0 t) (iblk1 V c 1 t)
      (acc1 V c (t.val - 1) (Nat.lt_of_le_of_lt (Nat.sub_le _ _) t.isLt)).1 (acc1 V c (t.val - 1) (Nat.lt_of_le_of_lt (Nat.sub_le _ _) t.isLt)).2 Set.univ _)
    isplitl [H0]; · iexact H0
    isplitl [H1]; · iexact H1
    isplitl [H2]; · iexists _; iexact H2
    isplitl [H3]; · iexists _; iexact H3
    isplitl [HA]; · iexact HA
    isplitl [HB]; · iexact HB
    iintro ⟨H0, H1, H2, H3, HA, HB⟩
    isplitl [HA HB Hr]
    · isplitl [HA]; · iexact HA
      isplitl [HB]; · iexact HB
      iexact Hr
    isplitl [Ho]; · iexact Ho
    isplitl [H0]; · iexact H0
    isplitl [H1]; · iexact H1
    isplitl [H2]; · iexact H2
    iexact H3
  · rw [Dat.leavesExact_idle (dat1 V c) 2 t (idleAt1_2 t (fun h => h1 ((hcond1_1 t).mp h))) (noFlush1_2 t (fun h => h1 ((hcond1_1 t).mp h)))]
    rw [Dat.leavesExact_idle (dat1 V c) 3 t (idleAt1_3 t (fun h => h1 ((hcond1_1 t).mp h))) (noFlush1_3 t (fun h => h1 ((hcond1_1 t).mp h)))]
    by_cases h0 : t.val % 10 = 0
    · have hz : t.val = 0 := by omega
      rw [acc1_zero V c t hz]; dsimp only
      rw [PhiS1_castSucc V c t, PhiS1_zero V c _ _ hz]
      refine (sep_mono (PhiA1_open (F := F) c) .rfl).trans ?_
      iintro ⟨⟨HA, HB, Hr⟩, Ho, ⟨%d0, H0⟩, ⟨%d1, H1⟩, H2, H3⟩
      iapply (run1_first c (grid1.coords t) _ _ _ _ _ _ _ _ _ _ _ _ ((hcond1_0 t).mpr h0) (fun h => h1 ((hcond1_1 t).mp h)) (iblk1 V c 0 t) (iblk1 V c 1 t) Set.univ _)
      isplitl [H0]; · iexact H0
      isplitl [H1]; · iexact H1
      isplitl [HA]; · iexact HA
      isplitl [HB]; · iexact HB
      iintro ⟨H0, H1, HA, HB⟩
      isplitl [HA HB Hr]
      · isplitl [HA]; · iexact HA
        isplitl [HB]; · iexact HB
        iexact Hr
      isplitl [Ho]; · iexact Ho
      isplitl [H0]; · iexact H0
      isplitl [H1]; · iexact H1
      isplitl [H2]; · iexact H2
      iexact H3
    · have hz : t.val ≠ 0 := by omega
      rw [acc1_pos V c t hz]; dsimp only
      rw [PhiS1_castSucc V c t, PhiS1_pos V c _ _ hz]
      iintro ⟨⟨HA, HB, Hr⟩, Ho, ⟨%d0, H0⟩, ⟨%d1, H1⟩, H2, H3⟩
      iapply (run1_mid c (grid1.coords t) _ _ _ _ _ _ _ _ _ _ _ _ (fun h => h0 ((hcond1_0 t).mp h)) (fun h => h1 ((hcond1_1 t).mp h)) (iblk1 V c 0 t) (iblk1 V c 1 t)
        (acc1 V c (t.val - 1) (Nat.lt_of_le_of_lt (Nat.sub_le _ _) t.isLt)).1 (acc1 V c (t.val - 1) (Nat.lt_of_le_of_lt (Nat.sub_le _ _) t.isLt)).2 Set.univ _)
      isplitl [H0]; · iexact H0
      isplitl [H1]; · iexact H1
      isplitl [HA]; · iexact HA
      isplitl [HB]; · iexact HB
      iintro ⟨H0, H1, HA, HB⟩
      isplitl [HA HB Hr]
      · isplitl [HA]; · iexact HA
        isplitl [HB]; · iexact HB
        iexact Hr
      isplitl [Ho]; · iexact Ho
      isplitl [H0]; · iexact H0
      isplitl [H1]; · iexact H1
      isplitl [H2]; · iexact H2
      iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- The accumulators' named contents forgotten. -/
theorem forget1 (c : Dev nD) (a b : Vec F S1x8 .f32) :
    iprop(owns (c : Thread nD τ) scA1 fullShare a ∗ owns (c : Thread nD τ) scB1 fullShare b ∗ other1 (F := F) c)
      ⊢ iprop((∃ d, owns (c : Thread nD τ) scA1 fullShare d) ∗ (∃ d, owns (c : Thread nD τ) scB1 fullShare d) ∗ other1 (F := F) c) := by
  iintro ⟨HA, HB, Hr⟩
  isplitl [HA]; · iexists _; iexact HA
  isplitl [HB]; · iexists _; iexact HB
  iexact Hr

/-- After the last point the invariant gives it back: the accumulators' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega)]
  exact (forget1 c _ _).trans (PhiA1_close (F := F) c)

end Cert.Kernel.Hand

end
-- ==== Proof.K.R2.lean ====
import proofs.«127601_j2001454760193_1_alg».proof.Proof.Gen.Kernel.Launch
import proofs.«127601_j2001454760193_1_alg».proof.Proof.Gen.Kernel.Skeleton
import proofs.«127601_j2001454760193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalisation call (the last of the three kernel calls) at a generic grid point

The kernel of the third call takes a block of the scattered sums (f32, 30000×64), the per-channel scale and the
per-channel shift (f32, 1×64 each) and writes `x * scale + shift` passed through the leaky rectifier into the output
block (f32, 30000×64). Stated here at a parameter `V` — the buffer contents when the call is entered —: each
window's block at a point, what the body leaves in the output window from the three input blocks, the body's triple,
the proof data of the pipeline and its body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the call finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, so the block of the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its block index has not moved, so the block of the point before is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): where the window is not
    fetched its block index has not moved, so the block of the point before is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each block whole -/

abbrev r2_0 : Rect S30000x64 := Rect.unit (s := S30000x64) ![0, 0] S30000x64.size inb_S30000x64_S30000x64_0_0
abbrev r2_1 : Rect S1x64 := Rect.unit (s := S1x64) ![0, 0] S1x64.size inb_S1x64_S1x64_0_0
abbrev r2_2 : Rect S1x64 := Rect.unit (s := S1x64) ![0, 0] S1x64.size inb_S1x64_S1x64_0_0
abbrev r2_3 : Rect S30000x64 := Rect.unit (s := S30000x64) ![0, 0] S30000x64.size inb_S30000x64_S30000x64_0_0

/-! ## What the body leaves in the output window's buffer -/

/-- The output window's staging buffer after the body, from the three input blocks: its one store, of the scaled,
    shifted and rectified block, over the whole buffer. -/
def out2_3 (x0 : Vec F S30000x64 .f32) (x1 : Vec F S1x64 .f32) (x2 : Vec F S1x64 .f32) : Vec F S30000x64 .f32 :=
  View.canon [⟨r2_3, k2_pay1 (View.ld x0 r2_0) (View.ld x1 r2_1) (View.ld x2 r2_2)⟩]

/-- The one store is of the whole buffer, so it covers it. -/
theorem cover2_3 (p0 : Vec F S30000x64 .f32) (y : S30000x64.Idx) :
    ∃ pc ∈ ([⟨r2_3, p0⟩] : List (View.Piece (Elt F) S30000x64 .f32)), y ∈ pc.1.set :=
  View.cover_of_tiled [⟨r2_3, p0⟩] S30000x64.size (by rfl) y

/-! ## The body's triple -/

set_option maxHeartbeats 1000000 in
/-- The kernel body on whole staging memrefs, the three inputs' at contents `x0`, `x1`, `x2` and the output's at
    anything, runs to the continuation holding the inputs' as they were and the output's at `out2_3 x0 x1 x2`: three
    whole-block loads, a load of the output buffer whose value is dropped, and one whole-block store. -/
theorem sound_kernel2 (c : Dev nD) (E : Set ℕ) (i : grid2.Coords) (arg0 : Memref sig .tc .vmem S30000x64 .f32) (harg0 : arg0.IsWhole) (arg1 : Memref sig .tc .vmem S1x64 .f32) (harg1 : arg1.IsWhole) (arg2 : Memref sig .tc .vmem S1x64 .f32) (harg2 : arg2.IsWhole) (arg3 : Memref sig .tc .vmem S30000x64 .f32) (harg3 : arg3.IsWhole)
    (x0 : Vec F S30000x64 .f32) (x1 : Vec F S1x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__norm_kernel i arg0 harg0 arg1 harg1 arg2 harg2 arg3 harg3) K := by
  simp only [cc2__norm_kernel_eq_skeleton]; unfold cc2__norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the call's pipeline on core `c`: the arrays as the call finds them (`V`); after the body at
    point `t` each input's buffer at its block and the output's at `out2_3` of the three input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_0`, `before2_1`, `before2_2`), so
    `sound_kernel2` applies; the invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
import proofs.«127601_j2001454760193_1_alg».proof.Proof.Gen.Kernel.Launch
import proofs.«127601_j2001454760193_1_alg».proof.Proof.Gen.Kernel.Skeleton
import proofs.«127601_j2001454760193_1_alg».proof.Proof.Gen.Kernel.Points
import proofs.«127601_j2001454760193_1_alg».proof.Proof.Gen.Kernel.Regions
import proofs.«127601_j2001454760193_1_alg».proof.Proof.K.R0
import proofs.«127601_j2001454760193_1_alg».proof.Proof.K.R1
import proofs.«127601_j2001454760193_1_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: its eight items from the launch to the return

@main is five stretches of host operations and three kernel calls. Between two items every unscoped buffer of the
core holds known contents: the launch memory, then what each host stretch computes from what it finds, then, after a
kernel call, the call's arrays at what its write-backs leave and every other buffer untouched. This module names
those contents item by item (a fold from the launch memory), shows each argument array reads back through the fold to
its launch contents, states each kernel call as a segment between two such thread states, and runs the eight
segments: every weakly fair execution terminates, and the final memory holds every unscoped buffer at the last
contents of the fold. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each item's boundary: a fold through @main -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After `hostOps0` (call 0's entry): the casts to bf16, the index normalisation, the gather. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At call 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (call 0's exit contents). -/
abbrev V2 : (c : Dev nD) → (b : Ref sig .tc) → Buf (Elt F) ((c : Thread nD τ).loc b) := fun c b => W2 m ρ c b
/-- At call 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`: the reshapes, the scatter-add, the iota and the group size. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b

/-- After `hostOps1_1`: the floor division of the channel index by the group size. -/
abbrev W4 : Dev nD → Valuation τ sig (Elt F) := fun c => StableHlo.after hostOps1_1 (W3 m ρ c)
/-- The same read at the TensorCore's references. -/
abbrev V4 : (c : Dev nD) → (b : Ref sig .tc) → Buf (Elt F) ((c : Thread nD τ).loc b) := fun c b => W4 m ρ c b

/-- After `hostOps1_2` (call 1's entry): the group-indicator matrix. -/
abbrev W5 : Dev nD → Valuation τ sig (Elt F) := fun c => StableHlo.after hostOps1_2 (W4 m ρ c)
/-- The same read at the TensorCore's references. -/
abbrev V5 : (c : Dev nD) → (b : Ref sig .tc) → Buf (Elt F) ((c : Thread nD τ).loc b) := fun c b => W5 m ρ c b

/-- At call 1's exit: its arrays at what the pipeline leaves (the inputs as entered, each output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (call 1's exit contents). -/
abbrev V6 : (c : Dev nD) → (b : Ref sig .tc) → Buf (Elt F) ((c : Thread nD τ).loc b) := fun c b => W6 m ρ c b
/-- At call 1's exit each of its arrays holds what the pipeline leaves (`hF1`) and every other buffer what it
    held at entry (`hrest1`). -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2` (call 2's entry): mean, variance, reciprocal root, scale and shift. -/
abbrev W7 : Dev nD → Valuation τ sig (Elt F) := fun c => StableHlo.after hostOps2 (W6 m ρ c)
/-- The same read at the TensorCore's references. -/
abbrev V7 : (c : Dev nD) → (b : Ref sig .tc) → Buf (Elt F) ((c : Thread nD τ).loc b) := fun c b => W7 m ρ c b

/-- At call 2's exit: its arrays at what the pipeline leaves (the inputs as entered, each output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references (call 2's exit contents). -/
abbrev V8 : (c : Dev nD) → (b : Ref sig .tc) → Buf (Elt F) ((c : Thread nD τ).loc b) := fun c b => W8 m ρ c b
/-- At call 2's exit each of its arrays holds what the pipeline leaves (`hF2`) and every other buffer what it
    held at entry (`hrest2`). -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-! ### The arguments end as launched

No host operation writes an argument and no call has one among its arrays, so the fold at an argument's buffer walks
back to the launch memory. -/

/-- A buffer no host stretch writes and no call has among its arrays ends as launched. -/
theorem W8_of (c : Dev nD) (r : Ref sig .tc) (h0 : r ∉ hostOps0_W) (h1 : ∀ w, Pipeline.arrRef spec0 w ≠ r)
    (h2 : r ∉ hostOps1_W) (h3 : r ∉ hostOps1_1_W) (h4 : r ∉ hostOps1_2_W) (h5 : ∀ w, Pipeline.arrRef spec1 w ≠ r)
    (h6 : r ∉ hostOps2_W) (h7 : ∀ w, Pipeline.arrRef spec2 w ≠ r) :
    W8 m ρ c (Proc.devRef .tc r) = m ((c : Thread nD τ).loc r) :=
  calc W8 m ρ c (Proc.devRef .tc r)
    _ = W7 m ρ c (Proc.devRef .tc r) := W8_of_ne m ρ c r h7
    _ = W6 m ρ c (Proc.devRef .tc r) := StableHlo.after_of_writes_sub hostOps2 _ hostOps2_writes h6
    _ = W5 m ρ c (Proc.devRef .tc r) := W6_of_ne m ρ c r h5
    _ = W4 m ρ c (Proc.devRef .tc r) := StableHlo.after_of_writes_sub hostOps1_2 _ hostOps1_2_writes h4
    _ = W3 m ρ c (Proc.devRef .tc r) := StableHlo.after_of_writes_sub hostOps1_1 _ hostOps1_1_writes h3
    _ = W2 m ρ c (Proc.devRef .tc r) := StableHlo.after_of_writes_sub hostOps1 _ hostOps1_writes h2
    _ = W1 m ρ c (Proc.devRef .tc r) := W2_of_ne m ρ c r h1
    _ = W0 m ρ c (Proc.devRef .tc r) := StableHlo.after_of_writes_sub hostOps0 _ hostOps0_writes h0
    _ = m ((c : Thread nD τ).loc r) := rfl

theorem W8_main_arg0 (c : Dev nD) : W8 m ρ c (Proc.devRef .tc main_arg0) = m ((c : Thread nD τ).loc main_arg0) :=
  W8_of m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_of m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_of m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_of m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_of m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_of m ρ c main_arg5 (by decide) (by decide) (by decide) (by decide) (by decide) (by decide) (by decide) (by decide)

/-! ## The proof data family and the thread state -/

/-- Every pipeline's proof data, each at its call's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a call's
    invariant takes it in and gives it back) and what the core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at what the stretch computes from `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W8`,
    the generator register at some state. -/
abbrev Tₙ (c : Dev nD) : sProp 𝕄 := iprop(StableHlo.held (c : Thread nD τ) (Pipeline.ucRefs τ sig) (W8 m ρ c) ∗ ∃ r, prngReg c r)

/-! ## The calls as segments -/

-- applying a library lemma stated over the pinned configuration unifies with the printed one only when unification
-- may unfold plain definitions in a metavariable's type
set_option backward.isDefEq.respectTransparency.types false in
/-- CALL 0 over the thread state: entered from every unscoped buffer at `W1`, left at `W2`. Its arrays are
    split out of the unscoped buffers and put back at the exit contents; the generator register goes into the
    call's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- CALL 1 over the thread state: entered from every unscoped buffer at `W5`, left at `W6`. Its arrays are
    split out of the unscoped buffers and put back at the exit contents; the generator register goes into the
    call's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m ρ 1 c).Φ 0 from hin1 (V5 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- CALL 2 over the thread state: entered from every unscoped buffer at `W7`, left at `W8`. Its arrays are
    split out of the unscoped buffers and put back at the exit contents; the generator register goes into the
    call's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ) ]
/-- @main is the run of the segments: it is the chain of its items, and the segments' run is the chain of their
    fragments, which are those items one by one. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      StableHlo.seq hostOps1_1,
      StableHlo.seq hostOps1_2,
      Prog.lift (.customCall (Pipeline.entry 1) ()),
      StableHlo.seq hostOps2,
      Prog.lift (.customCall (Pipeline.entry 2) ()) ] from rfl]
  rfl

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds every unscoped buffer of every core at the
    last contents of the fold, `W8`: the launch over the eight segments, the last thread state read against the
    final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- THE FRAME, at any float family: every weakly fair execution of @main terminates and every final state has the six
    argument arrays as launched — the run above read at each argument's buffer, which the fold leaves as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (Q := fun r => ∀ c : Dev nD, ∀ b ∈ Pipeline.ucRefs τ sig, r.2.mem (((c : Thread nD τ)).1, b) = W8 m ρ c b) (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c)⟩) (run_all m ρ)

end Cert.Kernel.Hand

end
-- ==== Proof.KI.R0.lean ====
import proofs.«127601_j2001454760193_1_alg».proof.Proof.Gen.KernelIdeal.Launch
import proofs.«127601_j2001454760193_1_alg».proof.Proof.Gen.KernelIdeal.Skeleton
import proofs.«127601_j2001454760193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The convolution call (the first of the three kernel calls) at a generic grid point

The kernel of the first call multiplies the gathered block of the point (bf16, 1×20000×32) by the weight block of the
point's offset (bf16, 1×32×64) into the output block (f32, 1×20000×64). Stated here at a parameter `V` — the buffer
contents when the call is entered —: each window's block at a point, what the body leaves in the output window from
the two input blocks, the body's triple, the proof data of the pipeline and its body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, so the block of the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved, so the block of the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each block whole -/

abbrev r0_0 : Rect S1x20000x32 := Rect.unit (s := S1x20000x32) ![0, 0, 0] S1x20000x32.size inb_S1x20000x32_S1x20000x32_0_0_0
abbrev r0_1 : Rect S1x32x64 := Rect.unit (s := S1x32x64) ![0, 0, 0] S1x32x64.size inb_S1x32x64_S1x32x64_0_0_0
abbrev r0_2 : Rect S1x20000x64 := Rect.unit (s := S1x20000x64) ![0, 0, 0] S1x20000x64.size inb_S1x20000x64_S1x20000x64_0_0_0

/-! ## What the body leaves in the output window's buffer -/

/-- The output window's staging buffer after the body, from the two input blocks: its one store, of the product of
    the gathered block and the weight block, over the whole buffer. -/
def out0_2 (x0 : Vec F S1x20000x32 .bf16) (x1 : Vec F S1x32x64 .bf16) : Vec F S1x20000x64 .f32 :=
  View.canon [⟨r0_2, k0_pay1 (View.ld x0 r0_0) (View.ld x1 r0_1)⟩]

/-- The one store is of the whole buffer, so it covers it. -/
theorem cover0_2 (p0 : Vec F S1x20000x64 .f32) (y : S1x20000x64.Idx) :
    ∃ pc ∈ ([⟨r0_2, p0⟩] : List (View.Piece (Elt F) S1x20000x64 .f32)), y ∈ pc.1.set :=
  View.cover_of_tiled [⟨r0_2, p0⟩] S1x20000x64.size (by rfl) y

/-! ## The body's triple -/

set_option maxHeartbeats 1000000 in
/-- The kernel body on whole staging memrefs, the two inputs' at contents `x0`, `x1` and the output's at anything,
    runs to the continuation holding the inputs' as they were and the output's at `out0_2 x0 x1`: two whole-block
    loads, a load of the output buffer whose value is dropped, and one whole-block store. -/
theorem sound_kernel0 (c : Dev nD) (E : Set ℕ) (i : grid0.Coords) (arg0 : Memref sig .tc .vmem S1x20000x32 .bf16) (harg0 : arg0.IsWhole) (arg1 : Memref sig .tc .vmem S1x32x64 .bf16) (harg1 : arg1.IsWhole) (arg2 : Memref sig .tc .vmem S1x20000x64 .f32) (harg2 : arg2.IsWhole)
    (x0 : Vec F S1x20000x32 .bf16) (x1 : Vec F S1x32x64 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__conv_kernel i arg0 harg0 arg1 harg1 arg2 harg2) K := by
  simp only [cc0__conv_kernel_eq_skeleton]; unfold cc0__conv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the call's pipeline on core `c`: the arrays as the call finds them (`V`); after the body at
    point `t` each input's buffer at its block and the output's at `out0_2` of the two input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Defs.lean ====
/-
  The statistics stage (per-group sums and sums of squares, accumulated over ten points): its proof data.

  The two [1,8] accumulators are carried from point to point: zeroed at the first point, then at every point
  the column sums of x·G and of (x∗x)·G are added, x the point's [30000,64] block and G the [64,8]
  group-indicator matrix.  `acc1` names what they hold after each point; the invariant `PhiS1` keeps them at
  that; the two outputs receive them at the last point.
-/
import proofs.«127601_j2001454760193_1_alg».proof.Proof.Gen.KernelIdeal.Launch
import proofs.«127601_j2001454760193_1_alg».proof.Proof.Gen.KernelIdeal.Skeleton
import proofs.«127601_j2001454760193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- what the two scratch accumulators hold after point n -/
def acc1 (c : Dev nD) : (n : ℕ) → n < cfg1.N → Vec F S1x8 .f32 × Vec F S1x8 .f32
  | 0, h => (k1_pay5 (iblk1 V c 0 ⟨0, h⟩) (iblk1 V c 1 ⟨0, h⟩) (k1_pay1 (F := F)), k1_pay6 (iblk1 V c 0 ⟨0, h⟩) (iblk1 V c 1 ⟨0, h⟩) (k1_pay2 (F := F)))
  | n + 1, h => (k1_pay5 (iblk1 V c 0 ⟨n+1, h⟩) (iblk1 V c 1 ⟨n+1, h⟩) (acc1 c n (Nat.lt_of_succ_lt h)).1, k1_pay6 (iblk1 V c 0 ⟨n+1, h⟩) (iblk1 V c 1 ⟨n+1, h⟩) (acc1 c n (Nat.lt_of_succ_lt h)).2)

/-- The two accumulators the kernel carries between points, as memrefs. -/
abbrev scA1 : Memref sig .tc .vmem S1x8 .f32 := Memref.whole cc1_scratch0
abbrev scB1 : Memref sig .tc .vmem S1x8 .f32 := Memref.whole cc1_scratch1

/-- The core's other scoped buffers that are no staging buffer of this call, each at some contents, and the
    generator register at some state. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ r, prngReg c r))

/-- The region invariant before position `n`: before the first point every scoped buffer that is no staging
    buffer at anything; afterwards the two accumulators at what the point before left in them. -/
def PhiS1 (c : Dev nD) : (n : ℕ) → n ≤ cfg1.N → sProp 𝕄
  | 0, _ => Pipeline.ΦA spec1 c
  | n + 1, hn => iprop(owns (c : Thread nD τ) scA1 fullShare (acc1 V c n hn).1 ∗ owns (c : Thread nD τ) scB1 fullShare (acc1 V c n hn).2 ∗ other1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scA1 fullShare (acc1 V c n hn).1 ∗ owns (c : Thread nD τ) scB1 fullShare (acc1 V c n hn).2 ∗ other1 c) := rfl

theorem PhiS1_pos (c : Dev nD) (n : ℕ) (h : n ≤ cfg1.N) (hz : n ≠ 0) :
    PhiS1 V c n h = iprop(owns (c : Thread nD τ) scA1 fullShare (acc1 V c (n - 1) (by omega)).1 ∗ owns (c : Thread nD τ) scB1 fullShare (acc1 V c (n - 1) (by omega)).2 ∗ other1 c) := by
  cases n with
  | zero => exact absurd rfl hz
  | succ n => rfl

/-- The proof data of this call on core `c`: the arrays as the region finds them; after the body at point `t`
    each input's buffer at its block and the two outputs' at the accumulators; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (acc1 V c t.val t.isLt).1
    | ⟨3, _⟩ => (acc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (acc1 V c t.val t.isLt).1 := by dsimp only [dat1]
theorem after1_3 (c : Dev nD) (t : Fin cfg1.N) : (dat1 V c).after 3 t = (acc1 V c t.val t.isLt).2 := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.KernelIdeal.Hand

end
-- ==== Proof.KI.R1Run.lean ====
/-
  The statistics stage's body, run at one point, in its three cases: the first point (both accumulators
  zeroed, then updated), a middle point (updated), the last point (updated, then each stored to its output).
  Each case is a triple over explicit values: the accumulators end at the skeleton's update of what they held.
-/
import proofs.«127601_j2001454760193_1_alg».proof.Proof.Gen.KernelIdeal.Launch
import proofs.«127601_j2001454760193_1_alg».proof.Proof.Gen.KernelIdeal.Skeleton
import proofs.«127601_j2001454760193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch (the reset), from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 10 = 0 :=
  (by decide +kernel : ∀ t : Fin grid1.N, cond1_0 (grid1.coords t) ↔ t.val % 10 = 0)
/-- The condition of the body's second branch (the outputs stored). -/
abbrev cond1_1 (i : grid1.Coords) : Prop := k1_cond2 i = 1#1
/-- It holds at the last point only. -/
theorem hcond1_1 : ∀ t : Fin cfg1.N, cond1_1 (grid1.coords t) ↔ t.val % 10 = 9 :=
  (by decide +kernel : ∀ t : Fin grid1.N, cond1_1 (grid1.coords t) ↔ t.val % 10 = 9)

/-- The zero offsets of a rank-2 rectangle, however spelt. -/
theorem hz2 : (![0, 0] : Fin 2 → ℕ) = fun _ => 0 := by
  funext a; fin_cases a <;> rfl

/-- A store through the whole-shape rectangle at zero offsets covers the shape, whatever was stored before. -/
theorem cover_cons_unit {S : Shape} {e : EltTy} {Val : EltTy → Type} {off : Fin S.rank → ℕ} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.mem_cons_self, View.mem_set_unit_zero h inb y⟩

set_option maxHeartbeats 1000000 in
/-- The body at the first point: both accumulators zeroed, then updated from the point's block and the
    matrix; the outputs untouched. -/
theorem run1_first (c : Dev nD) (i : grid1.Coords) (arg1 : Memref sig .tc .vmem S30000x64 .f32) (harg1 : arg1.IsWhole) (arg2 : Memref sig .tc .vmem S64x8 .f32) (harg2 : arg2.IsWhole) (arg3 : Memref sig .tc .vmem S1x8 .f32) (harg3 : arg3.IsWhole) (arg4 : Memref sig .tc .vmem S1x8 .f32) (harg4 : arg4.IsWhole) (arg5 : Memref sig .tc .vmem S1x8 .f32) (harg5 : arg5.IsWhole) (arg6 : Memref sig .tc .vmem S1x8 .f32) (harg6 : arg6.IsWhole) (hc0 : cond1_0 i) (hc1 : ¬cond1_1 i)
    (x0 : Vec F S30000x64 .f32) (x1 : Vec F S64x8 .f32) (E : Set ℕ) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg5 fullShare (k1_pay5 x0 x1 (k1_pay1 (F := F))) ∗ owns (c : Thread nD τ) arg6 fullShare (k1_pay6 x0 x1 (k1_pay2 (F := F)))) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%da, %fa, -, HA⟩, ⟨%db, %fb, -, HB⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HA]
  · iexists _; isplitr
    swap; · iexact HA
    ipureintro
    (try sl_unfold_words)
    refine (View.read_writes_eq_canon _ _ _ (cover_cons_unit (S := S1x8) hz2 _ _ _)).trans ?_
    rw [View.canon_cons_unit_zero (S := S1x8) hz2]
    simp only [View.readAt_eq_ld, harg1.read_unread, harg2.read_unread, harg5.read_unread, harg6.read_unread, View.ld_unit_zero (S := S30000x64) hz2, View.ld_unit_zero (S := S64x8) hz2, View.ld_unit_zero (S := S1x8) hz2, View.readCov_unit_zero (S := S1x8) _ hz2]
  · iexists _; isplitr
    swap; · iexact HB
    ipureintro
    (try sl_unfold_words)
    refine (View.read_writes_eq_canon _ _ _ (cover_cons_unit (S := S1x8) hz2 _ _ _)).trans ?_
    rw [View.canon_cons_unit_zero (S := S1x8) hz2]
    simp only [View.readAt_eq_ld, harg1.read_unread, harg2.read_unread, harg5.read_unread, harg6.read_unread, View.ld_unit_zero (S := S30000x64) hz2, View.ld_unit_zero (S := S64x8) hz2, View.ld_unit_zero (S := S1x8) hz2, View.readCov_unit_zero (S := S1x8) _ hz2]

set_option maxHeartbeats 1000000 in
/-- The body at a point that is neither the first nor the last: both accumulators updated from the point's
    block and the matrix; the outputs untouched. -/
theorem run1_mid (c : Dev nD) (i : grid1.Coords) (arg1 : Memref sig .tc .vmem S30000x64 .f32) (harg1 : arg1.IsWhole) (arg2 : Memref sig .tc .vmem S64x8 .f32) (harg2 : arg2.IsWhole) (arg3 : Memref sig .tc .vmem S1x8 .f32) (harg3 : arg3.IsWhole) (arg4 : Memref sig .tc .vmem S1x8 .f32) (harg4 : arg4.IsWhole) (arg5 : Memref sig .tc .vmem S1x8 .f32) (harg5 : arg5.IsWhole) (arg6 : Memref sig .tc .vmem S1x8 .f32) (harg6 : arg6.IsWhole) (hc0 : ¬cond1_0 i) (hc1 : ¬cond1_1 i)
    (x0 : Vec F S30000x64 .f32) (x1 : Vec F S64x8 .f32) (a0 a1 : Vec F S1x8 .f32) (E : Set ℕ) (K : PUnit → sProp 𝕄) :
    iprop(owns (c : Thread nD τ) arg1 fullShare x0 ∗ owns (c : Thread nD τ) arg2 fullShare x1 ∗ owns (c : Thread nD τ) arg5 fullShare a0 ∗ owns (c : Thread nD τ) arg6 fullShare a1
        ∗ (iprop(owns (c : Thread nD τ) arg1 fullShare x0 ∗ owns (c : Thread nD τ) arg2 fullShare x1 ∗ owns (c : Thread nD τ) arg5 fullShare (k1_pay5 x0 x1 a0) ∗ owns (c : Thread nD τ) arg6 fullShare (k1_pay6 x0 x1 a1)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%fa, %hfa, HA⟩, ⟨%fb, %hfb, HB⟩, Hk⟩
  obtain rfl := harg1.eq_unread hf0; obtain rfl := harg2.eq_unread hf1
  obtain rfl := harg5.eq_unread hfa; obtain rfl := harg6.eq_unread hfb
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HA]
  · iexists _; isplitr
    swap; · iexact HA
    ipureintro
    (try sl_unfold_words)
    refine (View.read_writes_eq_canon _ _ _ (cover_cons_unit (S := S1x8) hz2 _ _ _)).trans ?_
    rw [View.canon_cons_unit_zero (S := S1x8) hz2]
    simp only [View.readAt_eq_ld, harg1.read_unread, harg2.read_unread, harg5.read_unread, harg6.read_unread, View.ld_unit_zero (S := S30000x64) hz2, View.ld_unit_zero (S := S64x8) hz2, View.ld_unit_zero (S := S1x8) hz2, View.readCov_unit_zero (S := S1x8) _ hz2]
  · iexists _; isplitr
    swap; · iexact HB
    ipureintro
    (try sl_unfold_words)
    refine (View.read_writes_eq_canon _ _ _ (cover_cons_unit (S := S1x8) hz2 _ _ _)).trans ?_
    rw [View.canon_cons_unit_zero (S := S1x8) hz2]
    simp only [View.readAt_eq_ld, harg1.read_unread, harg2.read_unread, harg5.read_unread, harg6.read_unread, View.ld_unit_zero (S := S30000x64) hz2, View.ld_unit_zero (S := S64x8) hz2, View.ld_unit_zero (S := S1x8) hz2, View.readCov_unit_zero (S := S1x8) _ hz2]

set_option maxHeartbeats 1000000 in
/-- The body at the last point: both accumulators updated, then each stored to its output. -/
theorem run1_last (c : Dev nD) (i : grid1.Coords) (arg1 : Memref sig .tc .vmem S30000x64 .f32) (harg1 : arg1.IsWhole) (arg2 : Memref sig .tc .vmem S64x8 .f32) (harg2 : arg2.IsWhole) (arg3 : Memref sig .tc .vmem S1x8 .f32) (harg3 : arg3.IsWhole) (arg4 : Memref sig .tc .vmem S1x8 .f32) (harg4 : arg4.IsWhole) (arg5 : Memref sig .tc .vmem S1x8 .f32) (harg5 : arg5.IsWhole) (arg6 : Memref sig .tc .vmem S1x8 .f32) (harg6 : arg6.IsWhole) (hc0 : ¬cond1_0 i) (hc1 : cond1_1 i)
    (x0 : Vec F S30000x64 .f32) (x1 : Vec F S64x8 .f32) (a0 a1 : Vec F S1x8 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare a0 ∗ owns (c : Thread nD τ) arg6 fullShare a1
        ∗ (iprop(owns (c : Thread nD τ) arg1 fullShare x0 ∗ owns (c : Thread nD τ) arg2 fullShare x1 ∗ owns (c : Thread nD τ) arg3 fullShare (k1_pay5 x0 x1 a0) ∗ owns (c : Thread nD τ) arg4 fullShare (k1_pay6 x0 x1 a1) ∗ owns (c : Thread nD τ) arg5 fullShare (k1_pay5 x0 x1 a0) ∗ owns (c : Thread nD τ) arg6 fullShare (k1_pay6 x0 x1 a1)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%d2, %f2, -, H2⟩, ⟨%d3, %f3, -, H3⟩, ⟨%fa, %hfa, HA⟩, ⟨%fb, %hfb, HB⟩, Hk⟩
  obtain rfl := harg1.eq_unread hf0; obtain rfl := harg2.eq_unread hf1
  obtain rfl := harg5.eq_unread hfa; obtain rfl := harg6.eq_unread hfb
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    (try sl_unfold_words)
    refine (View.read_writes_eq_canon _ _ _ (cover_cons_unit (S := S1x8) hz2 _ _ _)).trans ?_
    rw [View.canon_cons_unit_zero (S := S1x8) hz2]
    simp only [View.readAt_eq_ld, harg1.read_unread, harg2.read_unread, harg5.read_unread, harg6.read_unread, View.ld_unit_zero (S := S30000x64) hz2, View.ld_unit_zero (S := S64x8) hz2, View.ld_unit_zero (S := S1x8) hz2, View.readCov_unit_zero (S := S1x8) _ hz2]
  isplitl [H3]
  · iexists _; isplitr
    swap; · iexact H3
    ipureintro
    (try sl_unfold_words)
    refine (View.read_writes_eq_canon _ _ _ (cover_cons_unit (S := S1x8) hz2 _ _ _)).trans ?_
    rw [View.canon_cons_unit_zero (S := S1x8) hz2]
    simp only [View.readAt_eq_ld, harg1.read_unread, harg2.read_unread, harg5.read_unread, harg6.read_unread, View.ld_unit_zero (S := S30000x64) hz2, View.ld_unit_zero (S := S64x8) hz2, View.ld_unit_zero (S := S1x8) hz2, View.readCov_unit_zero (S := S1x8) _ hz2]
  isplitl [HA]
  · iexists _; isplitr
    swap; · iexact HA
    ipureintro
    (try sl_unfold_words)
    refine (View.read_writes_eq_canon _ _ _ (cover_cons_unit (S := S1x8) hz2 _ _ _)).trans ?_
    rw [View.canon_cons_unit_zero (S := S1x8) hz2]
    simp only [View.readAt_eq_ld, harg1.read_unread, harg2.read_unread, harg5.read_unread, harg6.read_unread, View.ld_unit_zero (S := S30000x64) hz2, View.ld_unit_zero (S := S64x8) hz2, View.ld_unit_zero (S := S1x8) hz2, View.readCov_unit_zero (S := S1x8) _ hz2]
  · iexists _; isplitr
    swap; · iexact HB
    ipureintro
    (try sl_unfold_words)
    refine (View.read_writes_eq_canon _ _ _ (cover_cons_unit (S := S1x8) hz2 _ _ _)).trans ?_
    rw [View.canon_cons_unit_zero (S := S1x8) hz2]
    simp only [View.readAt_eq_ld, harg1.read_unread, harg2.read_unread, harg5.read_unread, harg6.read_unread, View.ld_unit_zero (S := S30000x64) hz2, View.ld_unit_zero (S := S64x8) hz2, View.ld_unit_zero (S := S1x8) hz2, View.readCov_unit_zero (S := S1x8) _ hz2]

end Cert.KernelIdeal.Hand

end
-- ==== Proof.KI.R1.lean ====
/-
  The statistics stage, point by point: the body obligation of its proof data, and the invariant's two ends.

  At every point the body finds the two inputs' staging buffers at their blocks and the accumulators at what the
  point before left (at anything before the first point), and leaves the accumulators at the skeleton's update;
  the two outputs are stored at the last point only and handed back untouched elsewhere.
-/
import proofs.«127601_j2001454760193_1_alg».proof.Proof.KI.R1Defs
import proofs.«127601_j2001454760193_1_alg».proof.Proof.KI.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the windows are idle, and which points write the outputs back -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- Off the last point the body stores nothing into either output, and neither is written back. -/
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
/-- At the last point both outputs are stored. -/
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-- Each window's current staging memref at point `t`, and its wholeness. -/
abbrev ms1_0 (t : Fin cfg1.N) : Memref sig .tc .vmem S30000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x8 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8 .f32 := win1_3.stage (cfg1.slots t 3)
abbrev hs1_3 (t : Fin cfg1.N) : (ms1_3 t).IsWhole := hstage1_3 ((cfg1.slots t 3).cast nbuf1_3)

/-! ## The accumulators, point by point -/

/-- After the first point: the zero vectors updated once. -/
theorem acc1_zero (c : Dev nD) (t : Fin cfg1.N) (h0 : t.val = 0) :
    acc1 V c t.val t.isLt = (k1_pay5 (iblk1 V c 0 t) (iblk1 V c 1 t) (k1_pay1 (F := F)), k1_pay6 (iblk1 V c 0 t) (iblk1 V c 1 t) (k1_pay2 (F := F))) := by
  obtain ⟨n, hn⟩ := t
  cases n with
  | zero => rfl
  | succ n => exact absurd h0 (Nat.succ_ne_zero _)

/-- After any later point: what the point before left, updated. -/
theorem acc1_pos (c : Dev nD) (t : Fin cfg1.N) (h0 : t.val ≠ 0) :
    acc1 V c t.val t.isLt = (k1_pay5 (iblk1 V c 0 t) (iblk1 V c 1 t) (acc1 V c (t.val - 1) (Nat.lt_of_le_of_lt (Nat.sub_le _ _) t.isLt)).1, k1_pay6 (iblk1 V c 0 t) (iblk1 V c 1 t) (acc1 V c (t.val - 1) (Nat.lt_of_le_of_lt (Nat.sub_le _ _) t.isLt)).2) := by
  obtain ⟨n, hn⟩ := t
  cases n with
  | zero => exact absurd rfl h0
  | succ n => rfl

/-! ## The invariant before the first point, opened and closed -/

/-- What the launch hands the region holds the two accumulators at some contents, beside the rest. -/
theorem PhiA1_open (c : Dev nD) :
    (Pipeline.ΦA spec1 c : sProp 𝕄) ⊢ iprop((∃ d, owns (c : Thread nD τ) scA1 fullShare d) ∗ (∃ d, owns (c : Thread nD τ) scB1 fullShare d) ∗ other1 c) := by
  unfold Pipeline.ΦA other1; rw [scopedRest1_eq]; simp only [scA1, scB1, owns_whole]
  iintro ⟨⟨H1, H2, H3, H4, H5, H6, HA, HB, H7, H8, H9, H10, H11, H12⟩, Hg⟩
  isplitl [HA]; · iexact HA
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact Hg

/-- And with the accumulators at any contents it is given back. -/
theorem PhiA1_close (c : Dev nD) :
    iprop((∃ d, owns (c : Thread nD τ) scA1 fullShare d) ∗ (∃ d, owns (c : Thread nD τ) scB1 fullShare d) ∗ other1 c) ⊢ (Pipeline.ΦA spec1 c : sProp 𝕄) := by
  unfold Pipeline.ΦA other1; rw [scopedRest1_eq]; simp only [scA1, scB1, owns_whole]
  iintro ⟨HA, HB, H1, H2, H3, H4, H5, H6, H7, H8, H9, H10, H11, H12, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [HA]; · iexact HA
  isplitl [HB]; · iexact HB
  isplitl [H7]; · iexact H7
  isplitl [H8]; · iexact H8
  isplitl [H9]; · iexact H9
  isplitl [H10]; · iexact H10
  isplitl [H11]; · iexact H11
  iexact H12

/-! ## The inputs' staging buffers hold their blocks -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point is the first, the last or neither;
    the invariant hands the body the accumulators at what the point before left (at anything at the first point)
    and takes them back at this point's contents; off the last point the outputs' buffers are handed back
    untouched, at the last they hold the accumulators; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  have hN : t.val < 10 := lt_of_lt_of_eq t.isLt (show cfg1.N = 10 from N_1)
  by_cases h1 : t.val % 10 = 9
  · have h0 : ¬t.val % 10 = 0 := by omega
    have hz : t.val ≠ 0 := by omega
    rw [show (dat1 V c).leavesExact 2 t = owns (c : Thread nD τ) (ms1_2 t) fullShare ((dat1 V c).after 2 t) from by
        unfold Dat.leavesExact; rw [liveAt1_2 t ((hcond1_1 t).mpr h1)], after1_2]
    rw [show (dat1 V c).leavesExact 3 t = owns (c : Thread nD τ) (ms1_3 t) fullShare ((dat1 V c).after 3 t) from by
        unfold Dat.leavesExact; rw [liveAt1_3 t ((hcond1_1 t).mpr h1)], after1_3]
    rw [acc1_pos V c t hz]; dsimp only
    rw [PhiS1_castSucc V c t, PhiS1_pos V c _ _ hz]
    iintro ⟨⟨HA, HB, Hr⟩, Ho, ⟨%d0, H0⟩, ⟨%d1, H1⟩, ⟨%d2, H2⟩, ⟨%d3, H3⟩⟩
    iapply (run1_last c (grid1.coords t) _ _ _ _ _ _ _ _ _ _ _ _ (fun h => h0 ((hcond1_0 t).mp h)) ((hcond1_1 t).mpr h1) (iblk1 V c 0 t) (iblk1 V c 1 t)
      (acc1 V c (t.val - 1) (Nat.lt_of_le_of_lt (Nat.sub_le _ _) t.isLt)).1 (acc1 V c (t.val - 1) (Nat.lt_of_le_of_lt (Nat.sub_le _ _) t.isLt)).2 Set.univ _)
    isplitl [H0]; · iexact H0
    isplitl [H1]; · iexact H1
    isplitl [H2]; · iexists _; iexact H2
    isplitl [H3]; · iexists _; iexact H3
    isplitl [HA]; · iexact HA
    isplitl [HB]; · iexact HB
    iintro ⟨H0, H1, H2, H3, HA, HB⟩
    isplitl [HA HB Hr]
    · isplitl [HA]; · iexact HA
      isplitl [HB]; · iexact HB
      iexact Hr
    isplitl [Ho]; · iexact Ho
    isplitl [H0]; · iexact H0
    isplitl [H1]; · iexact H1
    isplitl [H2]; · iexact H2
    iexact H3
  · rw [Dat.leavesExact_idle (dat1 V c) 2 t (idleAt1_2 t (fun h => h1 ((hcond1_1 t).mp h))) (noFlush1_2 t (fun h => h1 ((hcond1_1 t).mp h)))]
    rw [Dat.leavesExact_idle (dat1 V c) 3 t (idleAt1_3 t (fun h => h1 ((hcond1_1 t).mp h))) (noFlush1_3 t (fun h => h1 ((hcond1_1 t).mp h)))]
    by_cases h0 : t.val % 10 = 0
    · have hz : t.val = 0 := by omega
      rw [acc1_zero V c t hz]; dsimp only
      rw [PhiS1_castSucc V c t, PhiS1_zero V c _ _ hz]
      refine (sep_mono (PhiA1_open (F := F) c) .rfl).trans ?_
      iintro ⟨⟨HA, HB, Hr⟩, Ho, ⟨%d0, H0⟩, ⟨%d1, H1⟩, H2, H3⟩
      iapply (run1_first c (grid1.coords t) _ _ _ _ _ _ _ _ _ _ _ _ ((hcond1_0 t).mpr h0) (fun h => h1 ((hcond1_1 t).mp h)) (iblk1 V c 0 t) (iblk1 V c 1 t) Set.univ _)
      isplitl [H0]; · iexact H0
      isplitl [H1]; · iexact H1
      isplitl [HA]; · iexact HA
      isplitl [HB]; · iexact HB
      iintro ⟨H0, H1, HA, HB⟩
      isplitl [HA HB Hr]
      · isplitl [HA]; · iexact HA
        isplitl [HB]; · iexact HB
        iexact Hr
      isplitl [Ho]; · iexact Ho
      isplitl [H0]; · iexact H0
      isplitl [H1]; · iexact H1
      isplitl [H2]; · iexact H2
      iexact H3
    · have hz : t.val ≠ 0 := by omega
      rw [acc1_pos V c t hz]; dsimp only
      rw [PhiS1_castSucc V c t, PhiS1_pos V c _ _ hz]
      iintro ⟨⟨HA, HB, Hr⟩, Ho, ⟨%d0, H0⟩, ⟨%d1, H1⟩, H2, H3⟩
      iapply (run1_mid c (grid1.coords t) _ _ _ _ _ _ _ _ _ _ _ _ (fun h => h0 ((hcond1_0 t).mp h)) (fun h => h1 ((hcond1_1 t).mp h)) (iblk1 V c 0 t) (iblk1 V c 1 t)
        (acc1 V c (t.val - 1) (Nat.lt_of_le_of_lt (Nat.sub_le _ _) t.isLt)).1 (acc1 V c (t.val - 1) (Nat.lt_of_le_of_lt (Nat.sub_le _ _) t.isLt)).2 Set.univ _)
      isplitl [H0]; · iexact H0
      isplitl [H1]; · iexact H1
      isplitl [HA]; · iexact HA
      isplitl [HB]; · iexact HB
      iintro ⟨H0, H1, HA, HB⟩
      isplitl [HA HB Hr]
      · isplitl [HA]; · iexact HA
        isplitl [HB]; · iexact HB
        iexact Hr
      isplitl [Ho]; · iexact Ho
      isplitl [H0]; · iexact H0
      isplitl [H1]; · iexact H1
      isplitl [H2]; · iexact H2
      iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- The accumulators' named contents forgotten. -/
theorem forget1 (c : Dev nD) (a b : Vec F S1x8 .f32) :
    iprop(owns (c : Thread nD τ) scA1 fullShare a ∗ owns (c : Thread nD τ) scB1 fullShare b ∗ other1 (F := F) c)
      ⊢ iprop((∃ d, owns (c : Thread nD τ) scA1 fullShare d) ∗ (∃ d, owns (c : Thread nD τ) scB1 fullShare d) ∗ other1 (F := F) c) := by
  iintro ⟨HA, HB, Hr⟩
  isplitl [HA]; · iexists _; iexact HA
  isplitl [HB]; · iexists _; iexact HB
  iexact Hr

/-- After the last point the invariant gives it back: the accumulators' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega)]
  exact (forget1 c _ _).trans (PhiA1_close (F := F) c)

end Cert.KernelIdeal.Hand

end
-- ==== Proof.KI.R2.lean ====
import proofs.«127601_j2001454760193_1_alg».proof.Proof.Gen.KernelIdeal.Launch
import proofs.«127601_j2001454760193_1_alg».proof.Proof.Gen.KernelIdeal.Skeleton
import proofs.«127601_j2001454760193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalisation call (the last of the three kernel calls) at a generic grid point

The kernel of the third call takes a block of the scattered sums (f32, 30000×64), the per-channel scale and the
per-channel shift (f32, 1×64 each) and writes `x * scale + shift` passed through the leaky rectifier into the output
block (f32, 30000×64). Stated here at a parameter `V` — the buffer contents when the call is entered —: each
window's block at a point, what the body leaves in the output window from the three input blocks, the body's triple,
the proof data of the pipeline and its body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the call finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, so the block of the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its block index has not moved, so the block of the point before is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): where the window is not
    fetched its block index has not moved, so the block of the point before is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each block whole -/

abbrev r2_0 : Rect S30000x64 := Rect.unit (s := S30000x64) ![0, 0] S30000x64.size inb_S30000x64_S30000x64_0_0
abbrev r2_1 : Rect S1x64 := Rect.unit (s := S1x64) ![0, 0] S1x64.size inb_S1x64_S1x64_0_0
abbrev r2_2 : Rect S1x64 := Rect.unit (s := S1x64) ![0, 0] S1x64.size inb_S1x64_S1x64_0_0
abbrev r2_3 : Rect S30000x64 := Rect.unit (s := S30000x64) ![0, 0] S30000x64.size inb_S30000x64_S30000x64_0_0

/-! ## What the body leaves in the output window's buffer -/

/-- The output window's staging buffer after the body, from the three input blocks: its one store, of the scaled,
    shifted and rectified block, over the whole buffer. -/
def out2_3 (x0 : Vec F S30000x64 .f32) (x1 : Vec F S1x64 .f32) (x2 : Vec F S1x64 .f32) : Vec F S30000x64 .f32 :=
  View.canon [⟨r2_3, k2_pay1 (View.ld x0 r2_0) (View.ld x1 r2_1) (View.ld x2 r2_2)⟩]

/-- The one store is of the whole buffer, so it covers it. -/
theorem cover2_3 (p0 : Vec F S30000x64 .f32) (y : S30000x64.Idx) :
    ∃ pc ∈ ([⟨r2_3, p0⟩] : List (View.Piece (Elt F) S30000x64 .f32)), y ∈ pc.1.set :=
  View.cover_of_tiled [⟨r2_3, p0⟩] S30000x64.size (by rfl) y

/-! ## The body's triple -/

set_option maxHeartbeats 1000000 in
/-- The kernel body on whole staging memrefs, the three inputs' at contents `x0`, `x1`, `x2` and the output's at
    anything, runs to the continuation holding the inputs' as they were and the output's at `out2_3 x0 x1 x2`: three
    whole-block loads, a load of the output buffer whose value is dropped, and one whole-block store. -/
theorem sound_kernel2 (c : Dev nD) (E : Set ℕ) (i : grid2.Coords) (arg0 : Memref sig .tc .vmem S30000x64 .f32) (harg0 : arg0.IsWhole) (arg1 : Memref sig .tc .vmem S1x64 .f32) (harg1 : arg1.IsWhole) (arg2 : Memref sig .tc .vmem S1x64 .f32) (harg2 : arg2.IsWhole) (arg3 : Memref sig .tc .vmem S30000x64 .f32) (harg3 : arg3.IsWhole)
    (x0 : Vec F S30000x64 .f32) (x1 : Vec F S1x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__norm_kernel i arg0 harg0 arg1 harg1 arg2 harg2 arg3 harg3) K := by
  simp only [cc2__norm_kernel_eq_skeleton]; unfold cc2__norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the call's pipeline on core `c`: the arrays as the call finds them (`V`); after the body at
    point `t` each input's buffer at its block and the output's at `out2_3` of the three input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_0`, `before2_1`, `before2_2`), so
    `sound_kernel2` applies; the invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«127601_j2001454760193_1_alg».proof.Proof.Gen.KernelIdeal.Launch
import proofs.«127601_j2001454760193_1_alg».proof.Proof.Gen.KernelIdeal.Skeleton
import proofs.«127601_j2001454760193_1_alg».proof.Proof.Gen.KernelIdeal.Points
import proofs.«127601_j2001454760193_1_alg».proof.Proof.Gen.KernelIdeal.Regions
import proofs.«127601_j2001454760193_1_alg».proof.Proof.KI.R0
import proofs.«127601_j2001454760193_1_alg».proof.Proof.KI.R1
import proofs.«127601_j2001454760193_1_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: its eight items from the launch to the return

@main is five stretches of host operations and three kernel calls. Between two items every unscoped buffer of the
core holds known contents: the launch memory, then what each host stretch computes from what it finds, then, after a
kernel call, the call's arrays at what its write-backs leave and every other buffer untouched. This module names
those contents item by item (a fold from the launch memory), shows each argument array reads back through the fold to
its launch contents, states each kernel call as a segment between two such thread states, and runs the eight
segments: every weakly fair execution terminates, and the final memory holds every unscoped buffer at the last
contents of the fold. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each item's boundary: a fold through @main -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After `hostOps0` (call 0's entry): the casts to bf16, the index normalisation, the gather. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At call 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (call 0's exit contents). -/
abbrev V2 : (c : Dev nD) → (b : Ref sig .tc) → Buf (Elt F) ((c : Thread nD τ).loc b) := fun c b => W2 m ρ c b
/-- At call 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`: the reshapes, the scatter-add, the iota and the group size. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b

/-- After `hostOps1_1`: the floor division of the channel index by the group size. -/
abbrev W4 : Dev nD → Valuation τ sig (Elt F) := fun c => StableHlo.after hostOps1_1 (W3 m ρ c)
/-- The same read at the TensorCore's references. -/
abbrev V4 : (c : Dev nD) → (b : Ref sig .tc) → Buf (Elt F) ((c : Thread nD τ).loc b) := fun c b => W4 m ρ c b

/-- After `hostOps1_2` (call 1's entry): the group-indicator matrix. -/
abbrev W5 : Dev nD → Valuation τ sig (Elt F) := fun c => StableHlo.after hostOps1_2 (W4 m ρ c)
/-- The same read at the TensorCore's references. -/
abbrev V5 : (c : Dev nD) → (b : Ref sig .tc) → Buf (Elt F) ((c : Thread nD τ).loc b) := fun c b => W5 m ρ c b

/-- At call 1's exit: its arrays at what the pipeline leaves (the inputs as entered, each output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (call 1's exit contents). -/
abbrev V6 : (c : Dev nD) → (b : Ref sig .tc) → Buf (Elt F) ((c : Thread nD τ).loc b) := fun c b => W6 m ρ c b
/-- At call 1's exit each of its arrays holds what the pipeline leaves (`hF1`) and every other buffer what it
    held at entry (`hrest1`). -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2` (call 2's entry): mean, variance, reciprocal root, scale and shift. -/
abbrev W7 : Dev nD → Valuation τ sig (Elt F) := fun c => StableHlo.after hostOps2 (W6 m ρ c)
/-- The same read at the TensorCore's references. -/
abbrev V7 : (c : Dev nD) → (b : Ref sig .tc) → Buf (Elt F) ((c : Thread nD τ).loc b) := fun c b => W7 m ρ c b

/-- At call 2's exit: its arrays at what the pipeline leaves (the inputs as entered, each output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references (call 2's exit contents). -/
abbrev V8 : (c : Dev nD) → (b : Ref sig .tc) → Buf (Elt F) ((c : Thread nD τ).loc b) := fun c b => W8 m ρ c b
/-- At call 2's exit each of its arrays holds what the pipeline leaves (`hF2`) and every other buffer what it
    held at entry (`hrest2`). -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-! ### The arguments end as launched

No host operation writes an argument and no call has one among its arrays, so the fold at an argument's buffer walks
back to the launch memory. -/

/-- A buffer no host stretch writes and no call has among its arrays ends as launched. -/
theorem W8_of (c : Dev nD) (r : Ref sig .tc) (h0 : r ∉ hostOps0_W) (h1 : ∀ w, Pipeline.arrRef spec0 w ≠ r)
    (h2 : r ∉ hostOps1_W) (h3 : r ∉ hostOps1_1_W) (h4 : r ∉ hostOps1_2_W) (h5 : ∀ w, Pipeline.arrRef spec1 w ≠ r)
    (h6 : r ∉ hostOps2_W) (h7 : ∀ w, Pipeline.arrRef spec2 w ≠ r) :
    W8 m ρ c (Proc.devRef .tc r) = m ((c : Thread nD τ).loc r) :=
  calc W8 m ρ c (Proc.devRef .tc r)
    _ = W7 m ρ c (Proc.devRef .tc r) := W8_of_ne m ρ c r h7
    _ = W6 m ρ c (Proc.devRef .tc r) := StableHlo.after_of_writes_sub hostOps2 _ hostOps2_writes h6
    _ = W5 m ρ c (Proc.devRef .tc r) := W6_of_ne m ρ c r h5
    _ = W4 m ρ c (Proc.devRef .tc r) := StableHlo.after_of_writes_sub hostOps1_2 _ hostOps1_2_writes h4
    _ = W3 m ρ c (Proc.devRef .tc r) := StableHlo.after_of_writes_sub hostOps1_1 _ hostOps1_1_writes h3
    _ = W2 m ρ c (Proc.devRef .tc r) := StableHlo.after_of_writes_sub hostOps1 _ hostOps1_writes h2
    _ = W1 m ρ c (Proc.devRef .tc r) := W2_of_ne m ρ c r h1
    _ = W0 m ρ c (Proc.devRef .tc r) := StableHlo.after_of_writes_sub hostOps0 _ hostOps0_writes h0
    _ = m ((c : Thread nD τ).loc r) := rfl

theorem W8_main_arg0 (c : Dev nD) : W8 m ρ c (Proc.devRef .tc main_arg0) = m ((c : Thread nD τ).loc main_arg0) :=
  W8_of m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_of m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_of m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_of m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_of m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_of m ρ c main_arg5 (by decide) (by decide) (by decide) (by decide) (by decide) (by decide) (by decide) (by decide)

/-! ## The proof data family and the thread state -/

/-- Every pipeline's proof data, each at its call's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a call's
    invariant takes it in and gives it back) and what the core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at what the stretch computes from `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W8`,
    the generator register at some state. -/
abbrev Tₙ (c : Dev nD) : sProp 𝕄 := iprop(StableHlo.held (c : Thread nD τ) (Pipeline.ucRefs τ sig) (W8 m ρ c) ∗ ∃ r, prngReg c r)

/-! ## The calls as segments -/

-- applying a library lemma stated over the pinned configuration unifies with the printed one only when unification
-- may unfold plain definitions in a metavariable's type
set_option backward.isDefEq.respectTransparency.types false in
/-- CALL 0 over the thread state: entered from every unscoped buffer at `W1`, left at `W2`. Its arrays are
    split out of the unscoped buffers and put back at the exit contents; the generator register goes into the
    call's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- CALL 1 over the thread state: entered from every unscoped buffer at `W5`, left at `W6`. Its arrays are
    split out of the unscoped buffers and put back at the exit contents; the generator register goes into the
    call's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m ρ 1 c).Φ 0 from hin1 (V5 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- CALL 2 over the thread state: entered from every unscoped buffer at `W7`, left at `W8`. Its arrays are
    split out of the unscoped buffers and put back at the exit contents; the generator register goes into the
    call's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ) ]
/-- @main is the run of the segments: it is the chain of its items, and the segments' run is the chain of their
    fragments, which are those items one by one. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      StableHlo.seq hostOps1_1,
      StableHlo.seq hostOps1_2,
      Prog.lift (.customCall (Pipeline.entry 1) ()),
      StableHlo.seq hostOps2,
      Prog.lift (.customCall (Pipeline.entry 2) ()) ] from rfl]
  rfl

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds every unscoped buffer of every core at the
    last contents of the fold, `W8`: the launch over the eight segments, the last thread state read against the
    final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- THE FRAME, at any float family: every weakly fair execution of @main terminates and every final state has the six
    argument arrays as launched — the run above read at each argument's buffer, which the fold leaves as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (Q := fun r => ∀ c : Dev nD, ∀ b ∈ Pipeline.ucRefs τ sig, r.2.mem (((c : Thread nD τ)).1, b) = W8 m ρ c b) (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c)⟩) (run_all m ρ)

end Cert.KernelIdeal.Hand

end
-- ==== Proof.KI.Fold.lean ====
import proofs.«127601_j2001454760193_1_alg».proof.Proof.KI.Run

/-! # The fold read at the buffers the value of @main follows

The contents of the unscoped buffers between @main's items (the fold `W0` … `W8`) read at particular buffers: a
call's output array holds what the call's write-backs leave; a buffer that no host stretch in between writes and that
no call in between has among its output arrays holds what it held before; an argument holds its launch contents. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A buffer nothing has written yet holds its launch contents -/

/-- Up to call 0's exit: a buffer the first host stretch does not write and call 0 does not have among its arrays. -/
theorem W2_of (c : Dev nD) (r : Ref sig .tc) (h0 : r ∉ hostOps0_W) (h1 : ∀ w, Pipeline.arrRef spec0 w ≠ r) :
    W2 m ρ c (Proc.devRef .tc r) = m ((c : Thread nD τ).loc r) :=
  calc W2 m ρ c (Proc.devRef .tc r)
    _ = W1 m ρ c (Proc.devRef .tc r) := W2_of_ne m ρ c r h1
    _ = W0 m ρ c (Proc.devRef .tc r) := StableHlo.after_of_writes_sub hostOps0 _ hostOps0_writes h0
    _ = m ((c : Thread nD τ).loc r) := rfl

/-- Up to call 1's exit. -/
theorem W6_of (c : Dev nD) (r : Ref sig .tc) (h0 : r ∉ hostOps0_W) (h1 : ∀ w, Pipeline.arrRef spec0 w ≠ r)
    (h2 : r ∉ hostOps1_W) (h3 : r ∉ hostOps1_1_W) (h4 : r ∉ hostOps1_2_W) (h5 : ∀ w, Pipeline.arrRef spec1 w ≠ r) :
    W6 m ρ c (Proc.devRef .tc r) = m ((c : Thread nD τ).loc r) :=
  calc W6 m ρ c (Proc.devRef .tc r)
    _ = W5 m ρ c (Proc.devRef .tc r) := W6_of_ne m ρ c r h5
    _ = W4 m ρ c (Proc.devRef .tc r) := StableHlo.after_of_writes_sub hostOps1_2 _ hostOps1_2_writes h4
    _ = W3 m ρ c (Proc.devRef .tc r) := StableHlo.after_of_writes_sub hostOps1_1 _ hostOps1_1_writes h3
    _ = W2 m ρ c (Proc.devRef .tc r) := StableHlo.after_of_writes_sub hostOps1 _ hostOps1_writes h2
    _ = m ((c : Thread nD τ).loc r) := W2_of m ρ c r h0 h1

/-! ## The arguments where the items read them -/

theorem W0_arg0 (c : Dev nD) : W0 m ρ c (Proc.devRef .tc main_arg0) = m ((c : Thread nD τ).loc main_arg0) := rfl
theorem W0_arg1 (c : Dev nD) : W0 m ρ c (Proc.devRef .tc main_arg1) = m ((c : Thread nD τ).loc main_arg1) := rfl
theorem W0_arg4 (c : Dev nD) : W0 m ρ c (Proc.devRef .tc main_arg4) = m ((c : Thread nD τ).loc main_arg4) := rfl
/-- The scatter's index array, read after call 0. -/
theorem W2_arg5 (c : Dev nD) : W2 m ρ c (Proc.devRef .tc main_arg5) = m ((c : Thread nD τ).loc main_arg5) :=
  W2_of m ρ c main_arg5 (by decide) (by decide)
/-- The scale and the shift of the normalisation, read after call 1. -/
theorem W6_arg2 (c : Dev nD) : W6 m ρ c (Proc.devRef .tc main_arg2) = m ((c : Thread nD τ).loc main_arg2) :=
  W6_of m ρ c main_arg2 (by decide) (by decide) (by decide) (by decide) (by decide) (by decide)
theorem W6_arg3 (c : Dev nD) : W6 m ρ c (Proc.devRef .tc main_arg3) = m ((c : Thread nD τ).loc main_arg3) :=
  W6_of m ρ c main_arg3 (by decide) (by decide) (by decide) (by decide) (by decide) (by decide)

/-! ## The calls' output arrays at their exits -/

/-- Call 0's output array at its exit: what its write-backs leave. -/
theorem W2_v9 (c : Dev nD) : W2 m ρ c (Proc.devRef .tc main_v9) = (dat0 (V1 m ρ) c).arrAt 2 cfg0.N := W2_arr m ρ c 2
/-- Call 1's two output arrays at its exit. -/
theorem W6_v23_0 (c : Dev nD) : W6 m ρ c (Proc.devRef .tc main_v23_0) = (dat1 (V5 m ρ) c).arrAt 2 cfg1.N := W6_arr m ρ c 2
theorem W6_v23_1 (c : Dev nD) : W6 m ρ c (Proc.devRef .tc main_v23_1) = (dat1 (V5 m ρ) c).arrAt 3 cfg1.N := W6_arr m ρ c 3
/-- Call 2's output array, the result, at the end. -/
theorem W8_v45 (c : Dev nD) : W8 m ρ c (Proc.devRef .tc main_v45) = (dat2 (V7 m ρ) c).arrAt 3 cfg2.N := W8_arr m ρ c 3

/-! ## The scatter's result from where it is made to where calls 1 and 2 read it -/

/-- The two host stretches before call 1 do not write the scatter's result. -/
theorem V5_v19 (c : Dev nD) : V5 m ρ c main_v19 = V3 m ρ c main_v19 :=
  calc W5 m ρ c (Proc.devRef .tc main_v19)
    _ = W4 m ρ c (Proc.devRef .tc main_v19) := StableHlo.after_of_writes_sub hostOps1_2 _ hostOps1_2_writes (by decide)
    _ = W3 m ρ c (Proc.devRef .tc main_v19) := StableHlo.after_of_writes_sub hostOps1_1 _ hostOps1_1_writes (by decide)
/-- Call 1 reads the scatter's result through an input window, which it leaves as entered, and the host stretch
    before call 2 does not write it. -/
theorem V7_v19 (c : Dev nD) : V7 m ρ c main_v19 = V3 m ρ c main_v19 :=
  calc W7 m ρ c (Proc.devRef .tc main_v19)
    _ = W6 m ρ c (Proc.devRef .tc main_v19) := StableHlo.after_of_writes_sub hostOps2 _ hostOps2_writes (by decide)
    _ = (dat1 (V5 m ρ) c).arrAt 0 cfg1.N := W6_arr m ρ c 0
    _ = (dat1 (V5 m ρ) c).A 0 := (dat1 (V5 m ρ) c).arrAt_in 0 rfl _
    _ = V5 m ρ c main_v19 := A_eq1 (V5 m ρ) c 0
    _ = V3 m ρ c main_v19 := V5_v19 m ρ c

end Cert.KernelIdeal.Hand

end
-- ==== Proof.Spec.lean ====
/-
  The mathematics both programs compute after the scatter-add, stated once over the extended reals.

  `x : Arr` is the accumulated sparse-convolution output, 300000 points by 64 channels; the 64 channels
  fall into 8 groups of 8 consecutive channels, channel `c` in group `c / 8`.  Per group `g` the normalisation
  uses the mean and the variance over all points and the group's 8 channels (2 400 000 entries).

  * the kernel's form: the variance as E[x²] − (E[x])², and the normalisation folded into one
    multiply-add per entry, `x·(γ·r) + (β − μ·γ·r)` with `r = (σ² + ε)^(−1/2)`;
  * the reference's form: the variance as E[(x − μ)²], and `((x − μ)·r)·γ + β`.

  Both end in the same leaky rectifier.  The float literals are kept as the words the programs print.
-/
import Idealize.ShloMosaic.PureOps.Ideal
import Idealize.ShloMosaic.Lib.ValueIdx

noncomputable section

namespace Cert.Spec

open Idealize.ShloMosaic Idealize.ShloMosaic.ValueIdx

/-- A 300000 × 64 array of extended reals. -/
abbrev Arr : Type := (⟨2, ![300000, 64]⟩ : Shape).Idx → EReal
/-- A vector of 64 per-channel values. -/
abbrev Chan : Type := (⟨1, ![64]⟩ : Shape).Idx → EReal

/-- The number of entries a group's statistics run over, 300000 · 8, as the programs spell it. -/
def cnt : EReal := Ideal.ofBits .f32 0x4A127C00#32
/-- The variance's regulariser ε. -/
def eps : EReal := Ideal.ofBits .f32 0x3727C5AC#32
/-- The rectifier's slope on the negative side. -/
def slope : EReal := Ideal.ofBits .f32 0x3C23D70A#32

/-- The group of channel `c`. -/
def grp (c : Fin 64) : Fin 8 := ⟨c.val / 8, by omega⟩
/-- The `j`-th channel of group `g`. -/
def gch (g j : Fin 8) : Fin 64 := ⟨8 * g.val + j.val, by omega⟩

theorem grp_gch (g j : Fin 8) : grp (gch g j) = g := by
  apply Fin.ext; simp only [grp, gch]; omega

/-- The sum of a group's entries. -/
def S1 (x : Arr) (g : Fin 8) : EReal := ∑ n : Fin 300000, ∑ j : Fin 8, x (ix2 n (gch g j))
/-- The sum of the squares of a group's entries. -/
def S2 (x : Arr) (g : Fin 8) : EReal := ∑ n : Fin 300000, ∑ j : Fin 8, x (ix2 n (gch g j)) * x (ix2 n (gch g j))
/-- A group's mean. -/
def mean (x : Arr) (g : Fin 8) : EReal := Ideal.div (S1 x g) cnt
/-- The sum of the squared deviations from the group's mean. -/
def SS (x : Arr) (g : Fin 8) : EReal :=
  ∑ n : Fin 300000, ∑ j : Fin 8, (x (ix2 n (gch g j)) - mean x g) * (x (ix2 n (gch g j)) - mean x g)

/-- The variance as the kernel computes it. -/
def varK (x : Arr) (g : Fin 8) : EReal := Ideal.div (S2 x g) cnt - mean x g * mean x g
/-- The variance as the reference computes it. -/
def varR (x : Arr) (g : Fin 8) : EReal := Ideal.div (SS x g) cnt
/-- The reciprocal standard deviation, from either variance. -/
def rinvK (x : Arr) (g : Fin 8) : EReal := Ideal.rsqrt (varK x g + eps)
def rinvR (x : Arr) (g : Fin 8) : EReal := Ideal.rsqrt (varR x g + eps)

/-- The leaky rectifier. -/
def leaky (v : EReal) : EReal := if 0 ≤ v then v else slope * v

/-- The kernel's result at point `n`, channel `c`. -/
def kAt (x : Arr) (γ β : Chan) (n : Fin 300000) (c : Fin 64) : EReal :=
  leaky (x (ix2 n c) * (γ (ix1 c) * rinvK x (grp c)) + (β (ix1 c) - (mean x (grp c) * γ (ix1 c)) * rinvK x (grp c)))
/-- The reference's result at point `n`, channel `c`. -/
def rAt (x : Arr) (γ β : Chan) (n : Fin 300000) (c : Fin 64) : EReal :=
  leaky (((x (ix2 n c) - mean x (grp c)) * rinvR x (grp c)) * γ (ix1 c) + β (ix1 c))

/-- The kernel's result array. -/
def KTail (x : Arr) (γ β : Chan) : Arr := fun i => kAt x γ β (i 0) (i 1)
/-- The reference's result array. -/
def RTail (x : Arr) (γ β : Chan) : Arr := fun i => rAt x γ β (i 0) (i 1)

/-- An extended real that is a real number. -/
def Fin' (v : EReal) : Prop := v ≠ ⊤ ∧ v ≠ ⊥

end Cert.Spec

end
-- ==== Proof.SpecK.lean ====
/-
  The three kernel regions' results, each as one whole-array function of the arrays the region reads.

  * the convolution: for offset `k`, pair `p` and output channel `o`, the inner product over the 32 input
    channels of the gathered row with the offset's weight column;
  * the statistics: per group column `g` of the indicator matrix, the sum over all points and channels of
    `x·m` (and of `x²·m`);
  * the normalisation: one multiply-add per entry with a per-channel scale and shift, then the leaky rectifier.
-/
import proofs.«127601_j2001454760193_1_alg».proof.Proof.Spec

noncomputable section

namespace Cert.Spec

open Idealize.ShloMosaic Idealize.ShloMosaic.ValueIdx

abbrev Gath : Type := (⟨3, ![27, 100000, 32]⟩ : Shape).Idx → EReal
abbrev Wgt : Type := (⟨3, ![27, 32, 64]⟩ : Shape).Idx → EReal
abbrev Conv : Type := (⟨3, ![27, 100000, 64]⟩ : Shape).Idx → EReal
abbrev Ind : Type := (⟨2, ![64, 8]⟩ : Shape).Idx → EReal
abbrev Stat : Type := (⟨2, ![1, 8]⟩ : Shape).Idx → EReal
abbrev Row : Type := (⟨2, ![1, 64]⟩ : Shape).Idx → EReal

/-- One entry of the per-offset matrix product. -/
def convAt (g : Gath) (w : Wgt) (k : Fin 27) (p : Fin 100000) (o : Fin 64) : EReal :=
  ∑ i : Fin 32, g (ix3 k p i) * w (ix3 k i o)
def conv (g : Gath) (w : Wgt) : Conv := fun j => convAt g w (j 0) (j 1) (j 2)

/-- The column sums of `x · m` over all points. -/
def statAt (x : Arr) (m : Ind) (g : Fin 8) : EReal := ∑ n : Fin 300000, ∑ ch : Fin 64, x (ix2 n ch) * m (ix2 ch g)
def stat (x : Arr) (m : Ind) : Stat := fun i => statAt x m (i 1)
/-- The column sums of `(x * x) · m` over all points. -/
def stat2At (x : Arr) (m : Ind) (g : Fin 8) : EReal :=
  ∑ n : Fin 300000, ∑ ch : Fin 64, (x (ix2 n ch) * x (ix2 n ch)) * m (ix2 ch g)
def stat2 (x : Arr) (m : Ind) : Stat := fun i => stat2At x m (i 1)

/-- The normalisation's entry. -/
def normAt (x : Arr) (sc sh : Row) (n : Fin 300000) (c : Fin 64) : EReal :=
  leaky (x (ix2 n c) * sc (ix2 0 c) + sh (ix2 0 c))
def norm (x : Arr) (sc sh : Row) : Arr := fun i => normAt x sc sh (i 0) (i 1)

end Cert.Spec

end
-- ==== Proof.KI.Val0.lean ====
import proofs.«127601_j2001454760193_1_alg».proof.Proof.KI.R0
import proofs.«127601_j2001454760193_1_alg».proof.Proof.SpecK
import Idealize.ShloMosaic.Lib.Pipeline.Value
import Idealize.ShloMosaic.Lib.ValueIdx
import Idealize.ShloMosaic.Lib.ValueLayout
import Idealize.ShloMosaic.PureOps.Ideal.Laws

/-! # The convolution call's output array

The first call leaves in its output array (27 offsets × 100000 pairs × 64 channels) the per-offset matrix product of
the gathered array (27 × 100000 × 32) and the weights (27 × 32 × 64): first the body's payload at one entry of its
block, the inner product over the 32 input channels; then each point's written block as that product's block, by the
printed index maps decided over the 27 × 5 grid; then the cover of the array by the blocks. -/

noncomputable section

namespace Cert.KernelIdeal.HandV

open Cert.KernelIdeal Cert.KernelIdeal.Gen Cert.KernelIdeal.Hand Cert.Spec Idealize.ShloMosaic Idealize.ShloMosaic.ValueIdx Idealize.ShloMosaic.TcCoe Idealize.SL.Sem

/-! ## The body's payload at an entry

The block product's operand indices, axis by axis: the left operand reads the output's row and the contracted
position, the right operand the contracted position and the output's column. -/

theorem lhs_D0_0 (i : S20000x64.Idx) (q : dot_S20000x32_S32x64_S20000x64_1_0_0_1_n_n.contr.Idx) :
    (dot_S20000x32_S32x64_S20000x64_1_0_0_1_n_n.lhsIdx i q 0).val = (i 0).val := by
  unfold DotDims.lhsIdx
  rw [dif_neg (show ¬(0 : Fin S20000x32.rank) ∈ dot_S20000x32_S32x64_S20000x64_1_0_0_1_n_n.lhsBatch by decide), dif_pos (show (0 : Fin S20000x32.rank) ∈ dot_S20000x32_S32x64_S20000x64_1_0_0_1_n_n.lhsNonContracting by decide)]
  rfl
theorem lhs_D0_1 (i : S20000x64.Idx) (q : dot_S20000x32_S32x64_S20000x64_1_0_0_1_n_n.contr.Idx) :
    (dot_S20000x32_S32x64_S20000x64_1_0_0_1_n_n.lhsIdx i q 1).val = (q ⟨0, by decide⟩).val :=
  dot_S20000x32_S32x64_S20000x64_1_0_0_1_n_n.lhsIdx_val_of_single rfl i q
theorem rhs_D0_0 (i : S20000x64.Idx) (q : dot_S20000x32_S32x64_S20000x64_1_0_0_1_n_n.contr.Idx) :
    (dot_S20000x32_S32x64_S20000x64_1_0_0_1_n_n.rhsIdx i q 0).val = (q ⟨0, by decide⟩).val :=
  dot_S20000x32_S32x64_S20000x64_1_0_0_1_n_n.rhsIdx_val_of_single rfl i q
theorem rhs_D0_1 (i : S20000x64.Idx) (q : dot_S20000x32_S32x64_S20000x64_1_0_0_1_n_n.contr.Idx) :
    (dot_S20000x32_S32x64_S20000x64_1_0_0_1_n_n.rhsIdx i q 1).val = (i 1).val := by
  unfold DotDims.rhsIdx
  rw [dif_neg (show ¬(1 : Fin S32x64.rank) ∈ dot_S20000x32_S32x64_S20000x64_1_0_0_1_n_n.rhsBatch by decide), dif_pos (show (1 : Fin S32x64.rank) ∈ dot_S20000x32_S32x64_S20000x64_1_0_0_1_n_n.rhsNonContracting by decide)]
  rfl

/-- The block product at row `r`, column `o`: the inner product over the 32 contracted entries. -/
theorem matmul0_apply (a : FVec Ideal S20000x32 .bf16) (b : FVec Ideal S32x64 .bf16) (r : Fin 20000) (o : Fin 64) :
    matmul (F := Ideal) dot_S20000x32_S32x64_S20000x64_1_0_0_1_n_n none a b (constant (F := Ideal) S20000x64 .f32 0x00000000#32) (ix2 r o)
      = ∑ i : Fin 32, a (ix2 r i) * b (ix2 i o) := by
  simp only [matmul]
  rw [Ideal.matmul_constant_zero_apply, ← Equiv.sum_comp (contrEquiv1 dot_S20000x32_S32x64_S20000x64_1_0_0_1_n_n 32 rfl rfl).symm]
  refine Finset.sum_congr rfl fun k _ => ?_
  have hk := contrEquiv1_symm_val dot_S20000x32_S32x64_S20000x64_1_0_0_1_n_n 32 rfl rfl k
  have el : dot_S20000x32_S32x64_S20000x64_1_0_0_1_n_n.lhsIdx (ix2 r o) ((contrEquiv1 dot_S20000x32_S32x64_S20000x64_1_0_0_1_n_n 32 rfl rfl).symm k) = ix2 r k := funext fun a => Fin.ext (by
    match a with
    | ⟨0, _⟩ => exact lhs_D0_0 _ _
    | ⟨1, _⟩ => exact (lhs_D0_1 _ _).trans hk)
  have er : dot_S20000x32_S32x64_S20000x64_1_0_0_1_n_n.rhsIdx (ix2 r o) ((contrEquiv1 dot_S20000x32_S32x64_S20000x64_1_0_0_1_n_n 32 rfl rfl).symm k) = ix2 k o := funext fun a => Fin.ext (by
    match a with
    | ⟨0, _⟩ => exact (rhs_D0_0 _ _).trans hk
    | ⟨1, _⟩ => exact rhs_D0_1 _ _)
  rw [el, er]

/-- The body's payload at row `r`, output channel `o` of its one block: the inner product over the 32 input channels
    of the gathered block's row with the weight block's column. -/
theorem pay0_apply (x0 : Vec Ideal S1x20000x32 .bf16) (x1 : Vec Ideal S1x32x64 .bf16) (r : Fin 20000) (o : Fin 64) :
    k0_pay1 (F := Ideal) x0 x1 (ix3 0 r o) = ∑ i : Fin 32, x0 (ix3 0 r i) * x1 (ix3 0 i o) := by
  unfold k0_pay1
  refine (shapeCast_ab_1ab_apply _ _ 0 r o).trans ?_
  refine (matmul0_apply _ _ r o).trans ?_
  refine Finset.sum_congr rfl fun i _ => ?_
  exact congrArg₂ (· * ·) (shapeCast_1ab_ab_apply _ _ r i) (shapeCast_1ab_ab_apply _ _ i o)

/-! ## From the blocks to the array -/

/-- The payload at a block entry whose two operand rows and columns are read off whole arrays `G`, `W` at offset
    `k` and pair `p`: the entry of the per-offset product there. -/
theorem pay0_at (x0 : Vec Ideal S1x20000x32 .bf16) (x1 : Vec Ideal S1x32x64 .bf16) (G : Gath) (W : Wgt)
    (k : Fin 27) (p : Fin 100000) (r : Fin 20000) (o : Fin 64)
    (h0 : ∀ i : Fin 32, x0 (ix3 0 r i) = G (ix3 k p i)) (h1 : ∀ i : Fin 32, x1 (ix3 0 i o) = W (ix3 k i o)) :
    k0_pay1 (F := Ideal) x0 x1 (ix3 0 r o) = convAt G W k p o := by
  rw [pay0_apply]
  exact Finset.sum_congr rfl fun i _ => by rw [h0 i, h1 i]

variable (V : (c : Dev nD) → (b : Ref sig .tc) → Buf (Elt Ideal) ((c : Thread nD τ).loc b))

theorem zero_off0 : (![0, 0, 0] : Fin 3 → Nat) = fun _ => 0 := funext fun a => by fin_cases a <;> rfl

/-- The printed index maps, decided over the grid: the gathered block moves with the output block on the offset and
    tile axes, the weight block on the offset axis alone; every other block index is zero. -/
theorem idx_facts0 : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) ≤ 26 ∧ win0_2.index t (1 : Fin 3) ≤ 4 ∧ win0_2.index t (2 : Fin 3) = 0 :=
  (by decide +kernel : ∀ t : Fin grid0.N, _)

/-- Every (offset, tile) pair is some point's output block. -/
theorem idx_onto0 : ∀ (q0 : Fin 27) (q1 : Fin 5), ∃ t : Fin cfg0.N, win0_2.index t = ![q0.val, q1.val, 0] :=
  (by decide +kernel : ∀ (q0 : Fin 27) (q1 : Fin 5), ∃ t : Fin grid0.N, win0_2.index t = ![q0.val, q1.val, 0])

set_option maxHeartbeats 400000 in
/-- What point `t` writes back is its block of the per-offset product of the two arrays the call reads. -/
theorem flushed0_eq (c : Dev nD) (t : Fin cfg0.N) :
    (dat0 (F := Ideal) V c).flushed 2 t = ((cfg0.win 2).blk t).view.read (Elt Ideal) (conv (V c main_v8) (V c main_v1)) := by
  show (cfg0.win 2).cut (grid0.coords t) ((dat0 V c).after 2 t) = _
  rw [after0_2]
  unfold out0_2
  rw [View.canon_unit_zero zero_off0]
  simp only [View.ld_unit_zero (S := S1x20000x32) zero_off0, View.ld_unit_zero (S := S1x32x64) zero_off0]
  funext j
  obtain ⟨u, r, o, rfl⟩ : ∃ (u : Fin 1) (r : Fin 20000) (o : Fin 64), j = ix3 u r o := ⟨j 0, j 1, j 2, eq_ix3 j⟩
  obtain rfl : u = 0 := Subsingleton.elim _ _
  obtain ⟨e0, e1, e2, e3, e4, e5, b0, b1, e6⟩ := idx_facts0 t
  have hr : r.val < 20000 := r.isLt
  show k0_pay1 (iblk0 V c 0 t) (iblk0 V c 1 t) (ix3 0 r o) = conv (V c main_v8) (V c main_v1) (((cfg0.win 2).blk t).view.emb (ix3 0 r o))
  refine (pay0_at _ _ (V c main_v8) (V c main_v1) ⟨win0_2.index t (0 : Fin 3), by omega⟩ ⟨win0_2.index t (1 : Fin 3) * 20000 + r.val, by omega⟩ r o ?_ ?_).trans ?_
  · intro i
    show V c main_v8 (((cfg0.win 0).blk t).view.emb (ix3 0 r i)) = _
    congr 1
    funext a; apply Fin.ext
    match a with
    | ⟨0, _⟩ => show win0_0.index t (0 : Fin 3) * 1 + 1 * 0 = win0_2.index t (0 : Fin 3); omega
    | ⟨1, _⟩ => show win0_0.index t (1 : Fin 3) * 20000 + 1 * r.val = win0_2.index t (1 : Fin 3) * 20000 + r.val; omega
    | ⟨2, _⟩ => show win0_0.index t (2 : Fin 3) * 32 + 1 * i.val = i.val; omega
  · intro i
    show V c main_v1 (((cfg0.win 1).blk t).view.emb (ix3 0 i o)) = _
    congr 1
    funext a; apply Fin.ext
    match a with
    | ⟨0, _⟩ => show win0_1.index t (0 : Fin 3) * 1 + 1 * 0 = win0_2.index t (0 : Fin 3); omega
    | ⟨1, _⟩ => show win0_1.index t (1 : Fin 3) * 32 + 1 * i.val = i.val; omega
    | ⟨2, _⟩ => show win0_1.index t (2 : Fin 3) * 64 + 1 * o.val = o.val; omega
  · show convAt _ _ _ _ _ = convAt _ _ _ _ _
    congr 1 <;> apply Fin.ext
    · show win0_2.index t (0 : Fin 3) = win0_2.index t (0 : Fin 3) * 1 + 1 * 0; omega
    · show win0_2.index t (1 : Fin 3) * 20000 + r.val = win0_2.index t (1 : Fin 3) * 20000 + 1 * r.val; omega
    · show o.val = win0_2.index t (2 : Fin 3) * 64 + 1 * o.val; omega

/-- An index of the output array is in point `t`'s block iff each coordinate is in the block's range on its axis. -/
theorem mem_blk0 (t : Fin cfg0.N) (i : S27x100000x64.Idx) :
    i ∈ ((cfg0.win 2).blk t).view.set ↔ ∀ a : Fin 3, win0_2.index t a * S1x20000x64.size a ≤ (i a).val ∧ (i a).val < win0_2.index t a * S1x20000x64.size a + S1x20000x64.size a := by
  show i ∈ ((View.whole main_v9).slice (win0_2.rect t)).set ↔ _
  rw [View.set_slice_whole, Rect.mem_set_unit]
  exact Iff.rfl

/-- The output blocks fill the array: offset `k`, pair `p` lies in the block of offset `k` and tile `p / 20000`. -/
theorem cover0 (i : S27x100000x64.Idx) : ∃ t : Fin cfg0.N, (cfg0.win 2).flush t = true ∧ i ∈ ((cfg0.win 2).blk t).view.set := by
  have hi0 : (i 0).val < 27 := (i 0).isLt
  have hi1 : (i 1).val < 100000 := (i 1).isLt
  have hi2 : (i 2).val < 64 := (i 2).isLt
  obtain ⟨t, ht⟩ := idx_onto0 ⟨(i 0).val, hi0⟩ ⟨(i 1).val / 20000, by omega⟩
  have q0 : win0_2.index t (0 : Fin 3) = (i 0).val := congrFun ht 0
  have q1 : win0_2.index t (1 : Fin 3) = (i 1).val / 20000 := congrFun ht 1
  have q2 : win0_2.index t (2 : Fin 3) = 0 := congrFun ht 2
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 20000 ≤ (i 1).val ∧ (i 1).val < win0_2.index t (1 : Fin 3) * 20000 + 20000; omega
  | ⟨2, _⟩ => show win0_2.index t (2 : Fin 3) * 64 ≤ (i 2).val ∧ (i 2).val < win0_2.index t (2 : Fin 3) * 64 + 64; omega

/-- The output array after the call: the per-offset matrix product of the gathered array and the weights, whole. -/
theorem final0 (c : Dev nD) : (dat0 (F := Ideal) V c).arrAt 2 cfg0.N = conv (V c main_v8) (V c main_v1) :=
  (dat0 V c).arrAt_eq_of_cover 2 (conv (V c main_v8) (V c main_v1)) (fun t _ => flushed0_eq V c t) cover0

end Cert.KernelIdeal.HandV

end
-- ==== Proof.KI.Val1.lean ====
/-
  The statistics stage's two outputs as whole-array functions of the arrays it reads.

  The stage walks ten blocks of 30000 rows of the accumulated points `x` (300000 × 64) with the group-indicator
  matrix `m` (64 × 8) held whole, and carries two [1,8] accumulators: zero before the first block, then per block
  the column sums of `x_blk · m` and of `(x_blk ∗ x_blk) · m` are added.  Read at the extended reals:

  * one block's update at a group column is the accumulator plus the sum over the block's rows and the 64 channels
    of the products (the matrix product into zeros, the sum over rows, the two reshapes);
  * by induction over the blocks the accumulators after block `n` hold the shares of the rows of blocks `0 … n`;
  * ten runs of 30000 consecutive rows are the 300000 rows, so after the last block they hold `stat x m` and
    `stat2 x m`;
  * only the last block's write-back reaches the two output arrays, and its block is the whole [1,8] array.
-/
import proofs.«127601_j2001454760193_1_alg».proof.Proof.KI.R1Defs
import proofs.«127601_j2001454760193_1_alg».proof.Proof.SpecK
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Intervals

set_option maxRecDepth 16384

noncomputable section

namespace Cert.KernelIdeal.HandV

open Cert.KernelIdeal Cert.KernelIdeal.Gen Cert.KernelIdeal.Hand Cert.Spec
open Idealize.ShloMosaic Idealize.ShloMosaic.ValueIdx Idealize.ShloMosaic.TcCoe Idealize.SL.Sem

/-! ## The statistics matmul's operand indices -/

theorem lhs_stat_0 (i : S30000x8.Idx) (q : dot_S30000x64_S64x8_S30000x8_1_0_0_1_n_n.contr.Idx) :
    (dot_S30000x64_S64x8_S30000x8_1_0_0_1_n_n.lhsIdx i q 0).val = (i 0).val := by
  unfold DotDims.lhsIdx
  rw [dif_neg (show ¬(0 : Fin S30000x64.rank) ∈ dot_S30000x64_S64x8_S30000x8_1_0_0_1_n_n.lhsBatch by decide),
    dif_pos (show (0 : Fin S30000x64.rank) ∈ dot_S30000x64_S64x8_S30000x8_1_0_0_1_n_n.lhsNonContracting by decide)]
  rfl
theorem lhs_stat_1 (i : S30000x8.Idx) (q : dot_S30000x64_S64x8_S30000x8_1_0_0_1_n_n.contr.Idx) :
    (dot_S30000x64_S64x8_S30000x8_1_0_0_1_n_n.lhsIdx i q 1).val = (q ⟨0, by decide⟩).val :=
  dot_S30000x64_S64x8_S30000x8_1_0_0_1_n_n.lhsIdx_val_of_single rfl i q
theorem rhs_stat_0 (i : S30000x8.Idx) (q : dot_S30000x64_S64x8_S30000x8_1_0_0_1_n_n.contr.Idx) :
    (dot_S30000x64_S64x8_S30000x8_1_0_0_1_n_n.rhsIdx i q 0).val = (q ⟨0, by decide⟩).val :=
  dot_S30000x64_S64x8_S30000x8_1_0_0_1_n_n.rhsIdx_val_of_single rfl i q
theorem rhs_stat_1 (i : S30000x8.Idx) (q : dot_S30000x64_S64x8_S30000x8_1_0_0_1_n_n.contr.Idx) :
    (dot_S30000x64_S64x8_S30000x8_1_0_0_1_n_n.rhsIdx i q 1).val = (i 1).val := by
  unfold DotDims.rhsIdx
  rw [dif_neg (show ¬(1 : Fin S64x8.rank) ∈ dot_S30000x64_S64x8_S30000x8_1_0_0_1_n_n.rhsBatch by decide),
    dif_pos (show (1 : Fin S64x8.rank) ∈ dot_S30000x64_S64x8_S30000x8_1_0_0_1_n_n.rhsNonContracting by decide)]
  rfl

/-- The product of a [30000,64] block with a [64,8] matrix into zeros, at row `r` and column `g`: the inner
    product over the 64 channels. -/
theorem matmul_stat_apply (x : FVec Ideal S30000x64 .f32) (gm : FVec Ideal S64x8 .f32) (r : Fin 30000) (g : Fin 8) :
    matmul dot_S30000x64_S64x8_S30000x8_1_0_0_1_n_n none x gm (constant (F := Ideal) S30000x8 .f32 0x00000000#32) (ix2 r g)
      = ∑ ch : Fin 64, x (ix2 r ch) * gm (ix2 ch g) := by
  simp only [matmul]
  rw [Ideal.matmul_constant_zero_apply, ← Equiv.sum_comp (contrEquiv1 dot_S30000x64_S64x8_S30000x8_1_0_0_1_n_n 64 rfl rfl).symm]
  refine Finset.sum_congr rfl fun k _ => ?_
  have hk := contrEquiv1_symm_val dot_S30000x64_S64x8_S30000x8_1_0_0_1_n_n 64 rfl rfl k
  have el : dot_S30000x64_S64x8_S30000x8_1_0_0_1_n_n.lhsIdx (ix2 r g) ((contrEquiv1 dot_S30000x64_S64x8_S30000x8_1_0_0_1_n_n 64 rfl rfl).symm k) = ix2 r k :=
    funext fun a => Fin.ext (by
      match a with
      | ⟨0, _⟩ => exact lhs_stat_0 _ _
      | ⟨1, _⟩ => exact (lhs_stat_1 _ _).trans hk)
  have er : dot_S30000x64_S64x8_S30000x8_1_0_0_1_n_n.rhsIdx (ix2 r g) ((contrEquiv1 dot_S30000x64_S64x8_S30000x8_1_0_0_1_n_n 64 rfl rfl).symm k) = ix2 k g :=
    funext fun a => Fin.ext (by
      match a with
      | ⟨0, _⟩ => exact (rhs_stat_0 _ _).trans hk
      | ⟨1, _⟩ => exact rhs_stat_1 _ _)
  rw [el, er]

/-- The sum over the rows of a [30000,8] vector, at column `g`. -/
theorem rowsum_stat_apply (v : FVec Ideal S30000x8 .f32) (h : S30000x8.Reduces [0] S8) (hφ : FKind.Formats .f32)
    (hacc : (0x00000000#32 : BitVec 32) = FKind.add.neutral .f32 hφ) (g : Fin 8) :
    multiReduction (F := Ideal) .add [0] S8 v 0x00000000#32 h hφ hacc (ix1 g) = ∑ r : Fin 30000, v (ix2 r g) := by
  refine (Ideal.multiReduction_add_single v 0x00000000#32 h hφ hacc (ix1 g)).trans ?_
  refine Finset.sum_congr rfl fun r _ => congrArg v ?_
  funext a
  apply Fin.ext
  match a with
  | ⟨0, _⟩ => rfl
  | ⟨1, _⟩ => rfl

/-! ## The statistics payloads at an index -/

/-- The first accumulator starts at zero. -/
theorem pay1_apply (g : Fin 8) : k1_pay1 (F := Ideal) (ix2 (0 : Fin 1) g) = 0 := by
  unfold k1_pay1
  rw [shapeCast_self]
  exact Ideal.ofBits_zero_f32

/-- The second accumulator starts at zero. -/
theorem pay2_apply (g : Fin 8) : k1_pay2 (F := Ideal) (ix2 (0 : Fin 1) g) = 0 := by
  unfold k1_pay2
  rw [shapeCast_self]
  exact Ideal.ofBits_zero_f32

/-- One point's update of the first accumulator: the column sums of the block times the indicator matrix are added. -/
theorem pay5_apply (x : Vec Ideal S30000x64 .f32) (gm : Vec Ideal S64x8 .f32) (a : Vec Ideal S1x8 .f32) (g : Fin 8) :
    k1_pay5 (F := Ideal) x gm a (ix2 (0 : Fin 1) g)
      = a (ix2 (0 : Fin 1) g) + ∑ r : Fin 30000, ∑ ch : Fin 64, x (ix2 r ch) * gm (ix2 ch g) := by
  unfold k1_pay5 k1_pay3 k1_pay4
  dsimp only
  rw [shapeCast_self, shapeCast_self, shapeCast_self]
  refine (addf_apply _ _ _).trans ?_
  refine congrArg (a (ix2 (0 : Fin 1) g) + ·) ?_
  refine (shapeCast_a_1a_apply _ _ (0 : Fin 1) g).trans ?_
  refine (rowsum_stat_apply _ _ _ _ g).trans ?_
  exact Finset.sum_congr rfl fun r _ => matmul_stat_apply x gm r g

/-- One point's update of the second accumulator: the same of the block's squares. -/
theorem pay6_apply (x : Vec Ideal S30000x64 .f32) (gm : Vec Ideal S64x8 .f32) (a : Vec Ideal S1x8 .f32) (g : Fin 8) :
    k1_pay6 (F := Ideal) x gm a (ix2 (0 : Fin 1) g)
      = a (ix2 (0 : Fin 1) g) + ∑ r : Fin 30000, ∑ ch : Fin 64, (x (ix2 r ch) * x (ix2 r ch)) * gm (ix2 ch g) := by
  unfold k1_pay6 k1_pay3 k1_pay4
  dsimp only
  rw [shapeCast_self, shapeCast_self, shapeCast_self]
  refine (addf_apply _ _ _).trans ?_
  refine congrArg (a (ix2 (0 : Fin 1) g) + ·) ?_
  refine (shapeCast_a_1a_apply _ _ (0 : Fin 1) g).trans ?_
  refine (rowsum_stat_apply _ _ _ _ g).trans ?_
  exact Finset.sum_congr rfl fun r _ => matmul_stat_apply (mulf x x) gm r g

/-! ## Sums over the rows, point by point -/

/-- Ten runs of 30000 consecutive rows are the 300000 rows: a sum over points and rows inside the point's block is
    the sum over the range. -/
theorem sum_blocks_range {M : Type*} [AddCommMonoid M] (f : ℕ → M) (B : ℕ) :
    ∀ T : ℕ, ∑ t ∈ Finset.range T, ∑ r : Fin B, f (B * t + r.val) = ∑ k ∈ Finset.range (B * T), f k
  | 0 => by simp
  | T + 1 => by
    rw [Finset.sum_range_succ, sum_blocks_range f B T, Nat.mul_succ, Finset.sum_range_add,
      Fin.sum_univ_eq_sum_range (fun r => f (B * T + r)) B]

/-- Row `k`'s share of column `g` of `x · m`, zero past the last row. -/
def rowTerm (x : Arr) (m : Ind) (g : Fin 8) (k : ℕ) : EReal :=
  if h : k < 300000 then ∑ ch : Fin 64, x (ix2 ⟨k, h⟩ ch) * m (ix2 ch g) else 0

/-- Row `k`'s share of column `g` of `(x ∗ x) · m`, zero past the last row. -/
def rowTerm2 (x : Arr) (m : Ind) (g : Fin 8) (k : ℕ) : EReal :=
  if h : k < 300000 then ∑ ch : Fin 64, (x (ix2 ⟨k, h⟩ ch) * x (ix2 ⟨k, h⟩ ch)) * m (ix2 ch g) else 0

theorem sum_rowTerm (x : Arr) (m : Ind) (g : Fin 8) :
    ∑ t ∈ Finset.range 10, ∑ r : Fin 30000, rowTerm x m g (30000 * t + r.val) = statAt x m g := by
  rw [sum_blocks_range (rowTerm x m g) 30000 10, ← Fin.sum_univ_eq_sum_range (rowTerm x m g) (30000 * 10)]
  unfold statAt
  refine Finset.sum_congr rfl fun n _ => ?_
  unfold rowTerm
  rw [dif_pos n.isLt]

theorem sum_rowTerm2 (x : Arr) (m : Ind) (g : Fin 8) :
    ∑ t ∈ Finset.range 10, ∑ r : Fin 30000, rowTerm2 x m g (30000 * t + r.val) = stat2At x m g := by
  rw [sum_blocks_range (rowTerm2 x m g) 30000 10, ← Fin.sum_univ_eq_sum_range (rowTerm2 x m g) (30000 * 10)]
  unfold stat2At
  refine Finset.sum_congr rfl fun n _ => ?_
  unfold rowTerm2
  rw [dif_pos n.isLt]

/-! ## The blocks the statistics stage reads -/

-- the buffer contents when the stage is entered
variable (V : (c : Dev nD) → (b : Ref sig .tc) → Buf (Elt Ideal) ((c : Thread nD τ).loc b))

/-- The accumulated points and the group-indicator matrix as the stage finds them. -/
abbrev xarr (c : Dev nD) : Arr := V c main_v19
abbrev garr (c : Dev nD) : Ind := V c main_v22
/-- The point's block of 30000 rows, and the indicator matrix's one block. -/
abbrev xblk (c : Dev nD) (t : Fin cfg1.N) : Vec Ideal S30000x64 .f32 := iblk1 V c 0 t
abbrev gblk (c : Dev nD) (t : Fin cfg1.N) : Vec Ideal S64x8 .f32 := iblk1 V c 1 t

theorem idx1_0 : ∀ t : Fin cfg1.N, win1_0.index t 0 = t.val ∧ win1_0.index t 1 = 0 :=
  (by decide : ∀ t : Fin grid1.N, _)
theorem idx1_1 : ∀ t : Fin cfg1.N, win1_1.index t 0 = 0 ∧ win1_1.index t 1 = 0 :=
  (by decide : ∀ t : Fin grid1.N, _)

/-- Row `r` of the block at point `t` is row `30000·t + r` of the array. -/
theorem xblk_apply (c : Dev nD) (t : Fin cfg1.N) (r : Fin 30000) (ch : Fin 64) (h : 30000 * t.val + r.val < 300000) :
    xblk V c t (ix2 r ch) = xarr V c (ix2 ⟨30000 * t.val + r.val, h⟩ ch) := by
  unfold xblk iblk1
  rw [View.read_apply]
  show V c main_v19 _ = V c main_v19 _
  congr 1
  funext a
  apply Fin.ext
  match a with
  | ⟨0, _⟩ => show win1_0.index t 0 * 30000 + 1 * r.val = 30000 * t.val + r.val; rw [(idx1_0 t).1]; omega
  | ⟨1, _⟩ => show win1_0.index t 1 * 64 + 1 * ch.val = ch.val; rw [(idx1_0 t).2]; omega

/-- The indicator matrix's block is the matrix. -/
theorem gblk_apply (c : Dev nD) (t : Fin cfg1.N) (ch : Fin 64) (g : Fin 8) :
    gblk V c t (ix2 ch g) = garr V c (ix2 ch g) := by
  unfold gblk iblk1
  rw [View.read_apply]
  show V c main_v22 _ = V c main_v22 _
  congr 1
  funext a
  apply Fin.ext
  match a with
  | ⟨0, _⟩ => show win1_1.index t 0 * 64 + 1 * ch.val = ch.val; rw [(idx1_1 t).1]; omega
  | ⟨1, _⟩ => show win1_1.index t 1 * 8 + 1 * g.val = g.val; rw [(idx1_1 t).2]; omega

/-- One row of a point's block against the matrix is that row's share. -/
theorem row_term (c : Dev nD) (t : Fin cfg1.N) (r : Fin 30000) (g : Fin 8) :
    ∑ ch : Fin 64, xblk V c t (ix2 r ch) * gblk V c t (ix2 ch g) = rowTerm (xarr V c) (garr V c) g (30000 * t.val + r.val) := by
  have hN : cfg1.N = 10 := N_1
  have h : 30000 * t.val + r.val < 300000 := by have := t.isLt; have := r.isLt; omega
  unfold rowTerm
  rw [dif_pos h]
  refine Finset.sum_congr rfl fun ch _ => ?_
  rw [xblk_apply V c t r ch h, gblk_apply V c t ch g]

theorem row_term2 (c : Dev nD) (t : Fin cfg1.N) (r : Fin 30000) (g : Fin 8) :
    ∑ ch : Fin 64, (xblk V c t (ix2 r ch) * xblk V c t (ix2 r ch)) * gblk V c t (ix2 ch g)
      = rowTerm2 (xarr V c) (garr V c) g (30000 * t.val + r.val) := by
  have hN : cfg1.N = 10 := N_1
  have h : 30000 * t.val + r.val < 300000 := by have := t.isLt; have := r.isLt; omega
  unfold rowTerm2
  rw [dif_pos h]
  refine Finset.sum_congr rfl fun ch _ => ?_
  rw [xblk_apply V c t r ch h, gblk_apply V c t ch g]

/-! ## The accumulators after each point -/

theorem acc1_zero_fst (c : Dev nD) (h : 0 < cfg1.N) :
    (acc1 V c 0 h).1 = k1_pay5 (xblk V c ⟨0, h⟩) (gblk V c ⟨0, h⟩) (k1_pay1 (F := Ideal)) := rfl
theorem acc1_zero_snd (c : Dev nD) (h : 0 < cfg1.N) :
    (acc1 V c 0 h).2 = k1_pay6 (xblk V c ⟨0, h⟩) (gblk V c ⟨0, h⟩) (k1_pay2 (F := Ideal)) := rfl
theorem acc1_succ_fst (c : Dev nD) (n : ℕ) (h : n + 1 < cfg1.N) :
    (acc1 V c (n + 1) h).1 = k1_pay5 (xblk V c ⟨n + 1, h⟩) (gblk V c ⟨n + 1, h⟩) (acc1 V c n (Nat.lt_of_succ_lt h)).1 := rfl
theorem acc1_succ_snd (c : Dev nD) (n : ℕ) (h : n + 1 < cfg1.N) :
    (acc1 V c (n + 1) h).2 = k1_pay6 (xblk V c ⟨n + 1, h⟩) (gblk V c ⟨n + 1, h⟩) (acc1 V c n (Nat.lt_of_succ_lt h)).2 := rfl

/-- After point `n` the first accumulator holds, per group column, the shares of the rows of the points up to `n`. -/
theorem acc1_apply (c : Dev nD) : ∀ (n : ℕ) (h : n < cfg1.N) (g : Fin 8),
    (acc1 V c n h).1 (ix2 (0 : Fin 1) g)
      = ∑ t ∈ Finset.range (n + 1), ∑ r : Fin 30000, rowTerm (xarr V c) (garr V c) g (30000 * t + r.val)
  | 0, h, g => by
    rw [acc1_zero_fst V c h, Finset.sum_range_one]
    refine (pay5_apply (xblk V c ⟨0, h⟩) (gblk V c ⟨0, h⟩) (k1_pay1 (F := Ideal)) g).trans ?_
    rw [pay1_apply, zero_add]
    exact Finset.sum_congr rfl fun r _ => row_term V c ⟨0, h⟩ r g
  | n + 1, h, g => by
    rw [acc1_succ_fst V c n h, Finset.sum_range_succ, ← acc1_apply c n (Nat.lt_of_succ_lt h) g]
    refine (pay5_apply (xblk V c ⟨n + 1, h⟩) (gblk V c ⟨n + 1, h⟩) (acc1 V c n (Nat.lt_of_succ_lt h)).1 g).trans ?_
    exact congrArg (_ + ·) (Finset.sum_congr rfl fun r _ => row_term V c ⟨n + 1, h⟩ r g)

/-- … and the second the same of the squares. -/
theorem acc1_apply2 (c : Dev nD) : ∀ (n : ℕ) (h : n < cfg1.N) (g : Fin 8),
    (acc1 V c n h).2 (ix2 (0 : Fin 1) g)
      = ∑ t ∈ Finset.range (n + 1), ∑ r : Fin 30000, rowTerm2 (xarr V c) (garr V c) g (30000 * t + r.val)
  | 0, h, g => by
    rw [acc1_zero_snd V c h, Finset.sum_range_one]
    refine (pay6_apply (xblk V c ⟨0, h⟩) (gblk V c ⟨0, h⟩) (k1_pay2 (F := Ideal)) g).trans ?_
    rw [pay2_apply, zero_add]
    exact Finset.sum_congr rfl fun r _ => row_term2 V c ⟨0, h⟩ r g
  | n + 1, h, g => by
    rw [acc1_succ_snd V c n h, Finset.sum_range_succ, ← acc1_apply2 c n (Nat.lt_of_succ_lt h) g]
    refine (pay6_apply (xblk V c ⟨n + 1, h⟩) (gblk V c ⟨n + 1, h⟩) (acc1 V c n (Nat.lt_of_succ_lt h)).2 g).trans ?_
    exact congrArg (_ + ·) (Finset.sum_congr rfl fun r _ => row_term2 V c ⟨n + 1, h⟩ r g)

/-! ## The two output arrays -/

/-- After the last point the first accumulator is the column sums of `x · m` over all rows. -/
theorem acc1_last_fst (c : Dev nD) (h : 9 < cfg1.N) : (acc1 V c 9 h).1 = stat (V c main_v19) (V c main_v22) := by
  funext i
  obtain ⟨u, g, rfl⟩ : ∃ (u : Fin 1) (g : Fin 8), i = ix2 u g := ⟨i 0, i 1, eq_ix2 i⟩
  obtain rfl : u = 0 := Subsingleton.elim _ _
  rw [acc1_apply V c 9 h g]
  exact sum_rowTerm _ _ g

/-- … and the second those of `(x ∗ x) · m`. -/
theorem acc1_last_snd (c : Dev nD) (h : 9 < cfg1.N) : (acc1 V c 9 h).2 = stat2 (V c main_v19) (V c main_v22) := by
  funext i
  obtain ⟨u, g, rfl⟩ : ∃ (u : Fin 1) (g : Fin 8), i = ix2 u g := ⟨i 0, i 1, eq_ix2 i⟩
  obtain rfl : u = 0 := Subsingleton.elim _ _
  rw [acc1_apply2 V c 9 h g]
  exact sum_rowTerm2 _ _ g

/-- The one write-back of the first output, at the last point, writes the column sums: its block is the array. -/
theorem flushed1_2 (c : Dev nD) (t : Fin cfg1.N) (hf : (cfg1.win 2).flush t = true) :
    (dat1 V c).flushed 2 t = ((cfg1.win 2).blk t).view.read (Elt Ideal) (stat (V c main_v19) (V c main_v22)) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2, show (acc1 V c t1_9.val t1_9.isLt).1 = stat (V c main_v19) (V c main_v22) from acc1_last_fst V c _]
  have hz' : (fun a => win1_2.index t1_9 a * main_v23_0.ty.shape.size a) = fun _ => 0 :=
    funext fun a => by fin_cases a <;> decide
  exact (Memref.read_access_unit_zero (Elt Ideal) main_v23_0 hz' (fun a => by rw [congrFun hz' a]; simp)
    (stat (V c main_v19) (V c main_v22))).symm

theorem flushed1_3 (c : Dev nD) (t : Fin cfg1.N) (hf : (cfg1.win 3).flush t = true) :
    (dat1 V c).flushed 3 t = ((cfg1.win 3).blk t).view.read (Elt Ideal) (stat2 (V c main_v19) (V c main_v22)) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3, show (acc1 V c t1_9.val t1_9.isLt).2 = stat2 (V c main_v19) (V c main_v22) from acc1_last_snd V c _]
  have hz' : (fun a => win1_3.index t1_9 a * main_v23_1.ty.shape.size a) = fun _ => 0 :=
    funext fun a => by fin_cases a <;> decide
  exact (Memref.read_access_unit_zero (Elt Ideal) main_v23_1 hz' (fun a => by rw [congrFun hz' a]; simp)
    (stat2 (V c main_v19) (V c main_v22))).symm

/-- The first output array ends holding the column sums of `x · m`: the last point's block covers it. -/
theorem final1_2 (c : Dev nD) : (dat1 V c).arrAt 2 cfg1.N = stat (V c main_v19) (V c main_v22) :=
  (dat1 V c).arrAt_eq_of_cover 2 (stat (V c main_v19) (V c main_v22)) (flushed1_2 V c) fun i =>
    ⟨t1_9, (flush1_2 t1_9).mpr rfl, by
      show i ∈ ((View.whole main_v23_0).slice (win1_2.rect t1_9)).set
      rw [View.set_slice_whole, Rect.mem_set_unit]
      intro a
      have h0 : (i 0 : Nat) < 1 := (i 0).isLt
      have h1 : (i 1 : Nat) < 8 := (i 1).isLt
      match a with
      | ⟨0, _⟩ =>
        show win1_2.index t1_9 0 * win1_2.size 0 ≤ (i 0 : Nat) ∧ (i 0 : Nat) < win1_2.index t1_9 0 * win1_2.size 0 + win1_2.xsize (grid1.coords t1_9) 0
        rw [show win1_2.index t1_9 0 * win1_2.size 0 = 0 from by decide +kernel, show win1_2.xsize (grid1.coords t1_9) 0 = 1 from by decide +kernel]; omega
      | ⟨1, _⟩ =>
        show win1_2.index t1_9 1 * win1_2.size 1 ≤ (i 1 : Nat) ∧ (i 1 : Nat) < win1_2.index t1_9 1 * win1_2.size 1 + win1_2.xsize (grid1.coords t1_9) 1
        rw [show win1_2.index t1_9 1 * win1_2.size 1 = 0 from by decide +kernel, show win1_2.xsize (grid1.coords t1_9) 1 = 8 from by decide +kernel]; omega⟩

/-- The second output array ends holding the column sums of `(x ∗ x) · m`. -/
theorem final1_3 (c : Dev nD) : (dat1 V c).arrAt 3 cfg1.N = stat2 (V c main_v19) (V c main_v22) :=
  (dat1 V c).arrAt_eq_of_cover 3 (stat2 (V c main_v19) (V c main_v22)) (flushed1_3 V c) fun i =>
    ⟨t1_9, (flush1_3 t1_9).mpr rfl, by
      show i ∈ ((View.whole main_v23_1).slice (win1_3.rect t1_9)).set
      rw [View.set_slice_whole, Rect.mem_set_unit]
      intro a
      have h0 : (i 0 : Nat) < 1 := (i 0).isLt
      have h1 : (i 1 : Nat) < 8 := (i 1).isLt
      match a with
      | ⟨0, _⟩ =>
        show win1_3.index t1_9 0 * win1_3.size 0 ≤ (i 0 : Nat) ∧ (i 0 : Nat) < win1_3.index t1_9 0 * win1_3.size 0 + win1_3.xsize (grid1.coords t1_9) 0
        rw [show win1_3.index t1_9 0 * win1_3.size 0 = 0 from by decide +kernel, show win1_3.xsize (grid1.coords t1_9) 0 = 1 from by decide +kernel]; omega
      | ⟨1, _⟩ =>
        show win1_3.index t1_9 1 * win1_3.size 1 ≤ (i 1 : Nat) ∧ (i 1 : Nat) < win1_3.index t1_9 1 * win1_3.size 1 + win1_3.xsize (grid1.coords t1_9) 1
        rw [show win1_3.index t1_9 1 * win1_3.size 1 = 0 from by decide +kernel, show win1_3.xsize (grid1.coords t1_9) 1 = 8 from by decide +kernel]; omega⟩

end Cert.KernelIdeal.HandV

end
-- ==== Proof.KI.Val2.lean ====
import proofs.«127601_j2001454760193_1_alg».proof.Proof.KI.R2
import proofs.«127601_j2001454760193_1_alg».proof.Proof.SpecK
import Idealize.ShloMosaic.Lib.Pipeline.Value
import Idealize.ShloMosaic.Lib.ValueIdx
import Idealize.ShloMosaic.Lib.ValueLayout
import Idealize.ShloMosaic.PureOps.Ideal.Laws

/-! # The normalisation call's output array

The third call leaves in its output array (300000 points × 64 channels) every entry of its input times the channel's
scale plus the channel's shift, under the leaky rectifier: first the body's payload at one entry of its block; then
each point's written block as that function's block, by the printed index maps decided over the grid of 10 tiles;
then the cover of the array by the tiles. -/

noncomputable section

namespace Cert.KernelIdeal.HandV

open Cert.KernelIdeal Cert.KernelIdeal.Gen Cert.KernelIdeal.Hand Cert.Spec Idealize.ShloMosaic Idealize.ShloMosaic.ValueIdx Idealize.ShloMosaic.TcCoe Idealize.SL.Sem

/-! ## The body's payload at an entry -/

/-- The rectifier as the body spells it: a select on the comparison with zero between the value and its multiple by
    the slope. -/
theorem select_leaky (v : EReal) :
    Scalar.select (FloatOps.cmpf (F := Ideal) (φ := .f32) .oge v (Scalar.ofBits (F := Ideal) .f32 0x00000000#32)) v
      ((Scalar.ofBits (F := Ideal) .f32 0x3C23D70A#32 : Ideal .f32) * v) = leaky v := by
  show (if Ideal.cmp .oge v (Ideal.ofBits .f32 0x00000000#32) = 1 then v else Ideal.ofBits .f32 0x3C23D70A#32 * v) = if 0 ≤ v then v else slope * v
  rw [Ideal.ofBits_zero_f32]
  unfold Ideal.cmp
  by_cases h : (0 : EReal) ≤ v
  · rw [if_pos h, if_pos (by simp [h])]
  · rw [if_neg h, if_neg (by simp [h])]; rfl

/-- The multiply-add under the rectifier, at row `r`, channel `ch`. -/
theorem lin2_apply (x0 : Vec Ideal S30000x64 .f32) (x1 x2 : Vec Ideal S1x64 .f32) (r : Fin 30000) (ch : Fin 64) :
    addf (F := Ideal) (φ := .f32) (mulf (F := Ideal) (φ := .f32) (shapeCast S30000x64 x0 shapeCasts_S30000x64_S30000x64 : FVec Ideal S30000x64 .f32)
        (broadcastTo S30000x64 (shapeCast S1x64 x1 shapeCasts_S1x64_S1x64 : FVec Ideal S1x64 .f32) broadcasts_S1x64_S30000x64))
      (broadcastTo S30000x64 (shapeCast S1x64 x2 shapeCasts_S1x64_S1x64 : FVec Ideal S1x64 .f32) broadcasts_S1x64_S30000x64) (ix2 r ch)
      = x0 (ix2 r ch) * x1 (ix2 0 ch) + x2 (ix2 0 ch) := by
  rw [addf_apply, mulf_apply, shapeCast_self, shapeCast_self, shapeCast_self, broadcastTo_1b_ab_apply, broadcastTo_1b_ab_apply]

/-- The body's payload at row `r`, channel `ch` of its block: the entry times the channel's scale plus its shift,
    under the leaky rectifier. -/
theorem normPay_apply (x0 : Vec Ideal S30000x64 .f32) (x1 x2 : Vec Ideal S1x64 .f32) (r : Fin 30000) (ch : Fin 64) :
    k2_pay1 (F := Ideal) x0 x1 x2 (ix2 r ch) = leaky (x0 (ix2 r ch) * x1 (ix2 0 ch) + x2 (ix2 0 ch)) := by
  unfold k2_pay1
  refine (select_apply _ _ _ _).trans ?_
  rw [cmpf_apply, broadcast_apply, mulf_apply, broadcast_apply, lin2_apply]
  exact select_leaky _

/-! ## From the blocks to the array -/

/-- The payload at a block entry read off whole arrays: the entry `X` at point `n`, the scale and shift rows. -/
theorem pay2_at (x0 : Vec Ideal S30000x64 .f32) (x1 x2 : Vec Ideal S1x64 .f32) (X : Arr) (sc sh : Row)
    (n : Fin 300000) (r : Fin 30000) (ch : Fin 64)
    (h0 : x0 (ix2 r ch) = X (ix2 n ch)) (h1 : x1 (ix2 0 ch) = sc (ix2 0 ch)) (h2 : x2 (ix2 0 ch) = sh (ix2 0 ch)) :
    k2_pay1 (F := Ideal) x0 x1 x2 (ix2 r ch) = normAt X sc sh n ch := by
  rw [normPay_apply, h0, h1, h2]
  rfl

variable (V : (c : Dev nD) → (b : Ref sig .tc) → Buf (Elt Ideal) ((c : Thread nD τ).loc b))

theorem zero_off2 : (![0, 0] : Fin 2 → Nat) = fun _ => 0 := funext fun a => by fin_cases a <;> rfl

/-- The printed index maps, decided over the grid: the input tile moves with the output tile; the scale and shift
    rows are the one block of their arrays at every point. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 9 ∧ win2_3.index t (1 : Fin 2) = 0 :=
  (by decide +kernel : ∀ t : Fin grid2.N, _)

/-- Every tile is some point's output block. -/
theorem idx_onto2 : ∀ q0 : Fin 10, ∃ t : Fin cfg2.N, win2_3.index t = ![q0.val, 0] :=
  (by decide +kernel : ∀ q0 : Fin 10, ∃ t : Fin grid2.N, win2_3.index t = ![q0.val, 0])

set_option maxHeartbeats 400000 in
/-- What point `t` writes back is its block of the normalisation of the three arrays the call reads. -/
theorem flushed2_eq (c : Dev nD) (t : Fin cfg2.N) :
    (dat2 (F := Ideal) V c).flushed 3 t = ((cfg2.win 3).blk t).view.read (Elt Ideal) (norm (V c main_v19) (V c main_v40) (V c main_v44)) := by
  show (cfg2.win 3).cut (grid2.coords t) ((dat2 V c).after 3 t) = _
  rw [after2_3]
  unfold out2_3
  rw [View.canon_unit_zero zero_off2]
  simp only [View.ld_unit_zero (S := S30000x64) zero_off2, View.ld_unit_zero (S := S1x64) zero_off2]
  funext j
  obtain ⟨r, ch, rfl⟩ : ∃ (r : Fin 30000) (ch : Fin 64), j = ix2 r ch := ⟨j 0, j 1, eq_ix2 j⟩
  obtain ⟨e0, e1, e2, e3, e4, e5, b0, e6⟩ := idx_facts2 t
  have hr : r.val < 30000 := r.isLt
  show k2_pay1 (iblk2 V c 0 t) (iblk2 V c 1 t) (iblk2 V c 2 t) (ix2 r ch) = norm (V c main_v19) (V c main_v40) (V c main_v44) (((cfg2.win 3).blk t).view.emb (ix2 r ch))
  refine (pay2_at _ _ _ (V c main_v19) (V c main_v40) (V c main_v44) ⟨win2_3.index t (0 : Fin 2) * 30000 + r.val, by omega⟩ r ch ?_ ?_ ?_).trans ?_
  · show V c main_v19 (((cfg2.win 0).blk t).view.emb (ix2 r ch)) = _
    congr 1
    funext a; apply Fin.ext
    match a with
    | ⟨0, _⟩ => show win2_0.index t (0 : Fin 2) * 30000 + 1 * r.val = win2_3.index t (0 : Fin 2) * 30000 + r.val; omega
    | ⟨1, _⟩ => show win2_0.index t (1 : Fin 2) * 64 + 1 * ch.val = ch.val; omega
  · show V c main_v40 (((cfg2.win 1).blk t).view.emb (ix2 0 ch)) = _
    congr 1
    funext a; apply Fin.ext
    match a with
    | ⟨0, _⟩ => show win2_1.index t (0 : Fin 2) * 1 + 1 * 0 = 0; omega
    | ⟨1, _⟩ => show win2_1.index t (1 : Fin 2) * 64 + 1 * ch.val = ch.val; omega
  · show V c main_v44 (((cfg2.win 2).blk t).view.emb (ix2 0 ch)) = _
    congr 1
    funext a; apply Fin.ext
    match a with
    | ⟨0, _⟩ => show win2_2.index t (0 : Fin 2) * 1 + 1 * 0 = 0; omega
    | ⟨1, _⟩ => show win2_2.index t (1 : Fin 2) * 64 + 1 * ch.val = ch.val; omega
  · show normAt _ _ _ _ _ = normAt _ _ _ _ _
    congr 1 <;> apply Fin.ext
    · show win2_3.index t (0 : Fin 2) * 30000 + r.val = win2_3.index t (0 : Fin 2) * 30000 + 1 * r.val; omega
    · show ch.val = win2_3.index t (1 : Fin 2) * 64 + 1 * ch.val; omega

/-- An index of the output array is in point `t`'s block iff each coordinate is in the block's range on its axis. -/
theorem mem_blk2 (t : Fin cfg2.N) (i : S300000x64.Idx) :
    i ∈ ((cfg2.win 3).blk t).view.set ↔ ∀ a : Fin 2, win2_3.index t a * S30000x64.size a ≤ (i a).val ∧ (i a).val < win2_3.index t a * S30000x64.size a + S30000x64.size a := by
  show i ∈ ((View.whole main_v45).slice (win2_3.rect t)).set ↔ _
  rw [View.set_slice_whole, Rect.mem_set_unit]
  exact Iff.rfl

/-- The output tiles fill the array: point `n` lies in tile `n / 30000`. -/
theorem cover2 (i : S300000x64.Idx) : ∃ t : Fin cfg2.N, (cfg2.win 3).flush t = true ∧ i ∈ ((cfg2.win 3).blk t).view.set := by
  have hi0 : (i 0).val < 300000 := (i 0).isLt
  have hi1 : (i 1).val < 64 := (i 1).isLt
  obtain ⟨t, ht⟩ := idx_onto2 ⟨(i 0).val / 30000, by omega⟩
  have q0 : win2_3.index t (0 : Fin 2) = (i 0).val / 30000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 30000 ≤ (i 0).val ∧ (i 0).val < win2_3.index t (0 : Fin 2) * 30000 + 30000; omega
  | ⟨1, _⟩ => show win2_3.index t (1 : Fin 2) * 64 ≤ (i 1).val ∧ (i 1).val < win2_3.index t (1 : Fin 2) * 64 + 64; omega

/-- The output array after the call: every entry times its channel's scale plus its shift, under the leaky
    rectifier, whole. -/
theorem final2 (c : Dev nD) : (dat2 (F := Ideal) V c).arrAt 3 cfg2.N = norm (V c main_v19) (V c main_v40) (V c main_v44) :=
  (dat2 V c).arrAt_eq_of_cover 3 (norm (V c main_v19) (V c main_v40) (V c main_v44)) (fun t _ => flushed2_eq V c t) cover2

end Cert.KernelIdeal.HandV

end
-- ==== Proof.KI.HostA.lean ====
import proofs.«127601_j2001454760193_1_alg».proof.Proof.Gen.KernelIdeal.Launch
import Idealize.ShloMosaic.Lib.StableHlo.Run

/-! # The host operations around the convolution call, as composed terms

Before the first call the program rounds the features and the weights to bf16, brings the neighbour indices
into range (a negative index counts from the end: 300000 is added to it) and gathers one feature row per
(offset, pair). Between the first and the second call it flattens the per-pair products and the output
indices, brings the indices into range the same way and adds every product row into the row of a zero array its
index names; and it builds the 64 × 8 indicator matrix of the channel groups: entry (c, g) is one when the
floor quotient of c by 8 equals g, zero otherwise.

Each stretch's result is stated as one term of the arrays it reads, and the fold of the stretch's operations
is shown to hold that term at the result's buffer. -/

noncomputable section

namespace Cert.KernelIdeal.Hand

open Cert.KernelIdeal Cert.KernelIdeal.Gen
open Idealize.ShloMosaic Idealize.ShloMosaic.TcCoe Idealize.SL.Sem

variable {F : FTy → Type} [FloatOps F]

/-! ## The terms -/

/-- An index array brought into range: a negative entry has 300000 added. -/
def normIdx {s : Shape} (h : S_.BroadcastsInDim s (![] : Fin 0 → Fin s.rank)) (a : IVec s 32) : IVec s 32 :=
  select (cmpi .slt a (broadcastInDim s ![] h (constantI S_ 32 0#32)))
    (addi a (broadcastInDim s ![] h (constantI S_ 32 300000#32))) a

/-- The gathered features: the features rounded to bf16, one row per (offset, pair) at the pair's
    input index. -/
def gK (a0 : FVec F S300000x32 .f32) (a4 : IVec S27x100000 32) : FVec F S27x100000x32 .bf16 :=
  Host.gather gather_S300000x32_S27x100000x1_S27x100000x32_2_0_n_n_0_2_132
    (truncf .bf16 a0 bitsLt_bf16_f32)
    (broadcastInDim S27x100000x1 ![0, 1] bcast_S27x100000_S27x100000x1_0_1 (normIdx bcast_S_S27x100000 a4))

/-- The weights rounded to bf16. -/
def wK (a1 : FVec F S27x32x64 .f32) : FVec F S27x32x64 .bf16 := truncf .bf16 a1 bitsLt_bf16_f32

/-- The accumulated output: every (offset, pair) product row added into the row of a zero array that the
    pair's output index names. -/
def outK (y : FVec F S27x100000x64 .f32) (a5 : IVec S27x100000 32) : FVec F S300000x64 .f32 :=
  Host.scatterAdd scatter_S300000x64_S2700000x1_S2700000x64_1_0_0_1
    (broadcastInDim S300000x64 ![] bcast_S_S300000x64 (constant S_ .f32 0x00000000#32))
    (broadcastInDim S2700000x1 ![0] bcast_S2700000_S2700000x1_0
      (normIdx bcast_S_S2700000 (shapeCast S2700000 a5 shapeCasts_S27x100000_S2700000)))
    (shapeCast S2700000x64 y shapeCasts_S27x100000x64_S2700000x64)

/-- The floor quotient of `x` by the scalar `c` at every entry: the truncated quotient, less one where the signs
    of dividend and divisor differ and the remainder is not zero. -/
def floorDivOf (x : IVec S64 32) (c : IVec S_ 32) : IVec S64 32 :=
  select
    (andi
      (cmpi .ne (signi x) (broadcastInDim S64 ![] bcast_S_S64 (signi c)))
      (cmpi .ne (Host.remsi x (broadcastInDim S64 ![] bcast_S_S64 c))
        (broadcastInDim S64 ![] bcast_S_S64 (constantI S_ 32 0#32))))
    (subi (Host.divsi x (broadcastInDim S64 ![] bcast_S_S64 c))
      (broadcastInDim S64 ![] bcast_S_S64 (constantI S_ 32 1#32)))
    (Host.divsi x (broadcastInDim S64 ![] bcast_S_S64 c))

/-- The indicator matrix of a class vector: entry (c, g) is one where `v c = g`, zero elsewhere. -/
def oneHotOf (v : IVec S64 32) : FVec F S64x8 .f32 :=
  uitofp .f32
    (cmpi .eq
      (broadcastInDim S64x8 ![0, 1] bcast_S64x1_S64x8_0_1 (broadcastInDim S64x1 ![0] bcast_S64_S64x1_0 v))
      (broadcastInDim S64x8 ![0, 1] bcast_S1x8_S64x8_0_1 (iotaInDim S1x8 32 1)))

/-- The channel numbers 0 … 63. -/
def chanIota : IVec S64 32 := iotaInDim S64 32 0

/-- The floor quotient of the channel number by 8. -/
def floorDiv64 : IVec S64 32 := floorDivOf chanIota (constantI S_ 32 8#32)

/-- The indicator matrix of the channel groups: one where the channel's floor quotient by 8 is the column,
    zero elsewhere. -/
def gmatK : FVec F S64x8 .f32 := oneHotOf floorDiv64

/-! ## The folds -/

/-- After the first stretch the gathered-features buffer holds the gather of the rounded features. -/
theorem after0_v8 (W : Valuation τ sig (Elt F)) :
    StableHlo.after hostOps0 W (Proc.devRef .tc main_v8)
      = gK (W (Proc.devRef .tc main_arg0)) (W (Proc.devRef .tc main_arg4)) := by
  after_results; rfl

/-- After the first stretch the weights' buffer holds the rounded weights. -/
theorem after0_v1 (W : Valuation τ sig (Elt F)) :
    StableHlo.after hostOps0 W (Proc.devRef .tc main_v1) = wK (W (Proc.devRef .tc main_arg1)) := by
  after_results; rfl

/-- After the second stretch the accumulated-output buffer holds the scatter-add of the products. -/
theorem after1_v19 (W : Valuation τ sig (Elt F)) :
    StableHlo.after hostOps1 W (Proc.devRef .tc main_v19)
      = outK (W (Proc.devRef .tc main_v9)) (W (Proc.devRef .tc main_arg5)) := by
  after_results; rfl

/-- After the second stretch the channel numbers and the divisor are in place. -/
theorem after1_v20 (W : Valuation τ sig (Elt F)) :
    StableHlo.after hostOps1 W (Proc.devRef .tc main_v20) = (chanIota : IVec S64 32) := by
  after_results; rfl

theorem after1_c3 (W : Valuation τ sig (Elt F)) :
    StableHlo.after hostOps1 W (Proc.devRef .tc main_c_3) = (constantI S_ 32 8#32 : IVec S_ 32) := by
  after_results

/-- The floor-quotient stretch, from any contents: its result is the floor quotient of what the dividend's and
    the divisor's buffers held. -/
theorem after11_v21 (V : Valuation τ sig (Elt F)) :
    StableHlo.after hostOps1_1 V (Proc.devRef .tc main_v21)
      = floorDivOf (V (Proc.devRef .tc main_v20)) (V (Proc.devRef .tc main_c_3)) := by
  after_results_simp; rfl

/-- The indicator stretch, from any contents: its result is the indicator matrix of what the class vector's
    buffer held. -/
theorem after12_v22 (V : Valuation τ sig (Elt F)) :
    StableHlo.after hostOps1_2 V (Proc.devRef .tc main_v22) = oneHotOf (F := F) (V (Proc.devRef .tc main_v21)) := by
  after_results; rfl

/-- After the three stretches between the first and the second call the indicator buffer holds the groups'
    indicator matrix. -/
theorem after1_v22 (W : Valuation τ sig (Elt F)) :
    StableHlo.after hostOps1_2 (StableHlo.after hostOps1_1 (StableHlo.after hostOps1 W)) (Proc.devRef .tc main_v22)
      = gmatK := by
  rw [after12_v22, after11_v21, after1_v20, after1_c3]; rfl

end Cert.KernelIdeal.Hand

end
-- ==== Proof.KI.HostAV.lean ====
import proofs.«127601_j2001454760193_1_alg».proof.Proof.KI.HostA
import proofs.«127601_j2001454760193_1_alg».proof.Proof.Spec
import Idealize.ShloMosaic.Lib.ValueIdx
import Idealize.ShloMosaic.Lib.StableHlo.Predicate
import Idealize.ShloMosaic.PureOps.Ideal.Laws

/-! # The groups' indicator matrix read at an entry

The indicator matrix is built from integer words: the channel numbers 0 … 63, their floor quotient by 8 (a
truncated signed quotient with a correction that never fires on non-negative dividends), a comparison with the
column numbers 0 … 7, and the conversion of the one-bit result to a float. Over the extended reals the entry at
(channel, group) is one when the channel lies in the group and zero otherwise. The integer part is a closed
computation on 64 words, checked case by case. -/

noncomputable section

namespace Cert.KernelIdeal.Hand

open Cert.KernelIdeal Cert.KernelIdeal.Gen
open Idealize.ShloMosaic Idealize.ShloMosaic.TcCoe Idealize.SL.Sem
open Idealize.ShloMosaic.ValueIdx

/-- The floor quotient of one 32-bit word by 8, as the program computes it. -/
def fd8 (x : BitVec 32) : BitVec 32 :=
  Scalar.select
    (IntOp.andi
      (IntOp.cmpi .ne (if x = 0 then (0 : BitVec 32) else if x.msb then -1 else 1)
        (if (8#32) = 0 then (0 : BitVec 32) else if (8#32).msb then -1 else 1))
      (IntOp.cmpi .ne (IntOp.remsi .host x 8#32) 0#32))
    (IntOp.subi (IntOp.divsi .host x 8#32) 1#32)
    (IntOp.divsi .host x 8#32)

/-- Read at a channel, the floor-quotient vector is the scalar computation on the channel's number. -/
theorem floorDiv64_apply (i : S64.Idx) : floorDiv64 i = fd8 (BitVec.ofNat 32 (i 0).val) := rfl

/-- On the channel numbers the computed floor quotient is the quotient of naturals. -/
theorem fd8_ofNat : ∀ c : Fin 64, fd8 (BitVec.ofNat 32 c.val) = BitVec.ofNat 32 (c.val / 8) := by decide

theorem cmp_grp : ∀ (c : Fin 64) (g : Fin 8),
    IntOp.cmpi .eq (BitVec.ofNat 32 (c.val / 8)) (BitVec.ofNat 32 g.val) = if Cert.Spec.grp c = g then 1#1 else 0#1 := by
  decide

/-- The groups' indicator matrix at (channel, group): one when the channel lies in the group. -/
theorem gmatK_apply (ch : Fin 64) (g : Fin 8) :
    gmatK (F := Ideal) (ix2 ch g) = if Cert.Spec.grp ch = g then (1 : EReal) else 0 := by
  have e : gmatK (F := Ideal) (ix2 ch g)
      = FloatOps.uitofp (F := Ideal) .f32 (IntOp.cmpi .eq (floorDiv64 (Shape.Idx.ofFin ch)) (BitVec.ofNat 32 g.val)) := by
    unfold gmatK oneHotOf
    show FloatOps.uitofp (F := Ideal) .f32 (IntOp.cmpi .eq _ _) = _
    rw [show (ix2 ch g : S64x8.Idx) = StableHlo.Predicate.ij ch g from rfl,
      StableHlo.Predicate.bcast_rows, StableHlo.Predicate.bcast_of_row]
    rfl
  rw [e, floorDiv64_apply, Shape.Idx.ofFin_zero, fd8_ofNat, cmp_grp]
  split
  · show (((1#1 : BitVec 1).toNat : ℝ) : EReal) = 1
    simp
  · show (((0#1 : BitVec 1).toNat : ℝ) : EReal) = 0
    simp

end Cert.KernelIdeal.Hand

end
-- ==== Proof.KI.HostB.lean ====
import proofs.«127601_j2001454760193_1_alg».proof.Proof.Gen.KernelIdeal.Launch
import Idealize.ShloMosaic.Lib.StableHlo.Run

/-! # The host operations between the statistics call and the normalisation call

From the two 1 × 8 rows of per-group sums (the sum and the sum of squares of each group's entries) and the
per-channel vectors γ and β the host computes, per group, the mean `s1 / 2.4e6`, the variance
`s2 / 2.4e6 − mean · mean` and `r = (variance + ε)^(−1/2)`; each per-group value is then repeated over the
group's 8 channels (8 → 8 × 8 → 64), and the two rows the normalisation call reads are
`scale = γ · r` and `shift = β − (mean · γ) · r`, each as a 1 × 64 array.

Here: those operations composed as terms of the four arrays, and that the fold of the 24 operations leaves
exactly these terms in the two buffers the normalisation call reads. -/

noncomputable section

namespace Cert.KernelIdeal.Hand

open Cert.KernelIdeal Cert.KernelIdeal.Gen
open Idealize.ShloMosaic Idealize.ShloMosaic.TcCoe Idealize.SL.Sem

variable {F : FTy → Type} [FloatOps F]

/-! ## The terms -/

/-- The number of entries of a group, 2.4e6, at each of the 8 groups. -/
def cnt8 : FVec F S8 .f32 := broadcastInDim S8 ![] bcast_S_S8 (constant (F := F) S_ .f32 0x4A127C00#32)

/-- The regulariser ε at each of the 8 groups. -/
def eps8 : FVec F S8 .f32 := broadcastInDim S8 ![] bcast_S_S8 (constant (F := F) S_ .f32 0x3727C5AC#32)

/-- A 1 × 8 row of per-group sums over 2.4e6, as a vector of 8. -/
def mean8 (s : FVec F S1x8 .f32) : FVec F S8 .f32 :=
  Host.divf (shapeCast S8 s shapeCasts_S1x8_S8) (cnt8 (F := F))

/-- Per group, the mean of the squares less the square of the mean. -/
def var8 (s1 s2 : FVec F S1x8 .f32) : FVec F S8 .f32 :=
  subf (mean8 s2) (mulf (mean8 s1) (mean8 s1))

/-- Per group, (variance + ε)^(−1/2). -/
def rinv8 (s1 s2 : FVec F S1x8 .f32) : FVec F S8 .f32 :=
  Host.rsqrt (addf (var8 s1 s2) (eps8 (F := F)))

/-- A per-group value at each of its group's 8 channels: 8 → 8 × 8 along the first axis, then the 64 in one row. -/
def rep8 (v : FVec F S8 .f32) : FVec F S64 .f32 :=
  shapeCast S64 (broadcastInDim S8x8 ![0] bcast_S8_S8x8_0 v) shapeCasts_S8x8_S64

/-- The per-channel scale γ · r, as a 1 × 64 row. -/
def scaleK (s1 s2 : FVec F S1x8 .f32) (a2 : FVec F S64 .f32) : FVec F S1x64 .f32 :=
  shapeCast S1x64 (mulf a2 (rep8 (rinv8 s1 s2))) shapeCasts_S64_S1x64

/-- The per-channel shift β − (mean · γ) · r, as a 1 × 64 row. -/
def shiftK (s1 s2 : FVec F S1x8 .f32) (a2 a3 : FVec F S64 .f32) : FVec F S1x64 .f32 :=
  shapeCast S1x64 (subf a3 (mulf (mulf (rep8 (mean8 s1)) a2) (rep8 (rinv8 s1 s2)))) shapeCasts_S64_S1x64

/-! ## What the fold holds -/

/-- After the 24 operations the scale buffer holds `scaleK` of the two sums and γ as they were before. -/
theorem after2_v40 (W : Valuation τ sig (Elt F)) :
    StableHlo.after hostOps2 W (Proc.devRef .tc main_v40)
      = scaleK (W (Proc.devRef .tc main_v23_0)) (W (Proc.devRef .tc main_v23_1)) (W (Proc.devRef .tc main_arg2)) := by
  after_results_simp
  rfl

/-- After the 24 operations the shift buffer holds `shiftK` of the two sums, γ and β as they were before. -/
theorem after2_v44 (W : Valuation τ sig (Elt F)) :
    StableHlo.after hostOps2 W (Proc.devRef .tc main_v44)
      = shiftK (W (Proc.devRef .tc main_v23_0)) (W (Proc.devRef .tc main_v23_1)) (W (Proc.devRef .tc main_arg2))
          (W (Proc.devRef .tc main_arg3)) := by
  after_results_simp
  rfl

end Cert.KernelIdeal.Hand

end
-- ==== Proof.KI.HostBV.lean ====
import proofs.«127601_j2001454760193_1_alg».proof.Proof.KI.HostB
import proofs.«127601_j2001454760193_1_alg».proof.Proof.SpecK
import Idealize.ShloMosaic.Lib.ValueIdx
import Idealize.ShloMosaic.Lib.ValueLayout
import Idealize.ShloMosaic.Lib.Pipeline.Value

/-! # The scale and shift rows read at a channel, over the extended reals

At channel `ch`, in group `ch / 8`, with `m = s1[g] / cnt` the group's mean, `v = s2[g] / cnt − m · m` its variance
and `r = (v + ε)^(−1/2)`:

* the scale row holds `γ[ch] · r`;
* the shift row holds `β[ch] − (m · γ[ch]) · r`.

The two float words are left as the words the program prints (`cnt`, `eps` of the specification). -/

noncomputable section

namespace Cert.KernelIdeal.Hand

open Cert.KernelIdeal Cert.KernelIdeal.Gen
open Idealize.ShloMosaic Idealize.ShloMosaic.TcCoe Idealize.SL.Sem
open Idealize.ShloMosaic.ValueIdx
open Cert.Spec

/-! ## The per-group vectors -/

/-- The count vector holds the count word at every group. -/
theorem cnt8_apply (j : S8.Idx) : cnt8 (F := Ideal) j = cnt := rfl

/-- The regulariser vector holds the regulariser word at every group. -/
theorem eps8_apply (j : S8.Idx) : eps8 (F := Ideal) j = eps := rfl

/-- The mean vector at group `g`: the row's entry at `g` over the count. -/
theorem mean8_apply (s : Stat) (g : Fin 8) : mean8 (F := Ideal) s (ix1 g) = Ideal.div (s (ix2 0 g)) cnt := by
  show Ideal.div (shapeCast S8 s shapeCasts_S1x8_S8 (ix1 g)) (cnt8 (F := Ideal) (ix1 g)) = _
  rw [shapeCast_1a_a_apply, cnt8_apply]

/-- The variance vector at group `g`. -/
theorem var8_apply (s1 s2 : Stat) (g : Fin 8) :
    var8 (F := Ideal) s1 s2 (ix1 g)
      = Ideal.div (s2 (ix2 0 g)) cnt - Ideal.div (s1 (ix2 0 g)) cnt * Ideal.div (s1 (ix2 0 g)) cnt := by
  show mean8 (F := Ideal) s2 (ix1 g) - mean8 (F := Ideal) s1 (ix1 g) * mean8 (F := Ideal) s1 (ix1 g) = _
  rw [mean8_apply, mean8_apply]

/-- The reciprocal standard deviation at group `g`. -/
theorem rinv8_apply (s1 s2 : Stat) (g : Fin 8) :
    rinv8 (F := Ideal) s1 s2 (ix1 g)
      = Ideal.rsqrt ((Ideal.div (s2 (ix2 0 g)) cnt - Ideal.div (s1 (ix2 0 g)) cnt * Ideal.div (s1 (ix2 0 g)) cnt) + eps) := by
  show Ideal.rsqrt (var8 (F := Ideal) s1 s2 (ix1 g) + eps8 (F := Ideal) (ix1 g)) = _
  rw [var8_apply, eps8_apply]

/-! ## A per-group vector repeated over the channels -/

/-- The repeated vector at channel `ch` is the vector at the channel's group: position `ch` of the 64 is row
    `ch / 8`, column `ch % 8` of the 8 × 8, whose entry is the vector's at the row. -/
theorem rep8_apply (v : FVec Ideal S8 .f32) (ch : Fin 64) : rep8 (F := Ideal) v (ix1 ch) = v (ix1 (grp ch)) := by
  unfold rep8
  refine (shapeCast_apply _ shapeCasts_S8x8_S64 (ix1 ch) (ix2 (grp ch) (⟨ch.val % 8, Nat.mod_lt _ (by decide)⟩ : Fin 8)) ?_).trans ?_
  · rw [Shape.rowMajor_val_two, Shape.rowMajor_val_one]
    show ch.val / 8 * 8 + ch.val % 8 = ch.val
    omega
  · exact broadcastInDim_apply _ bcast_S8_S8x8_0 v _ (ix1 (grp ch)) fun a => match a with | ⟨0, _⟩ => rfl

/-! ## The two rows -/

/-- The scale row at channel `ch`. -/
theorem scaleK_apply (s1 s2 : Stat) (γ : Chan) (ch : Fin 64) :
    scaleK (F := Ideal) s1 s2 γ (ix2 0 ch)
      = γ (ix1 ch) * Ideal.rsqrt ((Ideal.div (s2 (ix2 0 (grp ch))) cnt
          - Ideal.div (s1 (ix2 0 (grp ch))) cnt * Ideal.div (s1 (ix2 0 (grp ch))) cnt) + eps) := by
  unfold scaleK
  rw [shapeCast_a_1a_apply]
  show γ (ix1 ch) * rep8 (F := Ideal) (rinv8 (F := Ideal) s1 s2) (ix1 ch) = _
  rw [rep8_apply, rinv8_apply]

/-- The shift row at channel `ch`. -/
theorem shiftK_apply (s1 s2 : Stat) (γ β : Chan) (ch : Fin 64) :
    shiftK (F := Ideal) s1 s2 γ β (ix2 0 ch)
      = β (ix1 ch) - (Ideal.div (s1 (ix2 0 (grp ch))) cnt * γ (ix1 ch)) * Ideal.rsqrt ((Ideal.div (s2 (ix2 0 (grp ch))) cnt
          - Ideal.div (s1 (ix2 0 (grp ch))) cnt * Ideal.div (s1 (ix2 0 (grp ch))) cnt) + eps) := by
  unfold shiftK
  rw [shapeCast_a_1a_apply]
  show β (ix1 ch) - (rep8 (F := Ideal) (mean8 (F := Ideal) s1) (ix1 ch) * γ (ix1 ch))
      * rep8 (F := Ideal) (rinv8 (F := Ideal) s1 s2) (ix1 ch) = _
  rw [rep8_apply, rep8_apply, rinv8_apply, mean8_apply]

end Cert.KernelIdeal.Hand

end
-- ==== Proof.Bridge.lean ====
/-
  The algebra that joins the two forms of the group normalisation, over the extended reals.

  * the float words the programs spell denote reals: the count is 2 400 000, the regulariser a positive real,
    the rectifier's slope a real;
  * real extended reals are closed under sums and products;
  * a sum against a group's indicator over the 64 channels is the sum over the group's 8 channels;
  * with every entry real, E[(x − μ)²] = E[x²] − μ², so both programs take the reciprocal square root of the same
    positive real r, and x·(γ·r) + (β − μ·γ·r) = ((x − μ)·r)·γ + β.
-/
import proofs.«127601_j2001454760193_1_alg».proof.Proof.Spec
import Idealize.ShloMosaic.PureOps.Ideal
import Idealize.ShloMosaic.Lib.ValueIdx
import Mathlib.Data.EReal.Basic
import Mathlib.Data.EReal.Operations
import Mathlib.Algebra.BigOperators.Group.Finset.Basic
import Mathlib.Algebra.BigOperators.Ring.Finset
import Mathlib.Algebra.Order.BigOperators.Group.Finset
import Mathlib.Tactic.Ring
import Mathlib.Tactic.NormNum

noncomputable section

namespace Cert.Spec

open Idealize.ShloMosaic Idealize.ShloMosaic.ValueIdx

/-! ## The float words -/

/-- The count word denotes 2 400 000 = (2²³ + 1211392) · 2⁻². -/
theorem cnt_eq : cnt = ((2400000 : ℝ) : EReal) := by
  simp [cnt, Ideal.ofBits, Ideal.ieee, -EReal.coe_mul]; norm_num

/-- The regulariser's word has a biased exponent of 110: a normal, positive real. -/
theorem eps_pos : ∃ e : ℝ, 0 < e ∧ eps = (e : EReal) := by
  simp [eps, Ideal.ofBits, Ideal.ieee, -EReal.coe_mul]

/-- The slope's word has a biased exponent of 120: a normal real. -/
theorem slope_real : ∃ s : ℝ, slope = (s : EReal) := by
  simp [slope, Ideal.ofBits, Ideal.ieee, -EReal.coe_mul]

/-! ## Real extended reals -/

theorem fin_coe (r : ℝ) : Fin' (r : EReal) := ⟨EReal.coe_ne_top r, EReal.coe_ne_bot r⟩

theorem fin_iff {v : EReal} : Fin' v ↔ ∃ r : ℝ, v = (r : EReal) := by
  constructor
  · rintro ⟨h1, h2⟩
    lift v to ℝ using ⟨h1, h2⟩
    exact ⟨v, rfl⟩
  · rintro ⟨r, rfl⟩
    exact fin_coe r

theorem fin_mul {a b : EReal} (ha : Fin' a) (hb : Fin' b) : Fin' (a * b) := by
  obtain ⟨r, rfl⟩ := fin_iff.1 ha
  obtain ⟨s, rfl⟩ := fin_iff.1 hb
  rw [← EReal.coe_mul]; exact fin_coe _

theorem fin_add {a b : EReal} (ha : Fin' a) (hb : Fin' b) : Fin' (a + b) := by
  obtain ⟨r, rfl⟩ := fin_iff.1 ha
  obtain ⟨s, rfl⟩ := fin_iff.1 hb
  rw [← EReal.coe_add]; exact fin_coe _

theorem fin_zero : Fin' (0 : EReal) := by
  rw [← EReal.coe_zero]; exact fin_coe 0

theorem fin_sum {ι : Type} (s : Finset ι) (f : ι → EReal) (h : ∀ i ∈ s, Fin' (f i)) : Fin' (∑ i ∈ s, f i) := by
  classical
  induction s using Finset.induction_on with
  | empty => rw [Finset.sum_empty]; exact fin_zero
  | insert a s ha ih =>
    rw [Finset.sum_insert ha]
    exact fin_add (h a (Finset.mem_insert_self a s)) (ih fun i hi => h i (Finset.mem_insert_of_mem hi))

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-! ## The group indicator -/

/-- Against the indicator of group `g`, a sum over the 64 channels keeps the 8 channels `8g + j`. -/
theorem ind_sum (f : Fin 64 → EReal) (g : Fin 8) :
    (∑ ch : Fin 64, f ch * (if grp ch = g then (1 : EReal) else 0)) = ∑ j : Fin 8, f (gch g j) := by
  have h1 : ∀ ch : Fin 64, f ch * (if grp ch = g then (1 : EReal) else 0) = if grp ch = g then f ch else 0 := by
    intro ch; split_ifs
    · rw [mul_one]
    · rw [mul_zero]
  simp only [h1]
  rw [← Finset.sum_filter]
  symm
  apply Finset.sum_bij (fun j _ => gch g j)
  · intro j _
    simp only [Finset.mem_filter, Finset.mem_univ, true_and]
    exact grp_gch g j
  · intro a _ b _ h
    apply Fin.ext
    have := congrArg Fin.val h
    simp only [gch] at this
    omega
  · intro ch hch
    simp only [Finset.mem_filter, Finset.mem_univ, true_and] at hch
    refine ⟨⟨ch.val % 8, Nat.mod_lt _ (by norm_num)⟩, Finset.mem_univ _, ?_⟩
    apply Fin.ext
    have := congrArg Fin.val hch
    simp only [grp] at this
    simp only [gch]
    omega
  · intro j _; rfl

/-! ## The statistics of a real array -/

/-- A 300000 × 64 array of reals. -/
abbrev RArr : Type := (⟨2, ![300000, 64]⟩ : Shape).Idx → ℝ
/-- A vector of 64 reals. -/
abbrev RChan : Type := (⟨1, ![64]⟩ : Shape).Idx → ℝ

/-- A real array as an array of extended reals. -/
def up (X : RArr) : Arr := fun i => (X i : EReal)

def s1 (X : RArr) (g : Fin 8) : ℝ := ∑ n : Fin 300000, ∑ j : Fin 8, X (ix2 n (gch g j))
def s2 (X : RArr) (g : Fin 8) : ℝ := ∑ n : Fin 300000, ∑ j : Fin 8, X (ix2 n (gch g j)) * X (ix2 n (gch g j))
def mu (X : RArr) (g : Fin 8) : ℝ := s1 X g * (1 / 2400000)
def ss (X : RArr) (g : Fin 8) : ℝ :=
  ∑ n : Fin 300000, ∑ j : Fin 8, (X (ix2 n (gch g j)) - mu X g) * (X (ix2 n (gch g j)) - mu X g)

theorem S1_up (X : RArr) (g : Fin 8) : S1 (up X) g = ((s1 X g : ℝ) : EReal) := by
  simp only [S1, s1, up, coe_sum]

theorem S2_up (X : RArr) (g : Fin 8) : S2 (up X) g = ((s2 X g : ℝ) : EReal) := by
  simp only [S2, s2, up, coe_sum, EReal.coe_mul]

theorem mean_up (X : RArr) (g : Fin 8) : mean (up X) g = ((mu X g : ℝ) : EReal) := by
  rw [mean, S1_up, cnt_eq, Ideal.div_coe (by norm_num), ← EReal.coe_mul, mu]

theorem SS_up (X : RArr) (g : Fin 8) : SS (up X) g = ((ss X g : ℝ) : EReal) := by
  simp only [SS, mean_up, ss, coe_sum, EReal.coe_mul, EReal.coe_sub]
  simp only [up]

/-- Σ (x − μ)² = Σ x² − 2μ Σ x + N μ² over the N = 300000 · 8 entries of a group, so with μ = Σ x / N the two
    variances agree. -/
theorem ss_eq (X : RArr) (g : Fin 8) : ss X g * (1 / 2400000) = s2 X g * (1 / 2400000) - mu X g * mu X g := by
  have h : ∀ (n : Fin 300000) (j : Fin 8),
      (X (ix2 n (gch g j)) - mu X g) * (X (ix2 n (gch g j)) - mu X g)
        = X (ix2 n (gch g j)) * X (ix2 n (gch g j)) - 2 * mu X g * X (ix2 n (gch g j)) + mu X g * mu X g := by
    intro n j; ring
  have hss : ss X g = s2 X g - 2 * mu X g * s1 X g + 2400000 * (mu X g * mu X g) := by
    simp only [ss, h, s1, s2, Finset.sum_add_distrib, Finset.sum_sub_distrib, ← Finset.mul_sum, Finset.sum_const,
      Finset.card_univ, Fintype.card_fin, nsmul_eq_mul]
    push_cast; ring
  rw [hss, mu]; ring

theorem ss_nonneg (X : RArr) (g : Fin 8) : 0 ≤ ss X g :=
  Finset.sum_nonneg fun _ _ => Finset.sum_nonneg fun _ _ => mul_self_nonneg _

theorem varR_up (X : RArr) (g : Fin 8) : varR (up X) g = ((ss X g * (1 / 2400000) : ℝ) : EReal) := by
  rw [varR, SS_up, cnt_eq, Ideal.div_coe (by norm_num), ← EReal.coe_mul]

theorem varK_up (X : RArr) (g : Fin 8) : varK (up X) g = ((ss X g * (1 / 2400000) : ℝ) : EReal) := by
  rw [varK, S2_up, mean_up, cnt_eq, Ideal.div_coe (by norm_num), ← EReal.coe_mul, ← EReal.coe_mul, ← EReal.coe_sub,
    ss_eq]

/-- The reciprocal square root of a positive real is a real. -/
theorem rsqrt_pos_real {v : ℝ} (hv : 0 < v) : ∃ r : ℝ, Ideal.rsqrt (v : EReal) = (r : EReal) := by
  refine ⟨(Real.sqrt v)⁻¹, ?_⟩
  rw [Ideal.rsqrt_coe, if_neg (not_lt.2 hv.le), if_neg hv.ne']

/-- Both programs take the reciprocal square root of the same positive real. -/
theorem rinv_up (X : RArr) (g : Fin 8) : ∃ r : ℝ, rinvK (up X) g = (r : EReal) ∧ rinvR (up X) g = (r : EReal) := by
  obtain ⟨e, he, hee⟩ := eps_pos
  have hpos : 0 < ss X g * (1 / 2400000) + e := by
    exact add_pos_of_nonneg_of_pos (mul_nonneg (ss_nonneg X g) (by norm_num)) he
  obtain ⟨r, hr⟩ := rsqrt_pos_real hpos
  refine ⟨r, ?_, ?_⟩
  · rw [rinvK, varK_up, hee, ← EReal.coe_add, hr]
  · rw [rinvR, varR_up, hee, ← EReal.coe_add, hr]

/-! ## The two tails agree -/

theorem at_eq (X : RArr) (G B : RChan) (n : Fin 300000) (c : Fin 64) :
    kAt (up X) (fun i => (G i : EReal)) (fun i => (B i : EReal)) n c
      = rAt (up X) (fun i => (G i : EReal)) (fun i => (B i : EReal)) n c := by
  obtain ⟨r, hK, hR⟩ := rinv_up X (grp c)
  simp only [kAt, rAt, hK, hR, mean_up]
  simp only [up]
  congr 1
  rw [← EReal.coe_mul, ← EReal.coe_mul, ← EReal.coe_mul, ← EReal.coe_mul, ← EReal.coe_sub, ← EReal.coe_add,
    ← EReal.coe_sub, ← EReal.coe_mul, ← EReal.coe_mul, ← EReal.coe_add]
  congr 1
  ring

/-- With every entry of `x`, `γ`, `β` real, the kernel's folded multiply-add and the reference's normalisation
    give the same array. -/
theorem tail_eq (x : Arr) (γ β : Chan) (hx : ∀ i, Fin' (x i)) (hγ : ∀ i, Fin' (γ i)) (hβ : ∀ i, Fin' (β i)) :
    KTail x γ β = RTail x γ β := by
  choose X hX using fun i => fin_iff.1 (hx i)
  choose G hG using fun i => fin_iff.1 (hγ i)
  choose B hB using fun i => fin_iff.1 (hβ i)
  obtain rfl : x = up X := funext hX
  obtain rfl : γ = fun i => (G i : EReal) := funext hG
  obtain rfl : β = fun i => (B i : EReal) := funext hB
  funext i
  exact at_eq X G B (i 0) (i 1)

end Cert.Spec

end
-- ==== Proof.KI.Value.lean ====
/-
  What the kernel's program leaves in its result array, over the extended reals: the normalised, rectified
  accumulated output `x`, in the kernel's own arrangement.

  The fold through the program's items is followed backwards from the result: the last call's output is the
  multiply-add and rectifier of `x` with the scale and shift rows; those rows are the host's functions of the two
  group-statistics rows; those are the column sums of `x·M` and `x²·M` with `M` the groups' indicator matrix,
  that is, the per-group sums of `x` and of `x²`; and `x` is the scatter-add of the per-offset products of the
  gathered feature rows with the weights.
-/
import proofs.«127601_j2001454760193_1_alg».proof.Proof.KI.Fold
import proofs.«127601_j2001454760193_1_alg».proof.Proof.KI.Val0
import proofs.«127601_j2001454760193_1_alg».proof.Proof.KI.Val1
import proofs.«127601_j2001454760193_1_alg».proof.Proof.KI.Val2
import proofs.«127601_j2001454760193_1_alg».proof.Proof.KI.HostA
import proofs.«127601_j2001454760193_1_alg».proof.Proof.KI.HostAV
import proofs.«127601_j2001454760193_1_alg».proof.Proof.KI.HostB
import proofs.«127601_j2001454760193_1_alg».proof.Proof.KI.HostBV
import proofs.«127601_j2001454760193_1_alg».proof.Proof.Bridge
import proofs.«127601_j2001454760193_1_alg».proof.Proof.SpecK

noncomputable section

namespace Cert.KernelIdeal.HandV

open Cert.KernelIdeal Cert.KernelIdeal.Gen Cert.KernelIdeal.Hand Cert.Spec
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- The accumulated convolution output as the kernel's program computes it from the argument arrays. -/
def xK : Arr :=
  outK (F := Ideal)
    (conv (gK (F := Ideal) (m ((c : Thread nD τ).loc main_arg0)) (m ((c : Thread nD τ).loc main_arg4)))
      (wK (F := Ideal) (m ((c : Thread nD τ).loc main_arg1))))
    (m ((c : Thread nD τ).loc main_arg5))

/-- The kernel's result array. -/
def resK : Arr := KTail (xK m c) (m ((c : Thread nD τ).loc main_arg2)) (m ((c : Thread nD τ).loc main_arg3))

/-- When the statistics call is entered the accumulated-output buffer holds `x`. -/
theorem x_eq : V3 (F := Ideal) m ρ c main_v19 = xK m c := by
  have e8 := after0_v8 (F := Ideal) (W0 m ρ c)
  have e1 := after0_v1 (F := Ideal) (W0 m ρ c)
  rw [W0_arg0, W0_arg4] at e8
  rw [W0_arg1] at e1
  have e19 := after1_v19 (F := Ideal) (W2 m ρ c)
  rw [W2_v9, W2_arg5, final0, show V1 m ρ c main_v8 = _ from e8, show V1 m ρ c main_v1 = _ from e1] at e19
  exact e19

/-- Against the groups' indicator matrix a column sum is the group's sum. -/
theorem stat_S1 (x : Arr) (g : Fin 8) : statAt x (gmatK (F := Ideal)) g = S1 x g := by
  unfold statAt S1
  refine Finset.sum_congr rfl fun n _ => ?_
  simp only [gmatK_apply]
  exact ind_sum (fun ch => x (ix2 n ch)) g

theorem stat2_S2 (x : Arr) (g : Fin 8) : stat2At x (gmatK (F := Ideal)) g = S2 x g := by
  unfold stat2At S2
  refine Finset.sum_congr rfl fun n _ => ?_
  simp only [gmatK_apply]
  exact ind_sum (fun ch => x (ix2 n ch) * x (ix2 n ch)) g

/-- The multiply-add with the host's scale and shift rows, built from the column sums against the indicator matrix, is
    the kernel's form of the normalisation. -/
theorem tail_form (x : Arr) (γ β : Chan) :
    norm x (scaleK (F := Ideal) (stat x (gmatK (F := Ideal))) (stat2 x (gmatK (F := Ideal))) γ)
      (shiftK (F := Ideal) (stat x (gmatK (F := Ideal))) (stat2 x (gmatK (F := Ideal))) γ β) = KTail x γ β := by
  funext i
  obtain ⟨n, ch, rfl⟩ : ∃ (n : Fin 300000) (ch : Fin 64), i = ix2 n ch := ⟨i 0, i 1, eq_ix2 i⟩
  show normAt x _ _ n ch = kAt x γ β n ch
  unfold normAt kAt
  rw [scaleK_apply, shiftK_apply]
  show leaky (_ * (_ * Ideal.rsqrt (Ideal.div (stat2At x _ (grp ch)) cnt - Ideal.div (statAt x _ (grp ch)) cnt * Ideal.div (statAt x _ (grp ch)) cnt + eps))
    + (_ - Ideal.div (statAt x _ (grp ch)) cnt * _ * Ideal.rsqrt (Ideal.div (stat2At x _ (grp ch)) cnt - Ideal.div (statAt x _ (grp ch)) cnt * Ideal.div (statAt x _ (grp ch)) cnt + eps))) = _
  rw [stat_S1, stat2_S2]
  rfl

/-- The result buffer after the last call. -/
theorem kernel_value : W8 (F := Ideal) m ρ c (Proc.devRef .tc main_v45) = resK m c := by
  have e40 := after2_v40 (F := Ideal) (W6 m ρ c)
  have e44 := after2_v44 (F := Ideal) (W6 m ρ c)
  have e22 := after1_v22 (F := Ideal) (W2 m ρ c)
  rw [W6_v23_0, W6_v23_1, W6_arg2, final1_2, final1_3, V5_v19, x_eq, show V5 m ρ c main_v22 = _ from e22] at e40
  rw [W6_v23_0, W6_v23_1, W6_arg2, W6_arg3, final1_2, final1_3, V5_v19, x_eq, show V5 m ρ c main_v22 = _ from e22] at e44
  rw [W8_v45, final2, V7_v19, x_eq, show V7 m ρ c main_v40 = _ from e40, show V7 m ρ c main_v44 = _ from e44]
  exact tail_form _ _ _

end Cert.KernelIdeal.HandV

end
-- ==== Proof.Ref.Terms.lean ====
/-
  The reference program's result as a term of its arguments: its host operations composed in the order they
  are printed, the outlined variance and select functions written out where they are called.

  `outR` is the sparse convolution: per kernel offset the input rows gathered at the (wrapped) input indices,
  multiplied by that offset's 32 × 64 weight block, and the 27 · 100000 product rows added into the
  300000 × 64 result at the (wrapped) output indices.
  `tailR` is the group normalisation of such an array and the leaky rectifier: the 64 channels seen as 8 groups
  of 8, per group the mean and the variance E[(x − μ)²] over all points and the group's channels, then
  ((x − μ) · (σ² + ε)^(−1/2)) · γ + β and the rectifier.
-/
import proofs.«127601_j2001454760193_1_alg».proof.ReferenceIdeal
import proofs.«127601_j2001454760193_1_alg».proof.Proof.Gen.ReferenceIdeal
import proofs.«127601_j2001454760193_1_alg».proof.Proof.Spec

noncomputable section

namespace Cert.ReferenceIdeal.Hand

open Cert.ReferenceIdeal Idealize.ShloMosaic
open Cert.ReferenceIdeal.Facts₀

variable {F : FTy → Type} [FloatOps F]

/-! ## The sparse convolution -/

/-- An index below zero counts from the end of the 300000 points: 300000 is added to it (27 × 100000 indices). -/
def wrapPts (a : IVec S27x100000 32) : IVec S27x100000 32 :=
  select (cmpi .slt a (broadcastInDim S27x100000 ![] bcast_S_S27x100000 (constantI S_ 32 0#32)))
    (addi a (broadcastInDim S27x100000 ![] bcast_S_S27x100000 (constantI S_ 32 300000#32))) a

/-- The same over the 2700000 indices in one row. -/
def wrapFlat (a : IVec S2700000 32) : IVec S2700000 32 :=
  select (cmpi .slt a (broadcastInDim S2700000 ![] bcast_S_S2700000 (constantI S_ 32 0#32)))
    (addi a (broadcastInDim S2700000 ![] bcast_S_S2700000 (constantI S_ 32 300000#32))) a

/-- Per kernel offset and pair, the input row at the pair's input index. -/
def gatherIn (a0 : FVec F S300000x32 .f32) (a4 : IVec S27x100000 32) : FVec F S27x100000x32 .f32 :=
  Host.gather gather_S300000x32_S27x100000x1_S27x100000x32_2_0_n_n_0_2_132 a0
    (broadcastInDim S27x100000x1 ![0, 1] bcast_S27x100000_S27x100000x1_0_1 (wrapPts a4))

/-- Per kernel offset, the gathered rows times that offset's weight block. -/
def convRows (a0 : FVec F S300000x32 .f32) (a1 : FVec F S27x32x64 .f32) (a4 : IVec S27x100000 32) :
    FVec F S27x100000x64 .f32 :=
  Host.dotGeneral dot_S27x100000x32_S27x32x64_S27x100000x64_2_1_1_2_0_0 none (gatherIn a0 a4) a1

/-- The product rows added into the zero array at the output indices. -/
def outR (a0 : FVec F S300000x32 .f32) (a1 : FVec F S27x32x64 .f32) (a4 a5 : IVec S27x100000 32) :
    FVec F S300000x64 .f32 :=
  Host.scatterAdd scatter_S300000x64_S2700000x1_S2700000x64_1_0_0_1
    (broadcastInDim S300000x64 ![] bcast_S_S300000x64 (constant (F := F) S_ .f32 0x00000000#32))
    (broadcastInDim S2700000x1 ![0] bcast_S2700000_S2700000x1_0
      (wrapFlat (shapeCast S2700000 a5 shapeCasts_S27x100000_S2700000)))
    (shapeCast S2700000x64 (convRows a0 a1 a4) shapeCasts_S27x100000x64_S2700000x64)

/-! ## The group normalisation and the rectifier -/

/-- The 64 channels as 8 groups of 8. -/
def asGroups (x : FVec F S300000x64 .f32) : FVec F S300000x8x8 .f32 :=
  shapeCast S300000x8x8 x shapeCasts_S300000x64_S300000x8x8

/-- Per group, the sum over the points and the group's channels, as a 1 × 8 × 1 array. -/
def sumG (y : FVec F S300000x8x8 .f32) : FVec F S1x8x1 .f32 :=
  broadcastInDim S1x8x1 ![1] bcast_S8_S1x8x1_1
    (Host.reduceAdd y (constant (F := F) S_ .f32 0x00000000#32) reducesTo_S300000x8x8_S8_d0_2 h_S_)

/-- Per group, the sum over 2.4e6. -/
def meanG (y : FVec F S300000x8x8 .f32) : FVec F S1x8x1 .f32 :=
  Host.divf (sumG y) (broadcastInDim S1x8x1 ![] bcast_S_S1x8x1 (constant (F := F) S_ .f32 0x4A127C00#32))

/-- A per-group value at every point and channel of its group. -/
def overPts (v : FVec F S1x8x1 .f32) : FVec F S300000x8x8 .f32 :=
  broadcastInDim S300000x8x8 ![0, 1, 2] bcast_S1x8x1_S300000x8x8_0_1_2 v

/-- The entries less their group's mean. -/
def centred (y : FVec F S300000x8x8 .f32) : FVec F S300000x8x8 .f32 :=
  subf y (overPts (meanG y))

/-- The variance's divisor: 2.4e6 less the correction, the integer 0 as a float. -/
def dofG : FVec F S_ .f32 :=
  subf (constant (F := F) S_ .f32 0x4A127C00#32) (sitofp (F := F) .f32 (constantI S_ 32 0#32))

/-- Per group, the sum of the squared deviations over the divisor where the divisor is positive, the
    not-a-number word otherwise. -/
def varG (y : FVec F S300000x8x8 .f32) : FVec F S1x8x1 .f32 :=
  select (broadcastInDim S1x8x1 ![] bcast_S_S1x8x1 (cmpf .ogt (dofG (F := F)) (constant (F := F) S_ .f32 0x00000000#32)))
    (Host.divf (sumG (mulf (centred y) (centred y))) (broadcastInDim S1x8x1 ![] bcast_S_S1x8x1 (dofG (F := F))))
    (broadcastInDim S1x8x1 ![] bcast_S_S1x8x1 (constant (F := F) S_ .f32 0x7FC00000#32))

/-- Per group, (σ² + ε)^(−1/2). -/
def rinvG (y : FVec F S300000x8x8 .f32) : FVec F S1x8x1 .f32 :=
  Host.rsqrt (addf (varG y) (broadcastInDim S1x8x1 ![] bcast_S_S1x8x1 (constant (F := F) S_ .f32 0x3727C5AC#32)))

/-- (x − μ) · (σ² + ε)^(−1/2), back at 300000 × 64. -/
def normed (x : FVec F S300000x64 .f32) : FVec F S300000x64 .f32 :=
  shapeCast S300000x64 (mulf (centred (asGroups x)) (overPts (rinvG (asGroups x)))) shapeCasts_S300000x8x8_S300000x64

/-- A per-channel vector at every point. -/
def overRows (a : FVec F S64 .f32) : FVec F S300000x64 .f32 :=
  broadcastInDim S300000x64 ![0, 1] bcast_S1x64_S300000x64_0_1 (broadcastInDim S1x64 ![1] bcast_S64_S1x64_1 a)

/-- The normalised array times γ plus β. -/
def affine (x : FVec F S300000x64 .f32) (a2 a3 : FVec F S64 .f32) : FVec F S300000x64 .f32 :=
  addf (mulf (normed x) (overRows a2)) (overRows a3)

/-- The leaky rectifier: the value where it is at least zero, 0.01 times it elsewhere. -/
def leakyR (v : FVec F S300000x64 .f32) : FVec F S300000x64 .f32 :=
  select (cmpf .oge v (broadcastInDim S300000x64 ![] bcast_S_S300000x64 (constant (F := F) S_ .f32 0x00000000#32)))
    v (mulf (broadcastInDim S300000x64 ![] bcast_S_S300000x64 (constant (F := F) S_ .f32 0x3C23D70A#32)) v)

/-- The reference's result from the convolution's output and the two per-channel vectors. -/
def tailR (x : FVec F S300000x64 .f32) (a2 a3 : FVec F S64 .f32) : FVec F S300000x64 .f32 :=
  leakyR (affine x a2 a3)

end Cert.ReferenceIdeal.Hand

end
-- ==== Proof.Ref.Run.lean ====
/-
  The reference program's run: its @main is the straight line of its 76 host operations (the variance function and
  the two select functions written out at their calls, over the buffers of those calls), so every weakly fair
  execution terminates with each buffer at the fold of the operations' results over the launch contents; read at
  the result buffer that fold is `tailR (outR …)` of the argument arrays (Ref/Terms.lean), and at each argument
  buffer it is the argument itself.
-/
import proofs.«127601_j2001454760193_1_alg».proof.ReferenceIdeal
import proofs.«127601_j2001454760193_1_alg».proof.Proof.Gen.ReferenceIdeal
import proofs.«127601_j2001454760193_1_alg».proof.Proof.Ref.Terms
import Idealize.ShloMosaic.Lib.Pipeline.Regions
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- The reference's 76 host operations in the order they run: @main's own, the variance function's twenty-three
    (its select function's three among them) over the buffers of its call, and the final select. -/
abbrev ops : List (HloOp τ sig (Elt F)) :=
  [ nullary main_c (constantI S_ 32 0#32),
    unary main_c main_v0 (broadcastInDim S27x100000 ![] bcast_S_S27x100000 : (⟨S_, .i32⟩ : BufTy).Contents (Elt F) → (⟨S27x100000, .i32⟩ : BufTy).Contents (Elt F)),
    binary main_arg4 main_v0 main_v1 (cmpi .slt : (⟨S27x100000, .i32⟩ : BufTy).Contents (Elt F) → (⟨S27x100000, .i32⟩ : BufTy).Contents (Elt F) → (⟨S27x100000, .i1⟩ : BufTy).Contents (Elt F)),
    nullary main_c_0 (constantI S_ 32 300000#32),
    unary main_c_0 main_v2 (broadcastInDim S27x100000 ![] bcast_S_S27x100000 : (⟨S_, .i32⟩ : BufTy).Contents (Elt F) → (⟨S27x100000, .i32⟩ : BufTy).Contents (Elt F)),
    binary main_arg4 main_v2 main_v3 (addi : (⟨S27x100000, .i32⟩ : BufTy).Contents (Elt F) → (⟨S27x100000, .i32⟩ : BufTy).Contents (Elt F) → (⟨S27x100000, .i32⟩ : BufTy).Contents (Elt F)),
    ternary main_v1 main_v3 main_arg4 main_v4 (select : (⟨S27x100000, .i1⟩ : BufTy).Contents (Elt F) → (⟨S27x100000, .i32⟩ : BufTy).Contents (Elt F) → (⟨S27x100000, .i32⟩ : BufTy).Contents (Elt F) → (⟨S27x100000, .i32⟩ : BufTy).Contents (Elt F)),
    unary main_v4 main_v5 (broadcastInDim S27x100000x1 ![0, 1] bcast_S27x100000_S27x100000x1_0_1 : (⟨S27x100000, .i32⟩ : BufTy).Contents (Elt F) → (⟨S27x100000x1, .i32⟩ : BufTy).Contents (Elt F)),
    binary main_arg0 main_v5 main_v6 ((fun x i => Host.gather gather_S300000x32_S27x100000x1_S27x100000x32_2_0_n_n_0_2_132 x i) : (⟨S300000x32, .f32⟩ : BufTy).Contents (Elt F) → (⟨S27x100000x1, .i32⟩ : BufTy).Contents (Elt F) → (⟨S27x100000x32, .f32⟩ : BufTy).Contents (Elt F)),
    binary main_v6 main_arg1 main_v7 ((fun l r => Host.dotGeneral dot_S27x100000x32_S27x32x64_S27x100000x64_2_1_1_2_0_0 none l r) : (⟨S27x100000x32, .f32⟩ : BufTy).Contents (Elt F) → (⟨S27x32x64, .f32⟩ : BufTy).Contents (Elt F) → (⟨S27x100000x64, .f32⟩ : BufTy).Contents (Elt F)),
    nullary main_cst (constant S_ .f32 0x00000000#32),
    unary main_cst main_v8 (broadcastInDim S300000x64 ![] bcast_S_S300000x64 : (⟨S_, .f32⟩ : BufTy).Contents (Elt F) → (⟨S300000x64, .f32⟩ : BufTy).Contents (Elt F)),
    reshape main_arg5 main_v9 rfl shapeCasts_S27x100000_S2700000,
    reshape main_v7 main_v10 rfl shapeCasts_S27x100000x64_S2700000x64,
    nullary main_c_1 (constantI S_ 32 0#32),
    unary main_c_1 main_v11 (broadcastInDim S2700000 ![] bcast_S_S2700000 : (⟨S_, .i32⟩ : BufTy).Contents (Elt F) → (⟨S2700000, .i32⟩ : BufTy).Contents (Elt F)),
    binary main_v9 main_v11 main_v12 (cmpi .slt : (⟨S2700000, .i32⟩ : BufTy).Contents (Elt F) → (⟨S2700000, .i32⟩ : BufTy).Contents (Elt F) → (⟨S2700000, .i1⟩ : BufTy).Contents (Elt F)),
    nullary main_c_2 (constantI S_ 32 300000#32),
    unary main_c_2 main_v13 (broadcastInDim S2700000 ![] bcast_S_S2700000 : (⟨S_, .i32⟩ : BufTy).Contents (Elt F) → (⟨S2700000, .i32⟩ : BufTy).Contents (Elt F)),
    binary main_v9 main_v13 main_v14 (addi : (⟨S2700000, .i32⟩ : BufTy).Contents (Elt F) → (⟨S2700000, .i32⟩ : BufTy).Contents (Elt F) → (⟨S2700000, .i32⟩ : BufTy).Contents (Elt F)),
    ternary main_v12 main_v14 main_v9 main_v15 (select : (⟨S2700000, .i1⟩ : BufTy).Contents (Elt F) → (⟨S2700000, .i32⟩ : BufTy).Contents (Elt F) → (⟨S2700000, .i32⟩ : BufTy).Contents (Elt F) → (⟨S2700000, .i32⟩ : BufTy).Contents (Elt F)),
    unary main_v15 main_v16 (broadcastInDim S2700000x1 ![0] bcast_S2700000_S2700000x1_0 : (⟨S2700000, .i32⟩ : BufTy).Contents (Elt F) → (⟨S2700000x1, .i32⟩ : BufTy).Contents (Elt F)),
    ternary main_v8 main_v16 main_v10 main_v17 ((fun x i u => Host.scatterAdd scatter_S300000x64_S2700000x1_S2700000x64_1_0_0_1 x i u) : (⟨S300000x64, .f32⟩ : BufTy).Contents (Elt F) → (⟨S2700000x1, .i32⟩ : BufTy).Contents (Elt F) → (⟨S2700000x64, .f32⟩ : BufTy).Contents (Elt F) → (⟨S300000x64, .f32⟩ : BufTy).Contents (Elt F)),
    reshape main_v17 main_v18 rfl shapeCasts_S300000x64_S300000x8x8,
    nullary main_cst_3 (constant S_ .f32 0x00000000#32),
    binary main_v18 main_cst_3 main_v19 ((fun x v => Host.reduceAdd x v reducesTo_S300000x8x8_S8_d0_2 h_S_) : (⟨S300000x8x8, .f32⟩ : BufTy).Contents (Elt F) → (⟨S_, .f32⟩ : BufTy).Contents (Elt F) → (⟨S8, .f32⟩ : BufTy).Contents (Elt F)),
    unary main_v19 main_v20 (broadcastInDim S1x8x1 ![1] bcast_S8_S1x8x1_1 : (⟨S8, .f32⟩ : BufTy).Contents (Elt F) → (⟨S1x8x1, .f32⟩ : BufTy).Contents (Elt F)),
    nullary main_cst_4 (constant S_ .f32 0x4A127C00#32),
    unary main_cst_4 main_v21 (broadcastInDim S1x8x1 ![] bcast_S_S1x8x1 : (⟨S_, .f32⟩ : BufTy).Contents (Elt F) → (⟨S1x8x1, .f32⟩ : BufTy).Contents (Elt F)),
    binary main_v20 main_v21 main_v22 (Host.divf : (⟨S1x8x1, .f32⟩ : BufTy).Contents (Elt F) → (⟨S1x8x1, .f32⟩ : BufTy).Contents (Elt F) → (⟨S1x8x1, .f32⟩ : BufTy).Contents (Elt F)),
    nullary main_c_5 (constantI S_ 32 0#32),
    TRef.nullary main_call0.cst (constant S_ .f32 0x00000000#32),
    TRef.binary (.of main_v18 : TRef sig ⟨S300000x8x8, .f32⟩) main_call0.cst main_call0.v0 (fun x v => Host.reduceAdd x v reducesTo_S300000x8x8_S8_d0_2 h_S_),
    TRef.unary main_call0.v0 main_call0.v1 (broadcastInDim S1x8x1 ![1] bcast_S8_S1x8x1_1),
    TRef.nullary main_call0.cst_0 (constant S_ .f32 0x4A127C00#32),
    TRef.unary main_call0.cst_0 main_call0.v2 (broadcastInDim S1x8x1 ![] bcast_S_S1x8x1),
    TRef.binary main_call0.v1 main_call0.v2 main_call0.v3 Host.divf,
    TRef.unary main_call0.v3 main_call0.v4 (broadcastInDim S300000x8x8 ![0, 1, 2] bcast_S1x8x1_S300000x8x8_0_1_2),
    TRef.binary (.of main_v18 : TRef sig ⟨S300000x8x8, .f32⟩) main_call0.v4 main_call0.v5 subf,
    TRef.binary main_call0.v5 main_call0.v5 main_call0.v6 mulf,
    TRef.unary (.of main_c_5 : TRef sig ⟨S_, .i32⟩) main_call0.v7 (sitofp .f32),
    TRef.nullary main_call0.cst_1 (constant S_ .f32 0x4A127C00#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S300000x8x8_S8_d0_2 h_S_),
    TRef.unary main_call0.v9 main_call0.v10 (broadcastInDim S1x8x1 ![1] bcast_S8_S1x8x1_1),
    TRef.unary main_call0.v8 main_call0.v11 (broadcastInDim S1x8x1 ![] bcast_S_S1x8x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x8x1 ![] bcast_S_S1x8x1),
    TRef.ternary main_call0.v13 main_call0.v12 main_call0.call0.v1 main_call0.call0.v2 (fun p a b => select (broadcastInDim S1x8x1 ![] bcast_S_S1x8x1 p) a b),
    unary main_v22 main_v24 (broadcastInDim S300000x8x8 ![0, 1, 2] bcast_S1x8x1_S300000x8x8_0_1_2 : (⟨S1x8x1, .f32⟩ : BufTy).Contents (Elt F) → (⟨S300000x8x8, .f32⟩ : BufTy).Contents (Elt F)),
    binary main_v18 main_v24 main_v25 (subf : (⟨S300000x8x8, .f32⟩ : BufTy).Contents (Elt F) → (⟨S300000x8x8, .f32⟩ : BufTy).Contents (Elt F) → (⟨S300000x8x8, .f32⟩ : BufTy).Contents (Elt F)),
    nullary main_cst_6 (constant S_ .f32 0x3727C5AC#32),
    unary main_cst_6 main_v26 (broadcastInDim S1x8x1 ![] bcast_S_S1x8x1 : (⟨S_, .f32⟩ : BufTy).Contents (Elt F) → (⟨S1x8x1, .f32⟩ : BufTy).Contents (Elt F)),
    binary main_v23 main_v26 main_v27 (addf : (⟨S1x8x1, .f32⟩ : BufTy).Contents (Elt F) → (⟨S1x8x1, .f32⟩ : BufTy).Contents (Elt F) → (⟨S1x8x1, .f32⟩ : BufTy).Contents (Elt F)),
    unary main_v27 main_v28 (Host.rsqrt : (⟨S1x8x1, .f32⟩ : BufTy).Contents (Elt F) → (⟨S1x8x1, .f32⟩ : BufTy).Contents (Elt F)),
    unary main_v28 main_v29 (broadcastInDim S300000x8x8 ![0, 1, 2] bcast_S1x8x1_S300000x8x8_0_1_2 : (⟨S1x8x1, .f32⟩ : BufTy).Contents (Elt F) → (⟨S300000x8x8, .f32⟩ : BufTy).Contents (Elt F)),
    binary main_v25 main_v29 main_v30 (mulf : (⟨S300000x8x8, .f32⟩ : BufTy).Contents (Elt F) → (⟨S300000x8x8, .f32⟩ : BufTy).Contents (Elt F) → (⟨S300000x8x8, .f32⟩ : BufTy).Contents (Elt F)),
    reshape main_v30 main_v31 rfl shapeCasts_S300000x8x8_S300000x64,
    unary main_arg2 main_v32 (broadcastInDim S1x64 ![1] bcast_S64_S1x64_1 : (⟨S64, .f32⟩ : BufTy).Contents (Elt F) → (⟨S1x64, .f32⟩ : BufTy).Contents (Elt F)),
    unary main_v32 main_v33 (broadcastInDim S300000x64 ![0, 1] bcast_S1x64_S300000x64_0_1 : (⟨S1x64, .f32⟩ : BufTy).Contents (Elt F) → (⟨S300000x64, .f32⟩ : BufTy).Contents (Elt F)),
    binary main_v31 main_v33 main_v34 (mulf : (⟨S300000x64, .f32⟩ : BufTy).Contents (Elt F) → (⟨S300000x64, .f32⟩ : BufTy).Contents (Elt F) → (⟨S300000x64, .f32⟩ : BufTy).Contents (Elt F)),
    unary main_arg3 main_v35 (broadcastInDim S1x64 ![1] bcast_S64_S1x64_1 : (⟨S64, .f32⟩ : BufTy).Contents (Elt F) → (⟨S1x64, .f32⟩ : BufTy).Contents (Elt F)),
    unary main_v35 main_v36 (broadcastInDim S300000x64 ![0, 1] bcast_S1x64_S300000x64_0_1 : (⟨S1x64, .f32⟩ : BufTy).Contents (Elt F) → (⟨S300000x64, .f32⟩ : BufTy).Contents (Elt F)),
    binary main_v34 main_v36 main_v37 (addf : (⟨S300000x64, .f32⟩ : BufTy).Contents (Elt F) → (⟨S300000x64, .f32⟩ : BufTy).Contents (Elt F) → (⟨S300000x64, .f32⟩ : BufTy).Contents (Elt F)),
    nullary main_cst_7 (constant S_ .f32 0x00000000#32),
    unary main_cst_7 main_v38 (broadcastInDim S300000x64 ![] bcast_S_S300000x64 : (⟨S_, .f32⟩ : BufTy).Contents (Elt F) → (⟨S300000x64, .f32⟩ : BufTy).Contents (Elt F)),
    binary main_v37 main_v38 main_v39 (cmpf .oge : (⟨S300000x64, .f32⟩ : BufTy).Contents (Elt F) → (⟨S300000x64, .f32⟩ : BufTy).Contents (Elt F) → (⟨S300000x64, .i1⟩ : BufTy).Contents (Elt F)),
    nullary main_cst_8 (constant S_ .f32 0x3C23D70A#32),
    unary main_cst_8 main_v40 (broadcastInDim S300000x64 ![] bcast_S_S300000x64 : (⟨S_, .f32⟩ : BufTy).Contents (Elt F) → (⟨S300000x64, .f32⟩ : BufTy).Contents (Elt F)),
    binary main_v40 main_v37 main_v41 (mulf : (⟨S300000x64, .f32⟩ : BufTy).Contents (Elt F) → (⟨S300000x64, .f32⟩ : BufTy).Contents (Elt F) → (⟨S300000x64, .f32⟩ : BufTy).Contents (Elt F)),
    TRef.ternary (.of main_v39 : TRef sig ⟨S300000x64, .i1⟩) (.of main_v37 : TRef sig ⟨S300000x64, .f32⟩) (.of main_v41 : TRef sig ⟨S300000x64, .f32⟩) main_call1.v0 select ]

/-- @main is that straight line: both sides unfold to the same chain of operation steps (the functions' bodies at
    their calls, the records at their fields, the sequencing reassociated by computation). -/
theorem main_eq (c : Dev nD) : main (F := F) c = seq ops := by
  chain_rfl

/-- No buffer and no semaphore of the signature is scoped. -/
theorem scopedRefs_eq : (Finset.univ.filter fun b : Ref sig .tc => b.isScoped) = ∅ := by decide
theorem scopedSems_eq : (Finset.univ.filter fun sm : SemLoc sig => sm.isScoped .tc) = ∅ := by decide

/-- Every operation reads and writes buffers of the TensorCore's table. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    reshape_bufs_sub .., reshape_bufs_sub .., nullary_bufs_sub .., unary_bufs_sub .., binary_bufs_sub .., nullary_bufs_sub ..,
    unary_bufs_sub .., binary_bufs_sub .., ternary_bufs_sub .., unary_bufs_sub .., ternary_bufs_sub .., reshape_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., reshape_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub ..⟩

attribute [local irreducible] Host.reduceAdd Host.scatterAdd Host.gather in
set_option maxRecDepth 8192 in
set_option maxHeartbeats 1000000 in
/-- The fold at the result buffer is the composed term: each operation's result rewritten at its own buffer,
    the outlined functions' operations at the buffers of their calls. -/
theorem out_eq (V : Valuation τ sig (Elt F)) :
    after ops V (main_v42 : DevRef τ sig)
      = tailR (outR (V (main_arg0 : DevRef τ sig)) (V (main_arg1 : DevRef τ sig)) (V (main_arg4 : DevRef τ sig)) (V (main_arg5 : DevRef τ sig))) (V (main_arg2 : DevRef τ sig)) (V (main_arg3 : DevRef τ sig)) := by
  after_results_simp <;> (try simp only [TRef.ofBuf, TRef.toBuf, cast_eq]) <;> rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

/-- On every device, for any float values, from any memory with zero counters: every weakly fair execution of
    @main terminates with the result at `tailR (outR …)` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42)
          = tailR (outR (m ((c.tc : Thread nD τ).loc main_arg0)) (m ((c.tc : Thread nD τ).loc main_arg1)) (m ((c.tc : Thread nD τ).loc main_arg4)) (m ((c.tc : Thread nD τ).loc main_arg5)))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v42).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_seq scopedRefs_eq scopedSems_eq defs main (fun _ => ops) main_eq (fun _ => ops_sub) m ρ)

end Cert.ReferenceIdeal.Hand

end
-- ==== Proof.Ref.Tail.lean ====
/-
  The reference's group normalisation and rectifier read at an index, over the extended reals.

  Entry (n, g, j) of the 300000 × 8 × 8 view of a 300000 × 64 array is entry (n, 8g + j) of the array: channel
  8g + j is the j-th channel of group g.  A sum over the axes 0 and 2 of the view is, at group g, the double sum over
  the points n and the group's channels j.  Pushing an index through each stage of the reference's tail in turn gives,
  at point n and channel c with g = c / 8,

      leaky (((x n c − μ g) · (σ² g + ε)^(−1/2)) · γ c + β c),

  with μ g the double sum of x over 2 400 000 and σ² g the double sum of (x − μ g)² over 2 400 000 − 0: the
  divisor is positive, so the program's guard against an empty group takes the quotient and never the not-a-number
  word.
-/
import proofs.«127601_j2001454760193_1_alg».proof.Proof.Ref.Terms
import proofs.«127601_j2001454760193_1_alg».proof.Proof.Bridge
import Idealize.ShloMosaic.PureOps.Ideal.Laws
import Idealize.ShloMosaic.PureOps.Reduce
import Idealize.ShloMosaic.Lib.IdealHost
import Idealize.ShloMosaic.Lib.ValueIdx
import Idealize.ShloMosaic.Lib.Pipeline.Value
import Mathlib.Algebra.BigOperators.Group.Finset.Basic
import Mathlib.Algebra.BigOperators.Group.Finset.Sigma

noncomputable section

namespace Cert.ReferenceIdeal.Hand

open Cert.ReferenceIdeal Idealize.ShloMosaic Idealize.ShloMosaic.ValueIdx
open Cert.ReferenceIdeal.Facts₀
open Cert.Spec (gch grp cnt eps slope)

/-! ## The 300000 × 8 × 8 view -/

/-- Entry (n, g, j) of the view is entry (n, 8g + j) of the array. -/
theorem asGroups_apply (x : FVec Ideal S300000x64 .f32) (n : Fin 300000) (g j : Fin 8) :
    asGroups x (ix3 n g j) = x (ix2 n (gch g j)) := by
  unfold asGroups
  refine shapeCast_apply x _ _ _ ?_
  rw [Shape.rowMajor_val_three, Shape.rowMajor_val_two]
  show n.val * 64 + (8 * g.val + j.val) = (n.val * 8 + g.val) * 8 + j.val
  omega

/-- Entry (n, c) of a 300000 × 8 × 8 array seen as 300000 × 64 is entry (n, c / 8, c mod 8). -/
theorem ungroup_apply (y : FVec Ideal S300000x8x8 .f32) (n : Fin 300000) (c : Fin 64) :
    shapeCast S300000x64 y shapeCasts_S300000x8x8_S300000x64 (ix2 n c)
      = y (ix3 n (grp c) (⟨c.val % 8, Nat.mod_lt _ (by decide)⟩ : Fin 8)) := by
  refine shapeCast_apply y _ _ _ ?_
  rw [Shape.rowMajor_val_three, Shape.rowMajor_val_two]
  show (n.val * 8 + c.val / 8) * 8 + c.val % 8 = n.val * 64 + c.val
  omega

/-- Channel c is the (c mod 8)-th channel of its group. -/
theorem gch_grp (c : Fin 64) : gch (grp c) (⟨c.val % 8, Nat.mod_lt _ (by decide)⟩ : Fin 8) = c := by
  apply Fin.ext; simp only [grp, gch]; omega

/-! ## The sum over the points and a group's channels -/

/-- Dropping the axes 0 and 2 of an index of the view leaves its group coordinate. -/
theorem drop_eq_iff (i : S300000x8x8.Idx) (g : Fin 8) :
    reducesTo_S300000x8x8_S8_d0_2.drop i = ix1 g ↔ (i 1).val = g.val := by
  have e : ((reducesTo_S300000x8x8_S8_d0_2.drop i (0 : Fin 1) : Fin 8) : Nat) = (i 1).val :=
    Shape.ReducesTo.drop_apply_val_of_eq reducesTo_S300000x8x8_S8_d0_2 i 0 1
  constructor
  · intro h
    rw [h] at e
    exact e.symm
  · intro h
    funext b
    match b with
    | ⟨0, _⟩ => exact Fin.ext (e.trans h)

/-- The reference's sum over the axes 0 and 2 of the view, from zero, is at group g the double sum over the points
    and the group's channels: the indices that drop to g are exactly the (n, g, j). -/
theorem reduce_groups (y : FVec Ideal S300000x8x8 .f32) (g : Fin 8) :
    Host.reduceAdd y (constant (F := Ideal) S_ .f32 0x00000000#32) reducesTo_S300000x8x8_S8_d0_2 h_S_ (ix1 g)
      = ∑ n : Fin 300000, ∑ j : Fin 8, y (ix3 n g j) := by
  rw [hostReduceAdd_apply]
  unfold Ideal.hostReduceAdd
  rw [constant_apply, Ideal.ofBits_zero_f32, zero_add]
  refine Eq.trans ?_ (Fintype.sum_prod_type' (fun (n : Fin 300000) (j : Fin 8) => y (ix3 n g j)))
  have back : ∀ i : S300000x8x8.Idx, (i 1).val = g.val → ix3 (i 0 : Fin 300000) g (i 2 : Fin 8) = i := by
    intro i h
    funext b
    match b with
    | ⟨0, _⟩ => rfl
    | ⟨1, _⟩ => exact Fin.ext h.symm
    | ⟨2, _⟩ => rfl
  refine Finset.sum_nbij' (fun i => ((i 0 : Fin 300000), (i 2 : Fin 8))) (fun p => ix3 p.1 g p.2) ?_ ?_ ?_ ?_ ?_
  · intro i _; simp only [Finset.mem_univ]
  · intro p _; exact Finset.mem_filter.2 ⟨Finset.mem_univ _, (drop_eq_iff _ g).2 rfl⟩
  · intro i hi; exact back i ((drop_eq_iff i g).1 (Finset.mem_filter.1 hi).2)
  · intro p _; rfl
  · intro i hi; exact congrArg y (back i ((drop_eq_iff i g).1 (Finset.mem_filter.1 hi).2)).symm

/-- Per group, the sum as a 1 × 8 × 1 array. -/
theorem sumG_apply (y : FVec Ideal S300000x8x8 .f32) (u : Fin 1) (g : Fin 8) (w : Fin 1) :
    sumG y (ix3 u g w) = ∑ n : Fin 300000, ∑ j : Fin 8, y (ix3 n g j) := by
  unfold sumG
  rw [broadcastInDim_apply _ _ _ _ (ix1 g) (fun a => match a with | ⟨0, _⟩ => rfl)]
  exact reduce_groups y g

/-! ## The stages, each read at an index -/

/-- Per group, the mean. -/
theorem meanG_apply (y : FVec Ideal S300000x8x8 .f32) (u : Fin 1) (g : Fin 8) (w : Fin 1) :
    meanG y (ix3 u g w) = Ideal.div (∑ n : Fin 300000, ∑ j : Fin 8, y (ix3 n g j)) cnt := by
  unfold meanG
  rw [hostDivf_apply, sumG_apply, broadcastInDim_scalar_apply, constant_apply]
  rfl

/-- A per-group value read at a point and channel of the group. -/
theorem overPts_apply (v : FVec Ideal S1x8x1 .f32) (n : Fin 300000) (g j : Fin 8) :
    overPts v (ix3 n g j) = v (ix3 (0 : Fin 1) g (0 : Fin 1)) := by
  unfold overPts
  exact broadcastInDim_apply _ _ _ _ _ (fun a => match a with | ⟨0, _⟩ => rfl | ⟨1, _⟩ => rfl | ⟨2, _⟩ => rfl)

/-- An entry less its group's mean. -/
theorem centred_apply (y : FVec Ideal S300000x8x8 .f32) (n : Fin 300000) (g j : Fin 8) :
    centred y (ix3 n g j)
      = y (ix3 n g j) - Ideal.div (∑ n' : Fin 300000, ∑ j' : Fin 8, y (ix3 n' g j')) cnt := by
  unfold centred
  rw [subf_apply, overPts_apply, meanG_apply]

/-- The variance's divisor is the count: the correction is the integer zero. -/
theorem dofG_apply (i : S_.Idx) : dofG (F := Ideal) i = cnt := by
  unfold dofG
  rw [subf_apply, constant_apply, sitofp_apply]
  show cnt - ((((0#32 : BitVec 32).toInt : ℤ) : ℝ) : EReal) = cnt
  simp

/-- The count is positive, so the guard on the divisor holds. -/
theorem dof_pos (i : S_.Idx) :
    cmpf .ogt (dofG (F := Ideal)) (constant (F := Ideal) S_ .f32 0x00000000#32) i = 1#1 := by
  rw [cmpf_apply, dofG_apply, constant_apply, Ideal.ofBits_zero_f32]
  show BitVec.ofBool (decide ((0 : EReal) < cnt)) = 1#1
  rw [Cert.Spec.cnt_eq, decide_eq_true (by exact_mod_cast (by norm_num : (0 : ℝ) < 2400000))]
  rfl

/-- Per group, the variance: the sum of the squared deviations over the count. -/
theorem varG_apply (y : FVec Ideal S300000x8x8 .f32) (u : Fin 1) (g : Fin 8) (w : Fin 1) :
    varG y (ix3 u g w)
      = Ideal.div (∑ n : Fin 300000, ∑ j : Fin 8,
          (y (ix3 n g j) - Ideal.div (∑ n' : Fin 300000, ∑ j' : Fin 8, y (ix3 n' g j')) cnt)
            * (y (ix3 n g j) - Ideal.div (∑ n' : Fin 300000, ∑ j' : Fin 8, y (ix3 n' g j')) cnt)) cnt := by
  unfold varG
  rw [select_apply, broadcastInDim_scalar_apply, dof_pos, select_one, hostDivf_apply, sumG_apply,
    broadcastInDim_scalar_apply, dofG_apply]
  refine congrArg (fun s => Ideal.div s cnt) ?_
  refine Finset.sum_congr rfl fun n _ => Finset.sum_congr rfl fun j _ => ?_
  rw [mulf_apply, centred_apply]

/-- Per group, (σ² + ε)^(−1/2). -/
theorem rinvG_apply (y : FVec Ideal S300000x8x8 .f32) (u : Fin 1) (g : Fin 8) (w : Fin 1) :
    rinvG y (ix3 u g w) = Ideal.rsqrt (varG y (ix3 u g w) + eps) := by
  unfold rinvG
  show Ideal.rsqrt (addf (varG y) _ (ix3 u g w)) = _
  rw [addf_apply, broadcastInDim_scalar_apply, constant_apply]
  rfl

/-- A per-channel vector read at a point and a channel. -/
theorem overRows_apply (a : FVec Ideal S64 .f32) (n : Fin 300000) (c : Fin 64) :
    overRows a (ix2 n c) = a (ix1 c) := by
  unfold overRows
  rw [broadcastInDim_apply _ _ _ _ (ix2 (0 : Fin 1) c) (fun a => match a with | ⟨0, _⟩ => rfl | ⟨1, _⟩ => rfl)]
  exact broadcastInDim_apply _ _ _ _ _ (fun a => match a with | ⟨0, _⟩ => rfl)

/-! ## The normalised array, the affine map and the rectifier -/

/-- The normalised entry at point n and channel c, in the specification's words. -/
theorem normed_apply (x : FVec Ideal S300000x64 .f32) (n : Fin 300000) (c : Fin 64) :
    normed x (ix2 n c) = (x (ix2 n c) - Cert.Spec.mean x (grp c)) * Cert.Spec.rinvR x (grp c) := by
  unfold normed
  rw [ungroup_apply, mulf_apply, centred_apply, overPts_apply, rinvG_apply, varG_apply]
  simp only [asGroups_apply, gch_grp]
  rfl

/-- The select on "at least zero" is the rectifier. -/
theorem select_oge (v : EReal) :
    Scalar.select (Ideal.cmp .oge v 0) v (slope * v) = Cert.Spec.leaky v := by
  show (if BitVec.ofBool (decide ((0 : EReal) ≤ v)) = 1 then v else slope * v) = if 0 ≤ v then v else slope * v
  by_cases h : (0 : EReal) ≤ v
  · rw [if_pos h, decide_eq_true h]; rfl
  · rw [if_neg h, decide_eq_false h]; rfl

/-- The reference's tail is the specification's reference form. -/
theorem tailR_eq (x : Cert.Spec.Arr) (γ β : Cert.Spec.Chan) :
    tailR (F := Ideal) x γ β = Cert.Spec.RTail x γ β := by
  funext i
  obtain ⟨n, c, rfl⟩ : ∃ (n : Fin 300000) (c : Fin 64), i = ix2 n c := ⟨i 0, i 1, eq_ix2 i⟩
  unfold tailR leakyR affine
  rw [select_apply, cmpf_apply, mulf_apply, addf_apply, mulf_apply, normed_apply, overRows_apply, overRows_apply,
    broadcastInDim_scalar_apply, broadcastInDim_scalar_apply, constant_apply, constant_apply, Ideal.ofBits_zero_f32]
  exact select_oge _

end Cert.ReferenceIdeal.Hand

end
-- ==== Proof.Front.lean ====
/-
  The front of the two programs: the accumulated sparse-convolution output.

  Over the extended reals rounding to a narrower format is the identity, so the kernel's gathered rows and
  weights are the reference's; per kernel offset the reference's batched product, read at an index, is the sum
  over the 32 input channels of gathered entry times weight entry, which is the convolution the kernel's first
  region computes.  Both programs then add the 27 · 100000 product rows into a zero array at the same wrapped
  output indices, so the two accumulated arrays are one array.  Each of its entries is zero plus a finite sum of
  finite sums of products of input entries: a real number when every input entry is.
-/
import proofs.«127601_j2001454760193_1_alg».proof.Proof.KI.HostA
import proofs.«127601_j2001454760193_1_alg».proof.Proof.Ref.Terms
import proofs.«127601_j2001454760193_1_alg».proof.Proof.SpecK
import proofs.«127601_j2001454760193_1_alg».proof.Proof.Bridge
import Idealize.ShloMosaic.PureOps.Ideal.Laws
import Idealize.ShloMosaic.Lib.ValueIdx
import Idealize.ShloMosaic.Lib.StackMember

noncomputable section

namespace Cert.Proof.Hand

open Idealize.ShloMosaic Idealize.ShloMosaic.ValueIdx
/-! ## The two programs' shape records and index chains are the same -/

/-- The two programs' gather records are one record. -/
theorem gatherRec_eq :
    Cert.KernelIdeal.gather_S300000x32_S27x100000x1_S27x100000x32_2_0_n_n_0_2_132
      = Cert.ReferenceIdeal.gather_S300000x32_S27x100000x1_S27x100000x32_2_0_n_n_0_2_132 := rfl

/-- The two programs' scatter records are one record. -/
theorem scatterRec_eq :
    Cert.KernelIdeal.scatter_S300000x64_S2700000x1_S2700000x64_1_0_0_1
      = Cert.ReferenceIdeal.scatter_S300000x64_S2700000x1_S2700000x64_1_0_0_1 := rfl

/-- Rounding to the narrower format is the identity on the extended reals, and the two programs wrap the input
    indices alike: the kernel's gathered rows are the reference's. -/
theorem gK_eq (a0 : FVec Ideal Cert.KernelIdeal.S300000x32 .f32) (a4 : IVec Cert.KernelIdeal.S27x100000 32) :
    Cert.KernelIdeal.Hand.gK (F := Ideal) a0 a4 = Cert.ReferenceIdeal.Hand.gatherIn (F := Ideal) a0 a4 := rfl

/-- The kernel's rounded weights are the weights. -/
theorem wK_eq (a1 : FVec Ideal Cert.KernelIdeal.S27x32x64 .f32) :
    Cert.KernelIdeal.Hand.wK (F := Ideal) a1 = a1 := rfl

/-- The two programs wrap the flattened output indices alike. -/
theorem outIdx_eq (a5 : IVec Cert.KernelIdeal.S27x100000 32) :
    Cert.KernelIdeal.Hand.normIdx Cert.KernelIdeal.Facts₀.bcast_S_S2700000
        (shapeCast Cert.KernelIdeal.S2700000 a5 Cert.KernelIdeal.Facts₀.shapeCasts_S27x100000_S2700000)
      = Cert.ReferenceIdeal.Hand.wrapFlat
        (shapeCast Cert.ReferenceIdeal.S2700000 a5 Cert.ReferenceIdeal.Facts₀.shapeCasts_S27x100000_S2700000) := rfl

/-! ## The reference's batched product is the convolution -/

/-- Per kernel offset, the reference's product read at an index: the sum over the 32 input channels. -/
theorem convRows_apply (a0 : FVec Ideal Cert.ReferenceIdeal.S300000x32 .f32)
    (a1 : FVec Ideal Cert.ReferenceIdeal.S27x32x64 .f32) (a4 : IVec Cert.ReferenceIdeal.S27x100000 32)
    (k : Fin 27) (p : Fin 100000) (o : Fin 64) :
    Cert.ReferenceIdeal.Hand.convRows (F := Ideal) a0 a1 a4 (ix3 k p o)
      = ∑ c : Fin 32, Cert.ReferenceIdeal.Hand.gatherIn (F := Ideal) a0 a4 (ix3 k p c) * a1 (ix3 k c o) :=
  StackMember.dotGeneral_stack_apply (G := 27) (m := 100000) (n := 64) (k := 32)
    Cert.ReferenceIdeal.Facts₀.dot_S27x100000x32_S27x32x64_S27x100000x64_2_1_1_2_0_0_wf none
    (Cert.ReferenceIdeal.Hand.gatherIn (F := Ideal) a0 a4) a1 k p o

/-- The convolution of the kernel's gathered rows with its weights is the reference's product array. -/
theorem conv_eq (a0 : FVec Ideal Cert.KernelIdeal.S300000x32 .f32) (a1 : FVec Ideal Cert.KernelIdeal.S27x32x64 .f32)
    (a4 : IVec Cert.KernelIdeal.S27x100000 32) :
    Cert.Spec.conv (Cert.KernelIdeal.Hand.gK (F := Ideal) a0 a4) (Cert.KernelIdeal.Hand.wK (F := Ideal) a1)
      = Cert.ReferenceIdeal.Hand.convRows (F := Ideal) a0 a1 a4 := by
  funext j
  obtain ⟨k, p, o, rfl⟩ : ∃ (k : Fin 27) (p : Fin 100000) (o : Fin 64), j = ix3 k p o := ⟨j 0, j 1, j 2, eq_ix3 j⟩
  rw [convRows_apply, gK_eq, wK_eq]
  rfl

/-! ## The accumulated output -/

/-- Both programs add the same product rows into the zero array at the same wrapped output indices. -/
theorem front_eq (a0 : FVec Ideal Cert.KernelIdeal.S300000x32 .f32) (a1 : FVec Ideal Cert.KernelIdeal.S27x32x64 .f32)
    (a4 a5 : IVec Cert.KernelIdeal.S27x100000 32) :
    Cert.KernelIdeal.Hand.outK (F := Ideal)
        (Cert.Spec.conv (Cert.KernelIdeal.Hand.gK (F := Ideal) a0 a4) (Cert.KernelIdeal.Hand.wK (F := Ideal) a1)) a5
      = Cert.ReferenceIdeal.Hand.outR (F := Ideal) a0 a1 a4 a5 := by
  rw [conv_eq]
  unfold Cert.KernelIdeal.Hand.outK Cert.ReferenceIdeal.Hand.outR
  rw [outIdx_eq, scatterRec_eq]

/-- Every entry of the reference's product array is a real number when the inputs' entries are. -/
theorem convRows_fin (a0 : FVec Ideal Cert.ReferenceIdeal.S300000x32 .f32)
    (a1 : FVec Ideal Cert.ReferenceIdeal.S27x32x64 .f32) (a4 : IVec Cert.ReferenceIdeal.S27x100000 32)
    (h0 : ∀ i, Cert.Spec.Fin' (a0 i)) (h1 : ∀ i, Cert.Spec.Fin' (a1 i)) (j : Cert.ReferenceIdeal.S27x100000x64.Idx) :
    Cert.Spec.Fin' (Cert.ReferenceIdeal.Hand.convRows (F := Ideal) a0 a1 a4 j) := by
  obtain ⟨k, p, o, rfl⟩ : ∃ (k : Fin 27) (p : Fin 100000) (o : Fin 64), j = ix3 k p o := ⟨j 0, j 1, j 2, eq_ix3 j⟩
  rw [convRows_apply]
  refine Cert.Spec.fin_sum _ _ fun c _ => Cert.Spec.fin_mul ?_ (h1 _)
  exact h0 _

/-! ## Real entries, stated over any shapes and instantiated last -/

/-- A reshaped array's entry is an entry of the array it reshapes. -/
theorem shapeCast_entry {s t : Shape} {α : Type} (x : s.Idx → α) (h : s.ShapeCasts t) (j : t.Idx) :
    shapeCast t x h j = x (Shape.reshapeEquiv h j) := rfl

/-- An entry of an accumulating scatter is the operand's entry plus a finite sum of update entries: a real
    number when the operand's and the updates' entries are. -/
theorem scatterAdd_fin {s si su : Shape} {w : Nat} (d : ScatterDims s si su) (x : FVec Ideal s .f32) (idx : IVec si w)
    (upd : FVec Ideal su .f32) (hx : ∀ i, Cert.Spec.Fin' (x i)) (hu : ∀ j, Cert.Spec.Fin' (upd j)) (i : s.Idx) :
    Cert.Spec.Fin' (Host.scatterAdd (F := Ideal) d x idx upd i) := by
  show Cert.Spec.Fin' (Ideal.hostScatterAdd d x idx upd i)
  unfold Ideal.hostScatterAdd
  exact Cert.Spec.fin_add (hx i) (Cert.Spec.fin_sum _ _ fun j _ => hu j)

/-- Every entry of the zero word's splat is the real number zero. -/
theorem zeros_fin {t : Shape} (h : Cert.ReferenceIdeal.S_.BroadcastsInDim t (![] : Fin 0 → Fin t.rank)) (i : t.Idx) :
    Cert.Spec.Fin' (broadcastInDim t ![] h (constant (F := Ideal) Cert.ReferenceIdeal.S_ .f32 0x00000000#32) i) := by
  show Cert.Spec.Fin' (Ideal.ofBits .f32 0x00000000#32)
  rw [Ideal.ofBits_zero_f32]; exact Cert.Spec.fin_zero

/-- Every entry of the accumulated output is zero plus a finite sum of product entries: a real number. -/
theorem front_fin (a0 : FVec Ideal Cert.ReferenceIdeal.S300000x32 .f32)
    (a1 : FVec Ideal Cert.ReferenceIdeal.S27x32x64 .f32) (a4 a5 : IVec Cert.ReferenceIdeal.S27x100000 32)
    (h0 : ∀ i, Cert.Spec.Fin' (a0 i)) (h1 : ∀ i, Cert.Spec.Fin' (a1 i)) :
    ∀ i, Cert.Spec.Fin' (Cert.ReferenceIdeal.Hand.outR (F := Ideal) a0 a1 a4 a5 i) := by
  intro i
  unfold Cert.ReferenceIdeal.Hand.outR
  refine scatterAdd_fin _ _ _ _ (fun i' => zeros_fin _ i') (fun j => ?_) i
  rw [shapeCast_entry]
  exact convRows_fin a0 a1 a4 h0 h1 _

end Cert.Proof.Hand

end
-- ==== Proof.Pre.lean ====
/-
  From the precondition to real numbers.

  The precondition is the conjunction of four tests, one per float argument array: every entry's absolute
  value is below +∞.  On the extended reals `max x (-x) < ⊤` says exactly that `x` is neither infinity,
  so under the precondition every entry of the four float arrays is a real number.
-/
import proofs.«127601_j2001454760193_1_alg».proof.Defs
import proofs.«127601_j2001454760193_1_alg».proof.Proof.Gen.Pre_finite_inputs
import proofs.«127601_j2001454760193_1_alg».proof.Proof.Spec
import Idealize.ShloMosaic.Lib.ReduceAll
import Idealize.ShloMosaic.Lib.ValueIdx

noncomputable section

namespace Cert.Proof.Hand

open Idealize.ShloMosaic Idealize.ShloMosaic.ValueIdx

/-- The scalar shape has one index. -/
instance subsingleton_scalar_idx : Subsingleton Cert.Pre_finite_inputs.S_.Idx :=
  ⟨fun a b => funext fun d => d.elim0⟩

/-- The word `0x7F800000` read as an extended real is +∞. -/
theorem ofBits_inf : Ideal.ofBits .f32 0x7F800000#32 = (⊤ : EReal) := by
  simp [Ideal.ofBits, Ideal.ieee]

/-- An extended real whose absolute value is below +∞ is a real number. -/
theorem fin_of_abs_lt_top (x : EReal) (h : max x (-x) < ⊤) : Cert.Spec.Fin' x := by
  induction x using EReal.rec with
  | bot => simp at h
  | top => simp at h
  | coe r => exact ⟨EReal.coe_ne_top r, EReal.coe_ne_bot r⟩

/-- One entry's test, read back: the comparison `|x| < +∞` came out true, so `x` is a real number. -/
theorem fin_of_cmp (x : Ideal .f32)
    (h : FloatOps.cmpf (F := Ideal) .olt (FloatOps.hostAbsf x) (FloatOps.ofBits .f32 0x7F800000#32) = 1#1) :
    Cert.Spec.Fin' x := by
  have h' : Ideal.cmp .olt (max x (-x)) (Ideal.ofBits .f32 0x7F800000#32) = 1#1 := h
  rw [ofBits_inf] at h'
  refine fin_of_abs_lt_top x ?_
  by_contra hn
  have h0 : Ideal.cmp .olt (max x (-x)) ⊤ = 0#1 := by
    simp only [Ideal.cmp, decide_eq_false hn]; rfl
  rw [h0] at h'
  exact absurd h' (by decide)

variable [Cert.Pre_finite_inputs.Facts]

theorem fin_of_fn (a0 : FVec Ideal Cert.Pre_finite_inputs.S300000x32 .f32)
    (a1 : FVec Ideal Cert.Pre_finite_inputs.S27x32x64 .f32)
    (a2 a3 : FVec Ideal Cert.Pre_finite_inputs.S64 .f32)
    (a4 a5 : IVec Cert.Pre_finite_inputs.S27x100000 32)
    (h : Cert.Pre_finite_inputs.fn (F := Ideal) a0 a1 a2 a3 a4 a5 = fun _ => 1#1) :
    (∀ i, Cert.Spec.Fin' (a0 i)) ∧ (∀ i, Cert.Spec.Fin' (a1 i)) ∧ (∀ i, Cert.Spec.Fin' (a2 i)) ∧
      (∀ i, Cert.Spec.Fin' (a3 i)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h00, h1⟩ := IntOp.andi_eq_one.1 h01
  exact ⟨fun i => fin_of_cmp _ (Host.reduce_andi_all _ _ _ _ _ h00 i),
    fun i => fin_of_cmp _ (Host.reduce_andi_all _ _ _ _ _ h1 i),
    fun i => fin_of_cmp _ (Host.reduce_andi_all _ _ _ _ _ h2 i),
    fun i => fin_of_cmp _ (Host.reduce_andi_all _ _ _ _ _ h3 i)⟩

end Cert.Proof.Hand

end
-- ==== Proof.lean ====
/-
  Sparse 3-D convolution by rulebook (gather, per-offset matrix product, scatter-add) followed by GroupNorm over
  8 groups of 8 channels and a leaky rectifier, on 300000 points: the kernel's program against the plain reference,
  over the extended reals.

  Both programs gather rows of the features at the same normalised indices, multiply by the offset's weight
  matrix and scatter-add the products into the same zero array: the same array `x` of real numbers (the float
  inputs being finite).  From `x` the kernel takes per group the sum and the sum of squares, forms the variance as
  E[x²] − (E[x])² and applies one multiply-add `x·(γ·r) + (β − μ·γ·r)` per entry; the reference centres first,
  takes the variance as E[(x − μ)²] and applies `((x − μ)·r)·γ + β`.  Over the reals the two variances are one
  number, so `r = (σ² + ε)^(−1/2)` is one real number, and the two affine forms agree by distributivity; the
  rectifier is the same function on both sides.
-/
import proofs.«127601_j2001454760193_1_alg».proof.Defs
import proofs.«127601_j2001454760193_1_alg».proof.Proof.Gen.Kernel
import proofs.«127601_j2001454760193_1_alg».proof.Proof.Gen.KernelIdeal
import proofs.«127601_j2001454760193_1_alg».proof.Proof.Gen.ReferenceIdeal
import proofs.«127601_j2001454760193_1_alg».proof.Proof.Gen.Pre_finite_inputs
import proofs.«127601_j2001454760193_1_alg».proof.Proof.K.Run
import proofs.«127601_j2001454760193_1_alg».proof.Proof.KI.Run
import proofs.«127601_j2001454760193_1_alg».proof.Proof.KI.Value
import proofs.«127601_j2001454760193_1_alg».proof.Proof.Ref.Run
import proofs.«127601_j2001454760193_1_alg».proof.Proof.Ref.Tail
import proofs.«127601_j2001454760193_1_alg».proof.Proof.Front
import proofs.«127601_j2001454760193_1_alg».proof.Proof.Pre
import proofs.«127601_j2001454760193_1_alg».proof.Proof.Bridge

noncomputable section

namespace Cert.Proof

open Idealize.ShloMosaic Idealize.SL.Sem

/-- The word-level program runs to the end and keeps its arguments. -/
theorem frame_k : Cert.frame_Kernel (hKernel := Cert.Kernel.Gen.facts) (hPre_finite_inputs := Cert.Pre_finite_inputs.Gen.facts) :=
  fun m ρ _ => Cert.Kernel.Hand.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's run, its result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run m ρ)

/-- From memories that agree on the arguments both runs end with the same array: the kernel's at its own form of
    the normalised, rectified `x`, the reference's at the centred form, equal because `x`, `γ` and `β` are real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.HandV.resK m c, ?_, ?_⟩
  · refine (θ_run Cert.KernelIdeal.defs _ _).mono (fun r h c => ?_) (Cert.KernelIdeal.Hand.run_all (F := Ideal) m ρ)
    refine ⟨(h c _ (Cert.KernelIdeal.Hand.mem_uc Cert.KernelIdeal.main_v45 (by decide))).trans (Cert.KernelIdeal.HandV.kernel_value m ρ c), ?_, ?_, ?_, ?_, ?_, ?_⟩
    · exact (h c _ (Cert.KernelIdeal.Hand.mem_uc Cert.KernelIdeal.main_arg0 (by decide))).trans (Cert.KernelIdeal.Hand.W8_main_arg0 m ρ c)
    · exact (h c _ (Cert.KernelIdeal.Hand.mem_uc Cert.KernelIdeal.main_arg1 (by decide))).trans (Cert.KernelIdeal.Hand.W8_main_arg1 m ρ c)
    · exact (h c _ (Cert.KernelIdeal.Hand.mem_uc Cert.KernelIdeal.main_arg2 (by decide))).trans (Cert.KernelIdeal.Hand.W8_main_arg2 m ρ c)
    · exact (h c _ (Cert.KernelIdeal.Hand.mem_uc Cert.KernelIdeal.main_arg3 (by decide))).trans (Cert.KernelIdeal.Hand.W8_main_arg3 m ρ c)
    · exact (h c _ (Cert.KernelIdeal.Hand.mem_uc Cert.KernelIdeal.main_arg4 (by decide))).trans (Cert.KernelIdeal.Hand.W8_main_arg4 m ρ c)
    · exact (h c _ (Cert.KernelIdeal.Hand.mem_uc Cert.KernelIdeal.main_arg5 (by decide))).trans (Cert.KernelIdeal.Hand.W8_main_arg5 m ρ c)
  · refine (θ_run Cert.ReferenceIdeal.defs _ _).mono (fun r h c => ⟨(h c).1.trans ?_, (h c).2⟩)
      (Cert.ReferenceIdeal.Hand.run m' ρ')
    obtain ⟨h0, h1, h2, h3⟩ := Cert.Proof.Hand.fin_of_fn _ _ _ _ _ _ (hpre c)
    rw [(hagree c).1, (hagree c).2.1, (hagree c).2.2.1, (hagree c).2.2.2.1, (hagree c).2.2.2.2.1, (hagree c).2.2.2.2.2,
      Cert.ReferenceIdeal.Hand.tailR_eq]
    beta_reduce
    unfold Cert.KernelIdeal.HandV.resK
    rw [show Cert.KernelIdeal.HandV.xK m c = _ from Cert.Proof.Hand.front_eq _ _ _ _]
    exact (Cert.Spec.tail_eq _ _ _ (Cert.Proof.Hand.front_fin _ _ _ _ h0 h1) h2 h3).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
